-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v0_0)) (v4 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v0_0) = v3 c
          ∧ r.2.mem ((c.tc : Thread Cert.KernelIdeal.nD Cert.KernelIdeal.τ).loc Cert.KernelIdeal.main_v0_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v140) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S65536x512 : Shape := ⟨2, ![65536, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_

variable [Facts]

def fn_part1 {F : FTy → Type} [FloatOps F] (main_v13 : IVec S_ 1) (main_v16 : IVec S65536x512 1) : IVec S_ 1 :=
  let main_c_5 : IVec S_ 1 := constantI S_ 1 1#1
  let main_v17 : IVec S_ 1 := (fun x v => Host.reduce IntOp.andi x v reducesTo_S65536x512_S_d0_1 h_S_) main_v16 main_c_5
  let main_v18 : IVec S_ 1 := andi main_v13 main_v17
  main_v18

def fn {F : FTy → Type} [FloatOps F] (main_arg0 : FVec F S64x512 .f32) (main_arg1 : FVec F S64x512 .f32) (main_arg2 : FVec F S65536x512 .f32) (main_arg3 : FVec F S65536x512 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S65536x512 .f32 := Host.absf main_arg2
  let main_cst_2 : FVec F S_ .f32 := constant S_ .f32 0x7F800000#32
  let main_v10 : FVec F S65536x512 .f32 := broadcastInDim S65536x512 ![] bcast_S_S65536x512 main_cst_2
  let main_v11 : IVec S65536x512 1 := cmpf .olt main_v9 main_v10
  let main_c_3 : IVec S_ 1 := constantI S_ 1 1#1
  let main_v12 : IVec S_ 1 := (fun x v => Host.reduce IntOp.andi x v reducesTo_S65536x512_S_d0_1 h_S_) main_v11 main_c_3
  let main_v13 : IVec S_ 1 := andi main_v8 main_v12
  let main_v14 : FVec F S65536x512 .f32 := Host.absf main_arg3
  let main_cst_4 : FVec F S_ .f32 := constant S_ .f32 0x7F800000#32
  let main_v15 : FVec F S65536x512 .f32 := broadcastInDim S65536x512 ![] bcast_S_S65536x512 main_cst_4
  let main_v16 : IVec S65536x512 1 := cmpf .olt main_v14 main_v15
  fn_part1 (F := F) main_v13 main_v16
-- ==== Kernel.lean ====
abbrev S64x512 : Shape := ⟨2, ![64, 512]⟩
abbrev S65536x512 : Shape := ⟨2, ![65536, 512]⟩
abbrev S65536x64 : Shape := ⟨2, ![65536, 64]⟩
abbrev S65536x1 : Shape := ⟨2, ![65536, 1]⟩
abbrev S1024x512 : Shape := ⟨2, ![1024, 512]⟩
abbrev S1024x64 : Shape := ⟨2, ![1024, 64]⟩
abbrev S1024x1 : Shape := ⟨2, ![1024, 1]⟩
abbrev S1024 : Shape := ⟨1, ![1024]⟩
abbrev S64 : Shape := ⟨1, ![64]⟩
abbrev S1x64 : Shape := ⟨2, ![1, 64]⟩
abbrev S512x64 : Shape := ⟨2, ![512, 64]⟩
abbrev S_ : Shape := ⟨0, ![]⟩
abbrev S1 : Shape := ⟨1, ![1]⟩
abbrev S1x1 : Shape := ⟨2, ![1, 1]⟩

abbrev nBuf : Space → Nat
  | .hbm => 29
  | .vmem => 32
  | .smem => 2
  | _ => 0

abbrev bufTy : (tb : Table) → Fin (tcTables nBuf tb) → BufTy
  | .hbm, ⟨0, _⟩ => ⟨S64x512, .f32⟩
  | .hbm, ⟨1, _⟩ => ⟨S64x512, .f32⟩
  | .hbm, ⟨2, _⟩ => ⟨S65536x512, .f32⟩
  | .hbm, ⟨3, _⟩ => ⟨S65536x512, .f32⟩
  | .hbm, ⟨4, _⟩ => ⟨S65536x64, .f32⟩
  | .hbm, ⟨5, _⟩ => ⟨S65536x64, .f32⟩
  | .hbm, ⟨6, _⟩ => ⟨S65536x64, .f32⟩
  | .hbm, ⟨7, _⟩ => ⟨S65536x1, .f32⟩
  | .hbm, ⟨8, _⟩ => ⟨S65536x1, .f32⟩
  | .hbm, ⟨9, _⟩ => ⟨S65536x1, .f32⟩
  | .hbm, ⟨10, _⟩ => ⟨S65536x1, .f32⟩
  | .hbm, ⟨11, _⟩ => ⟨S65536x1, .i1⟩
  | .hbm, ⟨12, _⟩ => ⟨S65536x1, .i1⟩
  | .hbm, ⟨13, _⟩ => ⟨S65536x1, .i1⟩
  | .hbm, ⟨14, _⟩ => ⟨S65536x1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S64x512, .f32⟩
  | .local _ .vmem, ⟨1, _⟩ => ⟨S64x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x64, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1x1, .f32⟩
  | .local _ .vmem, ⟨29, _⟩ => ⟨S1x1, .f32⟩
  | .local _ .vmem, ⟨30, _⟩ => ⟨S1x1, .f32⟩
  | .local _ .vmem, ⟨31, _⟩ => ⟨S1x1, .f32⟩
  | .local _ .smem, ⟨0, _⟩ => ⟨S1, .i32⟩
  | .local _ .smem, ⟨1, _⟩ => ⟨S1, .i32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v11_0 : Ref sig .tc := ⟨.hbm, 23, rfl⟩
abbrev main_v11_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v9 : Ref sig .tc := ⟨.smem, 0, rfl⟩
abbrev main_v10 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg5_0 : Ref sig .tc := ⟨.vmem, 29, rfl⟩
abbrev cc1_scratch0 : Ref sig .tc := ⟨.vmem, 30, rfl⟩
abbrev cc1_scratch1 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem5_0 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![64], ![false]⟩

abbrev pre1 : Pipeline.Prefetch sig := ⟨2, ![main_v9.idx, main_v10.idx], fun | 0 => main_v9.names | 1 => main_v10.names | ⟨_ + 2, h⟩ => absurd h (Nat.not_lt.2 (Nat.le_add_left _ _)), fun | 0 => rfl | 1 => rfl | ⟨_ + 2, h⟩ => absurd h (Nat.not_lt.2 (Nat.le_add_left _ _))⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S1024x512_S1024x512_0_0 : ∀ a, (![0, 0] : Fin 2 → Nat) a + S1024x512.size a ≤ S1024x512.size a
  h_S1024x512 : 0 < S1024x512.numel
  inb_S64x512_S64x512_0_0 : ∀ a, (![0, 0] : Fin 2 → Nat) a + S64x512.size a ≤ S64x512.size a
  h_S64x512 : 0 < S64x512.numel
  reduces_S1024x512_S1024 : S1024x512.Reduces [1] S1024
  shapeCasts_S1024_S1024x1 : S1024.ShapeCasts S1024x1
  reduces_S64x512_S64 : S64x512.Reduces [1] S64
  shapeCasts_S64_S1x64 : S64.ShapeCasts S1x64
  bitsLt_bf16_f32 : FTy.bits .bf16 < FTy.bits .f32
  transposes_S64x512_p1_0_S512x64 : S64x512.Transposes [1, 0] S512x64
  broadcasts_S1024x1_S1024x64 : S1024x1.Broadcasts S1024x64
  broadcasts_S1x64_S1024x64 : S1x64.Broadcasts S1024x64
  reduces_S1024x64_S1024 : S1024x64.Reduces [1] S1024
  inb_S1024x64_S1024x64_0_0 : ∀ a, (![0, 0] : Fin 2 → Nat) a + S1024x64.size a ≤ S1024x64.size a
  h_S1024x64 : 0 < S1024x64.numel
  inb_S1024x1_S1024x1_0_0 : ∀ a, (![0, 0] : Fin 2 → Nat) a + S1024x1.size a ≤ S1024x1.size a
  h_S1024x1 : 0 < S1024x1.numel
  natLt_1_32 : 1 < 32
  reducesTo_S65536x1_S_d0_1 : S65536x1.ReducesTo [0, 1] S_
  h_S_ : 0 < S_.numel
  shapeCasts_S_S1 : S_.ShapeCasts S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1024x64_S1024x64 : S1024x64.ShapeCasts S1024x64
  shapeCasts_S1024x1_S1024x1 : S1024x1.ShapeCasts S1024x1
  iota_S1024x1_d0_w32 : S1024x1.Iotas .tc 32 [0]
  inb_S1_S1_0 : ∀ a, (![0] : Fin 1 → Nat) a + S1.size a ≤ S1.size a
  numel1_S1 : S1.numel = 1
  reduces_S1024x1_S1 : S1024x1.Reduces [0] S1
  shapeCasts_S1_S1x1 : S1.ShapeCasts S1x1
  shapeCasts_S1x1_S_ : S1x1.ShapeCasts S_
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S65536x512.size a
  hwx0_2 : ∀ i : grid0.Coords, EltTy.bits .f32 = 32 ∨ (Rect.block (s := S65536x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S65536x512.size a
  hwx0_3 : ∀ i : grid0.Coords, EltTy.bits .f32 = 32 ∨ (Rect.block (s := S65536x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S65536x64.size a
  hwx0_4 : ∀ i : grid0.Coords, EltTy.bits .f32 = 32 ∨ (Rect.block (s := S65536x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S65536x64.size a
  hwx0_5 : ∀ i : grid0.Coords, EltTy.bits .f32 = 32 ∨ (Rect.block (s := S65536x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S65536x64.size a
  hwx0_6 : ∀ i : grid0.Coords, EltTy.bits .f32 = 32 ∨ (Rect.block (s := S65536x64) S1024x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S65536x1.size a
  hwx0_7 : ∀ i : grid0.Coords, EltTy.bits .f32 = 32 ∨ (Rect.block (s := S65536x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S65536x1.size a
  hwx0_8 : ∀ i : grid0.Coords, EltTy.bits .f32 = 32 ∨ (Rect.block (s := S65536x1) S1024x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S65536x1.size a
  hwx0_9 : ∀ i : grid0.Coords, EltTy.bits .f32 = 32 ∨ (Rect.block (s := S65536x1) S1024x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S65536x1.size a
  hwx0_10 : ∀ i : grid0.Coords, EltTy.bits .f32 = 32 ∨ (Rect.block (s := S65536x1) S1024x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S65536x64.size a
  hwx1_0 : ∀ i : grid1.Coords, EltTy.bits .f32 = 32 ∨ (Rect.block (s := S65536x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S65536x64.size a
  hwx1_1 : ∀ i : grid1.Coords, EltTy.bits .f32 = 32 ∨ (Rect.block (s := S65536x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S65536x1.size a
  hwx1_2 : ∀ i : grid1.Coords, EltTy.bits .f32 = 32 ∨ (Rect.block (s := S65536x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S65536x1.size a
  hwx1_3 : ∀ i : grid1.Coords, EltTy.bits .f32 = 32 ∨ (Rect.block (s := S65536x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_4) S1024x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_5) S1024x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_6) S1024x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev spec1_0 : Pipeline.WinSpec sig grid1.rank :=
  Pipeline.WinSpec.ofSpec (Memref.whole main_v0_1) S1024x64.size reads1_0 false false 2 stage1_0 sem1_0 nbuf1_0 hstage1_0

abbrev spec1_1 : Pipeline.WinSpec sig grid1.rank :=
  Pipeline.WinSpec.ofSpec (Memref.whole main_v0_0) S1024x64.size reads1_1 false false 2 stage1_1 sem1_1 nbuf1_1 hstage1_1

abbrev spec1_2 : Pipeline.WinSpec sig grid1.rank :=
  Pipeline.WinSpec.ofSpec (Memref.whole main_v0_5) S1024x1.size reads1_2 false false 2 stage1_2 sem1_2 nbuf1_2 hstage1_2

abbrev spec1_3 : Pipeline.WinSpec sig grid1.rank :=
  Pipeline.WinSpec.ofSpec (Memref.whole main_v0_3) S1024x1.size reads1_3 false false 2 stage1_3 sem1_3 nbuf1_3 hstage1_3

abbrev spec1_4 : Pipeline.WinSpec sig grid1.rank :=
  Pipeline.WinSpec.ofSpec (Memref.whole main_v11_0) S1x1.size reads1_4 true true 1 stage1_4 sem1_4 nbuf1_4 hstage1_4

abbrev spec1_5 : Pipeline.WinSpec sig grid1.rank :=
  Pipeline.WinSpec.ofSpec (Memref.whole main_v11_1) S1x1.size reads1_5 true true 1 stage1_5 sem1_5 nbuf1_5 hstage1_5

abbrev spec1 : Fin 6 → Pipeline.WinSpec sig grid1.rank := fun | 0 => spec1_0 | 1 => spec1_1 | 2 => spec1_2 | 3 => spec1_3 | 4 => spec1_4 | 5 => spec1_5 | ⟨_ + 6, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | ⟨_ + 6, h⟩ => absurd h (Nat.not_lt.2 (Nat.le_add_left _ _))
abbrev ix1 (pf : pre1.Contents (Elt F)) : (w : Fin 6) → grid1.Coords → Fin (spec1 w).shape.rank → Nat := fun | 0 => cc1_transform_0 | 1 => cc1_transform_1 | 2 => cc1_transform_2 | 3 => cc1_transform_3 | 4 => cc1_transform_4 | 5 => cc1_transform_5 | ⟨_ + 6, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | 5 => hreads1_5 | ⟨_ + 6, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | 5 => hinb1_5 | ⟨_ + 6, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | 5 => hwx1_5 | ⟨_ + 6, h⟩ => absurd h (Nat.not_lt.2 (Nat.le_add_left _ _))

class Facts : Prop extends Facts₀ where
  harr1 : ∀ w, (spec1 w).arr.IsWhole

variable [Facts]
-- ==== ReferenceIdeal.lean ====
abbrev S64x512 : Shape := ⟨2, ![64, 512]⟩
abbrev S65536x512 : Shape := ⟨2, ![65536, 512]⟩
abbrev S_ : Shape := ⟨0, ![]⟩
abbrev S65536 : Shape := ⟨1, ![65536]⟩
abbrev S65536x1 : Shape := ⟨2, ![65536, 1]⟩
abbrev S512x64 : Shape := ⟨2, ![512, 64]⟩
abbrev S65536x64 : Shape := ⟨2, ![65536, 64]⟩
abbrev S64 : Shape := ⟨1, ![64]⟩
abbrev S1x64 : Shape := ⟨2, ![1, 64]⟩

abbrev nBuf : Space → Nat
  | .hbm => 184
  | .vmem => 0
  | .smem => 0
  | _ => 0

abbrev hbmTy0_0 (i : Nat) : BufTy := match i % 128 with
  | 0 => ⟨S64x512, .f32⟩
  | 1 => ⟨S64x512, .f32⟩
  | 2 => ⟨S65536x512, .f32⟩
  | 3 => ⟨S65536x512, .f32⟩
  | 4 => ⟨S65536x512, .f32⟩
  | 5 => ⟨S_, .f32⟩
  | 6 => ⟨S65536, .f32⟩
  | 7 => ⟨S65536x1, .f32⟩
  | 8 => ⟨S512x64, .f32⟩
  | 9 => ⟨S65536x64, .f32⟩
  | 10 => ⟨S_, .f32⟩
  | 11 => ⟨S65536x64, .f32⟩
  | 12 => ⟨S65536x64, .f32⟩
  | 13 => ⟨S65536x64, .f32⟩
  | 14 => ⟨S65536x64, .f32⟩
  | 15 => ⟨S64x512, .f32⟩
  | 16 => ⟨S_, .f32⟩
  | 17 => ⟨S64, .f32⟩
  | 18 => ⟨S1x64, .f32⟩
  | 19 => ⟨S65536x64, .f32⟩
  | 20 => ⟨S65536x64, .f32⟩
  | 21 => ⟨S_, .f32⟩
  | 22 => ⟨S65536x64, .f32⟩
  | 23 => ⟨S65536x64, .f32⟩
  | 24 => ⟨S65536x64, .f32⟩
  | 25 => ⟨S65536x64, .f32⟩
  | 26 => ⟨S65536x64, .f32⟩
  | 27 => ⟨S_, .f32⟩
  | 28 => ⟨S65536, .f32⟩
  | 29 => ⟨S65536x1, .f32⟩
  | 30 => ⟨S65536x64, .f32⟩
  | 31 => ⟨S65536x64, .f32⟩
  | 32 => ⟨S_, .f32⟩
  | 33 => ⟨S65536, .f32⟩
  | 34 => ⟨S65536x64, .f32⟩
  | 35 => ⟨S65536x64, .f32⟩
  | 36 => ⟨S_, .f32⟩
  | 37 => ⟨S65536, .f32⟩
  | 38 => ⟨S65536, .f32⟩
  | 39 => ⟨S65536x512, .f32⟩
  | 40 => ⟨S_, .f32⟩
  | 41 => ⟨S65536, .f32⟩
  | 42 => ⟨S65536x1, .f32⟩
  | 43 => ⟨S512x64, .f32⟩
  | 44 => ⟨S65536x64, .f32⟩
  | 45 => ⟨S_, .f32⟩
  | 46 => ⟨S65536x64, .f32⟩
  | 47 => ⟨S65536x64, .f32⟩
  | 48 => ⟨S65536x64, .f32⟩
  | 49 => ⟨S65536x64, .f32⟩
  | 50 => ⟨S64x512, .f32⟩
  | 51 => ⟨S_, .f32⟩
  | 52 => ⟨S64, .f32⟩
  | 53 => ⟨S1x64, .f32⟩
  | 54 => ⟨S65536x64, .f32⟩
  | 55 => ⟨S65536x64, .f32⟩
  | 56 => ⟨S_, .f32⟩
  | 57 => ⟨S65536x64, .f32⟩
  | 58 => ⟨S65536x64, .f32⟩
  | 59 => ⟨S65536x64, .f32⟩
  | 60 => ⟨S65536x64, .f32⟩
  | 61 => ⟨S65536x64, .f32⟩
  | 62 => ⟨S_, .f32⟩
  | 63 => ⟨S65536, .f32⟩
  | 64 => ⟨S65536x1, .f32⟩
  | 65 => ⟨S65536x64, .f32⟩
  | 66 => ⟨S65536x64, .f32⟩
  | 67 => ⟨S_, .f32⟩
  | 68 => ⟨S65536, .f32⟩
  | 69 => ⟨S65536x64, .f32⟩
  | 70 => ⟨S65536x64, .f32⟩
  | 71 => ⟨S_, .f32⟩
  | 72 => ⟨S65536, .f32⟩
  | 73 => ⟨S65536, .f32⟩
  | 74 => ⟨S65536, .i1⟩
  | 75 => ⟨S65536, .i1⟩
  | 76 => ⟨S65536, .i1⟩
  | 77 => ⟨S65536, .i32⟩
  | 78 => ⟨S_, .i32⟩
  | 79 => ⟨S_, .i32⟩
  | 80 => ⟨S_, .i32⟩
  | 81 => ⟨S_, .i32⟩
  | 82 => ⟨S65536, .i32⟩
  | 83 => ⟨S65536x64, .f32⟩
  | 84 => ⟨S65536x64, .f32⟩
  | 85 => ⟨S65536x64, .f32⟩
  | 86 => ⟨S_, .f32⟩
  | 87 => ⟨S65536, .f32⟩
  | 88 => ⟨S_, .f32⟩
  | 89 => ⟨S65536, .f32⟩
  | 90 => ⟨S65536, .f32⟩
  | 91 => ⟨S65536x64, .f32⟩
  | 92 => ⟨S65536x64, .f32⟩
  | 93 => ⟨S65536x64, .f32⟩
  | 94 => ⟨S_, .f32⟩
  | 95 => ⟨S65536, .f32⟩
  | 96 => ⟨S_, .f32⟩
  | 97 => ⟨S65536, .f32⟩
  | 98 => ⟨S65536, .f32⟩
  | 99 => ⟨S65536, .i32⟩
  | 100 => ⟨S65536, .i1⟩
  | 101 => ⟨S65536, .f32⟩
  | 102 => ⟨S_, .f32⟩
  | 103 => ⟨S_, .f32⟩
  | 104 => ⟨S65536, .f32⟩
  | 105 => ⟨S65536, .f32⟩
  | 106 => ⟨S_, .f32⟩
  | 107 => ⟨S_, .f32⟩
  | 108 => ⟨S_, .f32⟩
  | 109 => ⟨S_, .f32⟩
  | 110 => ⟨S_, .f32⟩
  | 111 => ⟨S65536, .i32⟩
  | 112 => ⟨S65536, .i1⟩
  | 113 => ⟨S65536, .f32⟩
  | 114 => ⟨S_, .f32⟩
  | 115 => ⟨S_, .f32⟩
  | 116 => ⟨S65536, .f32⟩
  | 117 => ⟨S65536, .f32⟩
  | 118 => ⟨S_, .f32⟩
  | 119 => ⟨S_, .f32⟩
  | 120 => ⟨S_, .f32⟩
  | 121 => ⟨S_, .f32⟩
  | 122 => ⟨S_, .f32⟩
  | 123 => ⟨S65536, .f32⟩
  | 124 => ⟨S65536, .f32⟩
  | 125 => ⟨S65536, .f32⟩
  | 126 => ⟨S65536x512, .f32⟩
  | 127 => ⟨S_, .f32⟩
  | _ => ⟨S64x512, .f32⟩

abbrev hbmTy0_1 (i : Nat) : BufTy := match i % 128 with
  | 0 => ⟨S65536, .f32⟩
  | 1 => ⟨S65536x1, .f32⟩
  | 2 => ⟨S512x64, .f32⟩
  | 3 => ⟨S65536x64, .f32⟩
  | 4 => ⟨S_, .f32⟩
  | 5 => ⟨S65536x64, .f32⟩
  | 6 => ⟨S65536x64, .f32⟩
  | 7 => ⟨S65536x64, .f32⟩
  | 8 => ⟨S65536x64, .f32⟩
  | 9 => ⟨S64x512, .f32⟩
  | 10 => ⟨S_, .f32⟩
  | 11 => ⟨S64, .f32⟩
  | 12 => ⟨S1x64, .f32⟩
  | 13 => ⟨S65536x64, .f32⟩
  | 14 => ⟨S65536x64, .f32⟩
  | 15 => ⟨S_, .f32⟩
  | 16 => ⟨S65536x64, .f32⟩
  | 17 => ⟨S65536x64, .f32⟩
  | 18 => ⟨S65536x64, .f32⟩
  | 19 => ⟨S65536x64, .f32⟩
  | 20 => ⟨S65536x64, .f32⟩
  | 21 => ⟨S65536x512, .f32⟩
  | 22 => ⟨S_, .f32⟩
  | 23 => ⟨S65536, .f32⟩
  | 24 => ⟨S65536x1, .f32⟩
  | 25 => ⟨S512x64, .f32⟩
  | 26 => ⟨S65536x64, .f32⟩
  | 27 => ⟨S_, .f32⟩
  | 28 => ⟨S65536x64, .f32⟩
  | 29 => ⟨S65536x64, .f32⟩
  | 30 => ⟨S65536x64, .f32⟩
  | 31 => ⟨S65536x64, .f32⟩
  | 32 => ⟨S64x512, .f32⟩
  | 33 => ⟨S_, .f32⟩
  | 34 => ⟨S64, .f32⟩
  | 35 => ⟨S1x64, .f32⟩
  | 36 => ⟨S65536x64, .f32⟩
  | 37 => ⟨S65536x64, .f32⟩
  | 38 => ⟨S_, .f32⟩
  | 39 => ⟨S65536x64, .f32⟩
  | 40 => ⟨S65536x64, .f32⟩
  | 41 => ⟨S65536x64, .f32⟩
  | 42 => ⟨S65536x64, .f32⟩
  | 43 => ⟨S65536x64, .f32⟩
  | 44 => ⟨S65536x1, .f32⟩
  | 45 => ⟨S65536x64, .f32⟩
  | 46 => ⟨S65536x64, .f32⟩
  | 47 => ⟨S65536x1, .f32⟩
  | 48 => ⟨S65536x64, .f32⟩
  | 49 => ⟨S65536x64, .f32⟩
  | 50 => ⟨S65536x64, .f32⟩
  | 51 => ⟨S_, .f32⟩
  | 52 => ⟨S65536, .f32⟩
  | 53 => ⟨S65536x1, .f32⟩
  | 54 => ⟨S65536x64, .f32⟩
  | 55 => ⟨S65536x64, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c : Ref sig .tc := ⟨.hbm, 78, rfl⟩
abbrev main_v60 : Ref sig .tc := ⟨.hbm, 79, rfl⟩
abbrev main_c_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_cst_15 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_cst_17 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_18 : Ref sig .tc := ⟨.hbm, 102, rfl⟩
abbrev main_call0_v0 : Ref sig .tc := ⟨.hbm, 103, rfl⟩
abbrev main_call0_v1 : Ref sig .tc := ⟨.hbm, 104, rfl⟩
abbrev main_v78 : Ref sig .tc := ⟨.hbm, 105, rfl⟩
abbrev main_cst_19 : Ref sig .tc := ⟨.hbm, 106, rfl⟩
abbrev main_v79 : Ref sig .tc := ⟨.hbm, 107, rfl⟩
abbrev main_cst_20 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_21 : Ref sig .tc := ⟨.hbm, 114, rfl⟩
abbrev main_call1_v0 : Ref sig .tc := ⟨.hbm, 115, rfl⟩
abbrev main_call1_v1 : Ref sig .tc := ⟨.hbm, 116, rfl⟩
abbrev main_v85 : Ref sig .tc := ⟨.hbm, 117, rfl⟩
abbrev main_cst_22 : Ref sig .tc := ⟨.hbm, 118, rfl⟩
abbrev main_v86 : Ref sig .tc := ⟨.hbm, 119, rfl⟩
abbrev main_cst_23 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_24 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_25 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_26 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_27 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_28 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_29 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_30 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_31 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_32 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  transposes_S64x512_S512x64_1_0 : S64x512.Transposes [1, 0] S512x64
  bcast_S_S65536x64 : S_.BroadcastsInDim S65536x64 (![] : Fin 0 → Fin S65536x64.rank)
  bcast_S65536x1_S65536x64_0_1 : S65536x1.BroadcastsInDim S65536x64 (![0, 1] : Fin 2 → Fin S65536x64.rank)
  reducesTo_S64x512_S64_d1 : S64x512.ReducesTo [1] S64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  reducesTo_S65536x64_S65536_d1 : S65536x64.ReducesTo [1] S65536
  natLt_1_32 : 1 < 32
  reducesTo_S65536_S_d0 : S65536.ReducesTo [0] S_
  bcast_S_S65536 : S_.BroadcastsInDim S65536 (![] : Fin 0 → Fin S65536.rank)
  dot_S65536x512_S512x64_S65536x64_1_0_0_1_n_n_wf : DotDims.WF S65536x512 S512x64 S65536x64 [1] [0] [0] [1] [] []

variable [Facts₀]

def dot_S65536x512_S512x64_S65536x64_1_0_0_1_n_n : DotDims S65536x512 S512x64 S65536x64 where
  lhsContracting := [1]
  rhsContracting := [0]
  lhsNonContracting := [0]
  rhsNonContracting := [1]
  lhsBatch := []
  rhsBatch := []
  wf := dot_S65536x512_S512x64_S65536x64_1_0_0_1_n_n_wf

class Facts : Prop extends Facts₀ where

variable [Facts]
-- ==== Proof.R0.lean ====
import proofs.«137920_j38130719653975_1_alg».proof.Proof.Gen.KernelIdeal.Launch
import proofs.«137920_j38130719653975_1_alg».proof.Proof.Gen.KernelIdeal.Skeleton
import proofs.«137920_j38130719653975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

/-! # Region 0: the posterior kernel's half of the frame

The first pallas_call has eleven windows. Windows 0 and 1 are the two prototype arrays (one block, the whole
array), windows 2 and 3 the two query arrays (blocks of 1024 rows); the body loads these four blocks whole.
Windows 4 … 10 are the seven outputs; the body stores each of their blocks whole, once. What each output's
buffer holds after the body is therefore the stored payload, a function of the four input blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer

`x0`, `x1` are the rgb and flow prototype blocks (windows 0, 1), `x2`, `x3` the rgb and flow query blocks
(windows 2, 3). -/

/-- Window 4: the rgb posterior. -/
def out0_4 (x0 : Vec F S64x512 .f32) (x2 : Vec F S1024x512 .f32) : Vec F S1024x64 .f32 := k0_pay2 x2 x0
/-- Window 5: the flow posterior. -/
def out0_5 (x1 : Vec F S64x512 .f32) (x3 : Vec F S1024x512 .f32) : Vec F S1024x64 .f32 := k0_pay7 x3 x1 (k0_pay5 x3)
/-- Window 6: the fused posterior. -/
def out0_6 (x0 x1 : Vec F S64x512 .f32) (x2 x3 : Vec F S1024x512 .f32) : Vec F S1024x64 .f32 :=
  k0_pay10 x3 x1 (k0_pay1 x2 x0) (k0_pay3 x2 x0) (k0_pay5 x3)
/-- Window 7: the rgb confidence. -/
def out0_7 (x0 : Vec F S64x512 .f32) (x2 : Vec F S1024x512 .f32) : Vec F S1024x1 .f32 := k0_pay3 x2 x0
/-- Window 8: the rgb entropy. -/
def out0_8 (x0 : Vec F S64x512 .f32) (x2 : Vec F S1024x512 .f32) : Vec F S1024x1 .f32 := k0_pay4 x2 x0
/-- Window 9: the flow confidence. -/
def out0_9 (x1 : Vec F S64x512 .f32) (x3 : Vec F S1024x512 .f32) : Vec F S1024x1 .f32 := k0_pay8 x3 x1 (k0_pay5 x3)
/-- Window 10: the flow entropy. -/
def out0_10 (x1 : Vec F S64x512 .f32) (x3 : Vec F S1024x512 .f32) : Vec F S1024x1 .f32 := k0_pay9 x3 x1 (k0_pay5 x3)

/-! ## Whole-block accesses -/

/-- The zero offsets of a rank-2 access, as the constant function. -/
theorem zeros2 : (![0, 0] : Fin 2 → Nat) = fun _ => 0 := funext fun a => by fin_cases a <;> rfl

/-- One store through the whole-shape rectangle at zero offsets leaves its payload, whatever was there. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-- A load through the whole-shape rectangle at zero offsets reads the block. -/
theorem ld_whole_q (X : S1024x512.Idx → Elt F .f32) (inb : ∀ a, (![0, 0] : Fin 2 → Nat) a + S1024x512.size a ≤ S1024x512.size a) :
    View.ld X (Rect.unit (s := S1024x512) ![0, 0] S1024x512.size inb) = X := View.ld_unit_zero (S := S1024x512) zeros2 inb X
theorem ld_whole_p (X : S64x512.Idx → Elt F .f32) (inb : ∀ a, (![0, 0] : Fin 2 → Nat) a + S64x512.size a ≤ S64x512.size a) :
    View.ld X (Rect.unit (s := S64x512) ![0, 0] S64x512.size inb) = X := View.ld_unit_zero (S := S64x512) zeros2 inb X

/-! ## The body's triple -/

set_option maxHeartbeats 4000000 in
/-- The kernel body on whole staging memrefs, the inputs' at contents `x0 … x3` and the outputs' at anything, runs to
    the continuation holding the inputs' as they were and each output's at its payload of the inputs. -/
theorem sound_kernel0 (c : Dev nD) (E : Set ℕ) (i : grid0.Coords) (arg1 : Memref sig .tc .vmem S64x512 .f32) (harg1 : arg1.IsWhole) (arg2 : Memref sig .tc .vmem S64x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (x0 x1 : Vec F S64x512 .f32) (x2 x3 : Vec F S1024x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x2) ∗ owns (c : Thread nD τ) arg6 fullShare (out0_5 x1 x3) ∗ owns (c : Thread nD τ) arg7 fullShare (out0_6 x0 x1 x2 x3) ∗ owns (c : Thread nD τ) arg8 fullShare (out0_7 x0 x2) ∗ owns (c : Thread nD τ) arg9 fullShare (out0_8 x0 x2) ∗ owns (c : Thread nD τ) arg10 fullShare (out0_9 x1 x3) ∗ owns (c : Thread nD τ) arg11 fullShare (out0_10 x1 x3)) -∗ K ⟨⟩))
      ⊢ wp frame (wpE (defs₀ (F := F)) Variants.none c none) E (cc0__posterior_amfar_kernel i arg1 harg1 arg2 harg2 arg3 harg3 arg4 harg4 arg5 harg5 arg6 harg6 arg7 harg7 arg8 harg8 arg9 harg9 arg10 harg10 arg11 harg11) K := by
  simp only [cc0__posterior_amfar_kernel_eq_skeleton]; unfold cc0__posterior_amfar_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_store_whole _ _ zeros2 _ _).trans ?_
    sl_unfold_run_names
    simp only [View.readAt_eq_ld, out0_4]
    repeat rw [ld_whole_q]
    repeat rw [ld_whole_p]
  isplitl [H5]
  · iexists _; isplitr
    swap; · iexact H5
    ipureintro
    refine (read_store_whole _ _ zeros2 _ _).trans ?_
    sl_unfold_run_names
    simp only [View.readAt_eq_ld, out0_5]
    repeat rw [ld_whole_q]
    repeat rw [ld_whole_p]
  isplitl [H6]
  · iexists _; isplitr
    swap; · iexact H6
    ipureintro
    refine (read_store_whole _ _ zeros2 _ _).trans ?_
    sl_unfold_run_names
    simp only [View.readAt_eq_ld, out0_6]
    repeat rw [ld_whole_q]
    repeat rw [ld_whole_p]
  isplitl [H7]
  · iexists _; isplitr
    swap; · iexact H7
    ipureintro
    refine (read_store_whole _ _ zeros2 _ _).trans ?_
    sl_unfold_run_names
    simp only [View.readAt_eq_ld, out0_7]
    repeat rw [ld_whole_q]
    repeat rw [ld_whole_p]
  isplitl [H8]
  · iexists _; isplitr
    swap; · iexact H8
    ipureintro
    refine (read_store_whole _ _ zeros2 _ _).trans ?_
    sl_unfold_run_names
    simp only [View.readAt_eq_ld, out0_8]
    repeat rw [ld_whole_q]
    repeat rw [ld_whole_p]
  isplitl [H9]
  · iexists _; isplitr
    swap; · iexact H9
    ipureintro
    refine (read_store_whole _ _ zeros2 _ _).trans ?_
    sl_unfold_run_names
    simp only [View.readAt_eq_ld, out0_9]
    repeat rw [ld_whole_q]
    repeat rw [ld_whole_p]
  iexists _; isplitr
  swap; · iexact H10
  ipureintro
  refine (read_store_whole _ _ zeros2 _ _).trans ?_
  sl_unfold_run_names
  simp only [View.readAt_eq_ld, out0_10]
  repeat rw [ld_whole_q]
  repeat rw [ld_whole_p]

/-! ## The pipeline's proof data -/

/-- The proof data of the first pipeline on core `c`: the arrays as the region finds them; after the body at
    point `t` each input's buffer at its block and each output's at its payload of the input blocks; the scoped rest
    and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 1 t) (iblk0 V c 3 t)
    | ⟨6, _⟩ => out0_6 (iblk0 V c 0 t) (iblk0 V c 1 t) (iblk0 V c 2 t) (iblk0 V c 3 t)
    | ⟨7, _⟩ => out0_7 (iblk0 V c 0 t) (iblk0 V c 2 t)
    | ⟨8, _⟩ => out0_8 (iblk0 V c 0 t) (iblk0 V c 2 t)
    | ⟨9, _⟩ => out0_9 (iblk0 V c 1 t) (iblk0 V c 3 t)
    | ⟨10, _⟩ => out0_10 (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 1 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]
theorem after0_7 (c : Dev nD) (t : Fin cfg0.N) : (dat0 V c).after 7 t = out0_7 (iblk0 V c 0 t) (iblk0 V c 2 t) := by dsimp only [dat0]
theorem after0_8 (c : Dev nD) (t : Fin cfg0.N) : (dat0 V c).after 8 t = out0_8 (iblk0 V c 0 t) (iblk0 V c 2 t) := by dsimp only [dat0]
theorem after0_9 (c : Dev nD) (t : Fin cfg0.N) : (dat0 V c).after 9 t = out0_9 (iblk0 V c 1 t) (iblk0 V c 3 t) := by dsimp only [dat0]
theorem after0_10 (c : Dev nD) (t : Fin cfg0.N) : (dat0 V c).after 10 t = out0_10 (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1.lean ====
import proofs.«137920_j38130719653975_1_alg».proof.Proof.Gen.KernelIdeal.Launch
import proofs.«137920_j38130719653975_1_alg».proof.Proof.Gen.KernelIdeal.Skeleton
import proofs.«137920_j38130719653975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (a : (pcfg1 (F := F)).Adm)
variable (V : (c : Dev nD) → (b : Ref sig .tc) → Buf (Elt F) ((c : Thread nD τ).loc b))

/-! # The second call: the two accumulated sums over the row blocks -/

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The one-word rectangle a scalar load of a table reads. -/
abbrev rW : Rect S1 := Rect.unit (s := S1) ![0] S1.size inb_S1_S1_0

/-- The first table's one word. -/
def wordF : Elt F .i32 := Pipeline.Prefetch.Contents.at (pre := pre1) a.1 0 rW numel1_S1
/-- The second table's one word. -/
def wordR : Elt F .i32 := Pipeline.Prefetch.Contents.at (pre := pre1) a.1 1 rW numel1_S1

/-- One point's update of the first accumulator. -/
def stepF (c : Dev nD) (t : Fin (cfg1 a).N) (acc : Vec F S1x1 .f32) : Vec F S1x1 .f32 :=
  k1_pay1 (k1_pay8 (grid1.coords t) (iblk1 a V c 0 t) (iblk1 a V c 1 t) (iblk1 a V c 2 t) (wordF a)) acc

/-- One point's update of the second accumulator. -/
def stepR (c : Dev nD) (t : Fin (cfg1 a).N) (acc : Vec F S1x1 .f32) : Vec F S1x1 .f32 :=
  k1_pay2 (k1_pay9 (grid1.coords t) (wordR a)) (k1_pay10 (iblk1 a V c 0 t) (iblk1 a V c 1 t) (iblk1 a V c 3 t)) (Scalar.ofBits .f32 0x00000000#32) acc

/-- The first accumulator after the first `n` points: zero, then one update per point. -/
def accF (c : Dev nD) : ℕ → Vec F S1x1 .f32
  | 0 => k1_pay3 (F := F)
  | n + 1 => if h : n < (cfg1 a).N then stepF a V c ⟨n, h⟩ (accF c n) else accF c n

/-- The second accumulator after the first `n` points. -/
def accR (c : Dev nD) : ℕ → Vec F S1x1 .f32
  | 0 => k1_pay4 (F := F)
  | n + 1 => if h : n < (cfg1 a).N then stepR a V c ⟨n, h⟩ (accR c n) else accR c n

/-- The two accumulators' buffers. -/
abbrev scrL : List (Ref sig .tc) := [cc1_scratch0, cc1_scratch1]

/-- The invariant before position `n`: the generator register at some state, the two tables held whole at their
    contents, and the core's scoped buffers that are no staging buffer of this call — before the first point all at
    some contents, afterwards the two accumulators' at the sums of the points so far and the others at some contents. -/
def Phi1 (c : Dev nD) : ℕ → sProp 𝕄
  | 0 => iprop((∃ r, prngReg c r) ∗ Pipeline.prefHeld pre1 c (fun _ => fullShare) a.1
      ∗ Pipeline.scopedRest (Ix := Unit) (Name := ℕ) (U := UR sig nD τ) (Lvl := ℕ) (Val := Elt F) (cfg1 a).spec c)
  | n + 1 => iprop((∃ r, prngReg c r) ∗ Pipeline.prefHeld pre1 c (fun _ => fullShare) a.1
      ∗ (owns (c : Thread nD τ) (Memref.whole cc1_scratch0) fullShare (accF a V c (n + 1))
        ∗ owns (c : Thread nD τ) (Memref.whole cc1_scratch1) fullShare (accR a V c (n + 1)))
      ∗ Pipeline.scopedRestBut (Ix := Unit) (Name := ℕ) (U := UR sig nD τ) (Lvl := ℕ) (Val := Elt F) spec1 c scrL)

/-- The proof data of the second call on core `c`. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => iblk1 a V c 2 t
    | ⟨3, _⟩ => iblk1 a V c 3 t
    | ⟨4, _⟩ => accF a V c (t.val + 1)
    | ⟨5, _⟩ => accR a V c (t.val + 1)
  Φ t := Phi1 a V c t.val
  q _ := fullShare
  owed _ := 0

theorem A_eq1 (c : Dev nD) (w : Fin (cfg1 a).W) : (dat1 a V c).A w = V c (Pipeline.arrRef spec1 w) := by
  dsimp only [dat1]

theorem after1_0 (c : Dev nD) (t : Fin (cfg1 a).N) : (dat1 a V c).after 0 t = iblk1 a V c 0 t := by dsimp only [dat1]; rfl
theorem after1_1 (c : Dev nD) (t : Fin (cfg1 a).N) : (dat1 a V c).after 1 t = iblk1 a V c 1 t := by dsimp only [dat1]; rfl
theorem after1_2 (c : Dev nD) (t : Fin (cfg1 a).N) : (dat1 a V c).after 2 t = iblk1 a V c 2 t := by dsimp only [dat1]; rfl
theorem after1_3 (c : Dev nD) (t : Fin (cfg1 a).N) : (dat1 a V c).after 3 t = iblk1 a V c 3 t := by dsimp only [dat1]; rfl
theorem after1_4 (c : Dev nD) (t : Fin (cfg1 a).N) : (dat1 a V c).after 4 t = accF a V c (t.val + 1) := by dsimp only [dat1]; rfl
theorem after1_5 (c : Dev nD) (t : Fin (cfg1 a).N) : (dat1 a V c).after 5 t = accR a V c (t.val + 1) := by dsimp only [dat1]; rfl

/-! ## The body's triple -/

theorem z1 : (![0] : Fin 1 → Nat) = fun _ => 0 := by funext x; fin_cases x; rfl
theorem z2 : (![0, 0] : Fin 2 → Nat) = fun _ => 0 := by funext x; fin_cases x <;> rfl

/-- A load of a whole buffer through the whole-shape rectangle reads the contents the buffer is held at. -/
theorem readAt_unread {sp : Space} {S : Shape} {e : EltTy} (m : Memref sig .tc sp S e) (hm : m.IsWhole) (r : Rect S) (X : S.Idx → Elt F e) :
    View.readAt (Elt F) m.view r.toLoadRect (hm.unread X) = View.ld X r := by
  rw [View.readAt_eq_ld, hm.read_unread]

/-- The one word of a table held at contents `T`. -/
def wordOf (T : S1.Idx → Elt F .i32) : Elt F .i32 := View.ld T rW (Shape.Idx.first (numel1_S1.symm ▸ Nat.one_pos))

/-- One point's update of the first accumulator, from the blocks and the table read. -/
def updF (i : grid1.Coords) (x0 x1 : Vec F S1024x64 .f32) (x2 : Vec F S1024x1 .f32) (T0 : S1.Idx → Elt F .i32) (acc : Vec F S1x1 .f32) : Vec F S1x1 .f32 :=
  k1_pay1 (k1_pay8 i x0 x1 x2 (wordOf T0)) acc
/-- One point's update of the second accumulator. -/
def updR (i : grid1.Coords) (x0 x1 : Vec F S1024x64 .f32) (x3 : Vec F S1024x1 .f32) (T1 : S1.Idx → Elt F .i32) (acc : Vec F S1x1 .f32) : Vec F S1x1 .f32 :=
  k1_pay2 (k1_pay9 i (wordOf T1)) (k1_pay10 x0 x1 x3) (Scalar.ofBits .f32 0x00000000#32) acc

/-- The reset's condition, as the body computes it from the point's coordinate, holds at the first point only. -/
theorem cond1_iff : ∀ j : Fin 64, (Scalar.cmpi .ne (Scalar.extui (Scalar.cmpi .eq (BitVec.ofNat 32 j.val) 0#32) : BitVec 32) 0#32 = 1#1) ↔ j.val = 0 := by
  decide +kernel

/-- Every index of the one-element block is in its whole rectangle. -/
theorem cover11 (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  ⟨_, List.mem_cons_self .., View.mem_set_unit_zero z2 inb_S1x1_S1x1_0_0 y⟩

set_option maxHeartbeats 2000000 in
/-- The body at a point that is not the first: the accumulators, held at `e0`, `e1`, are each added this point's
    term, and the output windows' buffers are left at the new sums. -/
theorem sound_kernel1_next (c : Dev nD) (E : Set ℕ) (i : grid1.Coords) (hi : (i 0).val ≠ 0)
    (arg1 : Memref sig .tc .smem S1 .i32) (harg1 : arg1.IsWhole) (arg2 : Memref sig .tc .smem S1 .i32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1024x1 .f32) (harg5 : arg5.IsWhole) (arg6 : Memref sig .tc .vmem S1024x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole) (arg10 : Memref sig .tc .vmem S1x1 .f32) (harg10 : arg10.IsWhole)
    (T0 T1 : S1.Idx → Elt F .i32)
    (x0 x1 : Vec F S1024x64 .f32) (x2 x3 : Vec F S1024x1 .f32) (e0 e1 : Vec F S1x1 .f32) (K : PUnit → sProp 𝕄) :
    iprop(owns (c : Thread nD τ) arg1 fullShare T0 ∗ owns (c : Thread nD τ) arg2 fullShare T1
        ∗ owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ owns (c : Thread nD τ) arg9 fullShare e0 ∗ owns (c : Thread nD τ) arg10 fullShare e1
        ∗ (iprop(owns (c : Thread nD τ) arg1 fullShare T0 ∗ owns (c : Thread nD τ) arg2 fullShare T1
            ∗ owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (updF i x0 x1 x2 T0 e0) ∗ owns (c : Thread nD τ) arg8 fullShare (updR i x0 x1 x3 T1 e1)
            ∗ owns (c : Thread nD τ) arg9 fullShare (updF i x0 x1 x2 T0 e0) ∗ owns (c : Thread nD τ) arg10 fullShare (updR i x0 x1 x3 T1 e1)) -∗ K ⟨⟩))
      ⊢ wp frame (wpE (defs₀ (F := F)) Variants.none c none) E (cc1__kl_kernel i arg1 harg1 arg2 harg2 arg3 harg3 arg4 harg4 arg5 harg5 arg6 harg6 arg7 harg7 arg8 harg8 arg9 harg9 arg10 harg10) K := by
  simp only [cc1__kl_kernel_eq_skeleton]; unfold cc1__kl_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg9.eq_unread hf9
  obtain rfl := harg10.eq_unread hf10
  have hc : ¬ ((Scalar.cmpi .ne (Scalar.extui (Scalar.cmpi .eq (BitVec.ofNat 32 (i 0).val) 0#32) : BitVec 32) 0#32) = 1#1) :=
    fun h => hi ((cond1_iff (i 0)).mp h)
  sl_exec
  sl_step
  iapply Hk
  sl_unfold_run_names
  simp only [readAt_unread _ harg1, readAt_unread _ harg2, readAt_unread _ harg3, readAt_unread _ harg4, readAt_unread _ harg5,
    readAt_unread _ harg6, readAt_unread _ harg9, readAt_unread _ harg10,
    View.ld_unit_zero (S := S1024x64) z2, View.ld_unit_zero (S := S1024x1) z2, View.ld_unit_zero (S := S1x1) z2,
    View.readCov_unit_zero (S := S1x1) _ z2]
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr
                  swap; · iexact H7
                  ipureintro; exact (View.read_writes_eq_canon _ _ _ (cover11 _ _)).trans (View.canon_unit_zero z2 _ _)
  isplitl [H8]; · iexists _; isplitr
                  swap; · iexact H8
                  ipureintro; exact (View.read_writes_eq_canon _ _ _ (cover11 _ _)).trans (View.canon_unit_zero z2 _ _)
  isplitl [H9]; · iexists _; isplitr
                  swap; · iexact H9
                  ipureintro; exact (View.read_writes_eq_canon _ _ _ (cover11 _ _)).trans (View.canon_unit_zero z2 _ _)
  iexists _; isplitr
  swap; · iexact H10
  ipureintro; exact (View.read_writes_eq_canon _ _ _ (cover11 _ _)).trans (View.canon_unit_zero z2 _ _)

set_option maxHeartbeats 2000000 in
/-- The body at the first point: the accumulators, found at anything, are reset to zero, then each is added this
    point's term, and the output windows' buffers are left at the new sums. -/
theorem sound_kernel1_first (c : Dev nD) (E : Set ℕ) (i : grid1.Coords) (hi : (i 0).val = 0)
    (arg1 : Memref sig .tc .smem S1 .i32) (harg1 : arg1.IsWhole) (arg2 : Memref sig .tc .smem S1 .i32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1024x1 .f32) (harg5 : arg5.IsWhole) (arg6 : Memref sig .tc .vmem S1024x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole) (arg10 : Memref sig .tc .vmem S1x1 .f32) (harg10 : arg10.IsWhole)
    (T0 T1 : S1.Idx → Elt F .i32)
    (x0 x1 : Vec F S1024x64 .f32) (x2 x3 : Vec F S1024x1 .f32) (K : PUnit → sProp 𝕄) :
    iprop(owns (c : Thread nD τ) arg1 fullShare T0 ∗ owns (c : Thread nD τ) arg2 fullShare T1
        ∗ owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare T0 ∗ owns (c : Thread nD τ) arg2 fullShare T1
            ∗ owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (updF i x0 x1 x2 T0 k1_pay3) ∗ owns (c : Thread nD τ) arg8 fullShare (updR i x0 x1 x3 T1 k1_pay4)
            ∗ owns (c : Thread nD τ) arg9 fullShare (updF i x0 x1 x2 T0 k1_pay3) ∗ owns (c : Thread nD τ) arg10 fullShare (updR i x0 x1 x3 T1 k1_pay4)) -∗ K ⟨⟩))
      ⊢ wp frame (wpE (defs₀ (F := F)) Variants.none c none) E (cc1__kl_kernel i arg1 harg1 arg2 harg2 arg3 harg3 arg4 harg4 arg5 harg5 arg6 harg6 arg7 harg7 arg8 harg8 arg9 harg9 arg10 harg10) K := by
  simp only [cc1__kl_kernel_eq_skeleton]; unfold cc1__kl_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  have hc : (Scalar.cmpi .ne (Scalar.extui (Scalar.cmpi .eq (BitVec.ofNat 32 (i 0).val) 0#32) : BitVec 32) 0#32) = 1#1 :=
    (cond1_iff (i 0)).mpr hi
  sl_exec
  sl_step
  iapply Hk
  sl_unfold_run_names
  simp only [readAt_unread _ harg1, readAt_unread _ harg2, readAt_unread _ harg3, readAt_unread _ harg4, readAt_unread _ harg5,
    readAt_unread _ harg6,
    View.ld_unit_zero (S := S1024x64) z2, View.ld_unit_zero (S := S1024x1) z2, View.ld_unit_zero (S := S1x1) z2,
    View.readCov_cons_toLoadRect]
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr
                  swap; · iexact H7
                  ipureintro; exact (View.read_writes_eq_canon _ _ _ (cover11 _ _)).trans (View.canon_cons_unit_zero z2 _ _ _)
  isplitl [H8]; · iexists _; isplitr
                  swap; · iexact H8
                  ipureintro; exact (View.read_writes_eq_canon _ _ _ (cover11 _ _)).trans (View.canon_cons_unit_zero z2 _ _ _)
  isplitl [H9]; · iexists _; isplitr
                  swap; · iexact H9
                  ipureintro; exact (View.read_writes_eq_canon _ _ _ (cover11 _ _)).trans (View.canon_cons_unit_zero z2 _ _ _)
  iexists _; isplitr
  swap; · iexact H10
  ipureintro; exact (View.read_writes_eq_canon _ _ _ (cover11 _ _)).trans (View.canon_cons_unit_zero z2 _ _ _)

/-! ## What the inputs' buffers hold at a point -/

theorem before1_0 (c : Dev nD) (t : Fin (cfg1 a).N) (d) : (dat1 a V c).before 0 t d = iblk1 a V c 0 t :=
  ((dat1 a V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 a V c).before 1 t d = iblk1 a V c 1 t :=
  ((dat1 a V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 a V c).before 2 t d = iblk1 a V c 2 t :=
  ((dat1 a V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin (cfg1 a).N) (d) : (dat1 a V c).before 3 t d = iblk1 a V c 3 t :=
  ((dat1 a V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The accumulators and the invariant, a point at a time -/

theorem accF_succ (c : Dev nD) (t : Fin (cfg1 a).N) : accF a V c (t.val + 1) = stepF a V c t (accF a V c t.val) := by
  show (if h : t.val < (cfg1 a).N then stepF a V c ⟨t.val, h⟩ (accF a V c t.val) else accF a V c t.val) = _
  rw [dif_pos t.isLt]
theorem accR_succ (c : Dev nD) (t : Fin (cfg1 a).N) : accR a V c (t.val + 1) = stepR a V c t (accR a V c t.val) := by
  show (if h : t.val < (cfg1 a).N then stepR a V c ⟨t.val, h⟩ (accR a V c t.val) else accR a V c t.val) = _
  rw [dif_pos t.isLt]

theorem stepF_eq (c : Dev nD) (t : Fin (cfg1 a).N) (acc : Vec F S1x1 .f32) :
    stepF a V c t acc = updF (grid1.coords t) (iblk1 a V c 0 t) (iblk1 a V c 1 t) (iblk1 a V c 2 t) (a.1 0) acc := rfl
theorem stepR_eq (c : Dev nD) (t : Fin (cfg1 a).N) (acc : Vec F S1x1 .f32) :
    stepR a V c t acc = updR (grid1.coords t) (iblk1 a V c 0 t) (iblk1 a V c 1 t) (iblk1 a V c 3 t) (a.1 1) acc := rfl

/-- The point's one coordinate is its position. -/
theorem coords1_val : ∀ t : Fin grid1.N, ((grid1.coords t) 0).val = t.val := by decide +kernel

/-- The two tables, one by one. -/
theorem prefHeld_pair1 (c : Dev nD) (v : pre1.Contents (Elt F)) :
    (Pipeline.prefHeld pre1 c (fun _ => fullShare) v : sProp 𝕄)
      = iprop(owns (c : Thread nD τ) (Memref.whole main_v9) fullShare (v 0) ∗ owns (c : Thread nD τ) (Memref.whole main_v10) fullShare (v 1)) := by
  unfold Pipeline.prefHeld
  refine (bigSep_univ_eq_bigSepL [(0 : Fin 2), (1 : Fin 2)] (by decide) (by decide) _).trans ?_
  exact congrArg₂ BI.sep (owns_whole (c : Thread nD τ) main_v9 fullShare (v 0)).symm (owns_whole (c : Thread nD τ) main_v10 fullShare (v 1)).symm

/-- The scoped buffers that are no staging buffer of this call: the two accumulators' apart, each at some contents. -/
theorem scopedRest1_split (c : Dev nD) :
    (Pipeline.scopedRest (Ix := Unit) (Name := ℕ) (U := UR sig nD τ) (Lvl := ℕ) (Val := Elt F) (cfg1 a).spec c : sProp 𝕄)
      = iprop(((∃ f, owns (c : Thread nD τ) (Memref.whole cc1_scratch0) fullShare f) ∗ (∃ f, owns (c : Thread nD τ) (Memref.whole cc1_scratch1) fullShare f))
          ∗ Pipeline.scopedRestBut (Ix := Unit) (Name := ℕ) (U := UR sig nD τ) (Lvl := ℕ) (Val := Elt F) spec1 c scrL) := by
  simp only [owns_whole]
  exact Pipeline.scopedRest_split_of_list spec1 c scrL (by decide) (by decide)

theorem Phi1_pos (c : Dev nD) (n : ℕ) (hn : n ≠ 0) :
    Phi1 a V c n = iprop((∃ r, prngReg c r) ∗ Pipeline.prefHeld pre1 c (fun _ => fullShare) a.1
      ∗ (owns (c : Thread nD τ) (Memref.whole cc1_scratch0) fullShare (accF a V c n)
        ∗ owns (c : Thread nD τ) (Memref.whole cc1_scratch1) fullShare (accR a V c n))
      ∗ Pipeline.scopedRestBut (Ix := Unit) (Name := ℕ) (U := UR sig nD τ) (Lvl := ℕ) (Val := Elt F) spec1 c scrL) := by
  cases n with
  | zero => exact absurd rfl hn
  | succ n => rfl

theorem Phi1_in (c : Dev nD) :
    iprop((∃ r, prngReg c r) ∗ Pipeline.prefHeld pre1 c (fun _ => fullShare) a.1
      ∗ Pipeline.scopedRest (Ix := Unit) (Name := ℕ) (U := UR sig nD τ) (Lvl := ℕ) (Val := Elt F) (cfg1 a).spec c)
      ⊢ ((dat1 a V c).Φ 0 : sProp 𝕄) := by
  rw [show (dat1 a V c).Φ 0 = Phi1 a V c 0 from rfl]
  exact Idealize.SL.BI.Entails.refl _

theorem Phi1_out (c : Dev nD) :
    ((dat1 a V c).Φ (Fin.last (cfg1 a).N) : sProp 𝕄)
      ⊢ iprop(((∃ r, prngReg c r) ∗ Pipeline.prefHeld pre1 c (fun _ => fullShare) a.1)
        ∗ Pipeline.scopedRest (Ix := Unit) (Name := ℕ) (U := UR sig nD τ) (Lvl := ℕ) (Val := Elt F) (cfg1 a).spec c) := by
  have hN : (cfg1 a).N = 64 := N_1
  rw [show (dat1 a V c).Φ (Fin.last (cfg1 a).N) = Phi1 a V c (cfg1 a).N from rfl,
    Phi1_pos a V c _ (by omega), scopedRest1_split]
  iintro ⟨Hg, Ht, ⟨Hs0, Hs1⟩, Hr⟩
  isplitl [Hg Ht]
  · isplitl [Hg]; · iexact Hg
    iexact Ht
  isplitl [Hs0 Hs1]
  · isplitl [Hs0]; · iexists _; iexact Hs0
    iexists _; iexact Hs1
  iexact Hr

/-! ## The body obligation, at a generic point -/

/-- The current staging memref of each window at point `t`. -/
abbrev st1_0 (t : Fin (cfg1 a).N) := spec1_0.stage ((cfg1 a).slots t 0)
abbrev st1_1 (t : Fin (cfg1 a).N) := spec1_1.stage ((cfg1 a).slots t 1)
abbrev st1_2 (t : Fin (cfg1 a).N) := spec1_2.stage ((cfg1 a).slots t 2)
abbrev st1_3 (t : Fin (cfg1 a).N) := spec1_3.stage ((cfg1 a).slots t 3)
abbrev st1_4 (t : Fin (cfg1 a).N) := spec1_4.stage ((cfg1 a).slots t 4)
abbrev st1_5 (t : Fin (cfg1 a).N) := spec1_5.stage ((cfg1 a).slots t 5)

/-- The kernel body at point `t`, on what the pipeline calls it with. -/
abbrev bodyAt1 (t : Fin (cfg1 a).N) : Prog (TpuEff nD τ sig (Elt F) Λ₀ .tc) PUnit :=
  cc1__kl_kernel (grid1.coords t) (Memref.whole main_v9) (Memref.isWhole_whole _) (Memref.whole main_v10) (Memref.isWhole_whole _)
    (st1_0 a t) (hstage1_0 (((cfg1 a).slots t 0).cast nbuf1_0)) (st1_1 a t) (hstage1_1 (((cfg1 a).slots t 1).cast nbuf1_1)) (st1_2 a t) (hstage1_2 (((cfg1 a).slots t 2).cast nbuf1_2)) (st1_3 a t) (hstage1_3 (((cfg1 a).slots t 3).cast nbuf1_3)) (st1_4 a t) (hstage1_4 (((cfg1 a).slots t 4).cast nbuf1_4)) (st1_5 a t) (hstage1_5 (((cfg1 a).slots t 5).cast nbuf1_5))
    (Memref.whole cc1_scratch0) (Memref.isWhole_whole _) (Memref.whole cc1_scratch1) (Memref.isWhole_whole _)

/-- What the body is called with at point `t`, the windows one by one, -/
def bodyPre1 (c : Dev nD) (t : Fin (cfg1 a).N) : sProp 𝕄 :=
  iprop((dat1 a V c).Φ t.castSucc ∗ (dat1 a V c).owesAt () t.castSucc
    ∗ (∃ d, owns (c : Thread nD τ) (st1_0 a t) fullShare ((dat1 a V c).before 0 t d))
    ∗ (∃ d, owns (c : Thread nD τ) (st1_1 a t) fullShare ((dat1 a V c).before 1 t d))
    ∗ (∃ d, owns (c : Thread nD τ) (st1_2 a t) fullShare ((dat1 a V c).before 2 t d))
    ∗ (∃ d, owns (c : Thread nD τ) (st1_3 a t) fullShare ((dat1 a V c).before 3 t d))
    ∗ (∃ d, owns (c : Thread nD τ) (st1_4 a t) fullShare ((dat1 a V c).before 4 t d))
    ∗ (∃ d, owns (c : Thread nD τ) (st1_5 a t) fullShare ((dat1 a V c).before 5 t d)))

/-- and what it returns. -/
def bodyPost1 (c : Dev nD) (t : Fin (cfg1 a).N) : sProp 𝕄 :=
  iprop((dat1 a V c).Φ t.succ ∗ (dat1 a V c).owesAt () t.succ
    ∗ owns (c : Thread nD τ) (st1_0 a t) fullShare ((dat1 a V c).after 0 t)
    ∗ owns (c : Thread nD τ) (st1_1 a t) fullShare ((dat1 a V c).after 1 t)
    ∗ owns (c : Thread nD τ) (st1_2 a t) fullShare ((dat1 a V c).after 2 t)
    ∗ owns (c : Thread nD τ) (st1_3 a t) fullShare ((dat1 a V c).after 3 t)
    ∗ owns (c : Thread nD τ) (st1_4 a t) fullShare ((dat1 a V c).after 4 t)
    ∗ owns (c : Thread nD τ) (st1_5 a t) fullShare ((dat1 a V c).after 5 t))

theorem Phi1_zero (c : Dev nD) :
    Phi1 a V c 0 = iprop((∃ r, prngReg c r) ∗ Pipeline.prefHeld pre1 c (fun _ => fullShare) a.1
      ∗ Pipeline.scopedRest (Ix := Unit) (Name := ℕ) (U := UR sig nD τ) (Lvl := ℕ) (Val := Elt F) (cfg1 a).spec c) := rfl

set_option maxHeartbeats 1000000 in
/-- The body at any point: the inputs' memrefs hold their blocks; the invariant hands the body the tables and the
    accumulators — at anything at the first point, where the body resets them, at the sums so far elsewhere — and
    takes the accumulators back at the sums through this point; the core owes nothing throughout. -/
theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2, before1_3]
  rw [show (dat1 a V c).owesAt () t.succ = (dat1 a V c).owesAt () t.castSucc from rfl,
    show (dat1 a V c).Φ t.succ = Phi1 a V c (t.val + 1) from rfl,
    show (dat1 a V c).Φ t.castSucc = Phi1 a V c t.val from rfl,
    after1_0, after1_1, after1_2, after1_3, after1_4, after1_5,
    Phi1_pos a V c (t.val + 1) (Nat.succ_ne_zero _), accF_succ, accR_succ, stepF_eq, stepR_eq, prefHeld_pair1]
  have hco : ((grid1.coords t) 0).val = t.val := coords1_val t
  by_cases hz : t.val = 0
  · have e0 : accF a V c t.val = k1_pay3 := by rw [hz]; rfl
    have e1 : accR a V c t.val = k1_pay4 := by rw [hz]; rfl
    rw [e0, e1, show Phi1 a V c t.val = Phi1 a V c 0 from by rw [hz], Phi1_zero, prefHeld_pair1, scopedRest1_split]
    iintro ⟨⟨Hg, ⟨Ht0, Ht1⟩, ⟨⟨%s0, Hs0⟩, ⟨%s1, Hs1⟩⟩, Hr⟩, Ho, ⟨%d0, H0⟩, ⟨%d1, H1⟩, ⟨%d2, H2⟩, ⟨%d3, H3⟩, ⟨%d4, H4⟩, ⟨%d5, H5⟩⟩
    iapply (sound_kernel1_first c Set.univ (grid1.coords t) (hco.trans hz) _ _ _ _ _ _ _ _ _ _ _ _ _ _ _ _ _ _ _ _
      (a.1 0) (a.1 1) (iblk1 a V c 0 t) (iblk1 a V c 1 t) (iblk1 a V c 2 t) (iblk1 a V c 3 t) _)
    isplitl [Ht0]; · iexact Ht0
    isplitl [Ht1]; · iexact Ht1
    isplitl [H0]; · iexact H0
    isplitl [H1]; · iexact H1
    isplitl [H2]; · iexact H2
    isplitl [H3]; · iexact H3
    isplitl [H4]; · iexists _; iexact H4
    isplitl [H5]; · iexists _; iexact H5
    isplitl [Hs0]; · iexists _; iexact Hs0
    isplitl [Hs1]; · iexists _; iexact Hs1
    iintro ⟨Ht0, Ht1, H0, H1, H2, H3, H4, H5, Hs0, Hs1⟩
    isplitl [Hg Ht0 Ht1 Hs0 Hs1 Hr]
    · isplitl [Hg]; · iexact Hg
      isplitl [Ht0 Ht1]
      · isplitl [Ht0]; · iexact Ht0
        iexact Ht1
      isplitl [Hs0 Hs1]
      · isplitl [Hs0]; · iexact Hs0
        iexact Hs1
      iexact Hr
    isplitl [Ho]; · iexact Ho
    isplitl [H0]; · iexact H0
    isplitl [H1]; · iexact H1
    isplitl [H2]; · iexact H2
    isplitl [H3]; · iexact H3
    isplitl [H4]; · iexact H4
    iexact H5
  · rw [Phi1_pos a V c t.val hz, prefHeld_pair1]
    iintro ⟨⟨Hg, ⟨Ht0, Ht1⟩, ⟨Hs0, Hs1⟩, Hr⟩, Ho, ⟨%d0, H0⟩, ⟨%d1, H1⟩, ⟨%d2, H2⟩, ⟨%d3, H3⟩, ⟨%d4, H4⟩, ⟨%d5, H5⟩⟩
    iapply (sound_kernel1_next c Set.univ (grid1.coords t) (fun h => hz (hco.symm.trans h)) _ _ _ _ _ _ _ _ _ _ _ _ _ _ _ _ _ _ _ _
      (a.1 0) (a.1 1) (iblk1 a V c 0 t) (iblk1 a V c 1 t) (iblk1 a V c 2 t) (iblk1 a V c 3 t) (accF a V c t.val) (accR a V c t.val) _)
    isplitl [Ht0]; · iexact Ht0
    isplitl [Ht1]; · iexact Ht1
    isplitl [H0]; · iexact H0
    isplitl [H1]; · iexact H1
    isplitl [H2]; · iexact H2
    isplitl [H3]; · iexact H3
    isplitl [H4]; · iexists _; iexact H4
    isplitl [H5]; · iexists _; iexact H5
    isplitl [Hs0]; · iexact Hs0
    isplitl [Hs1]; · iexact Hs1
    iintro ⟨Ht0, Ht1, H0, H1, H2, H3, H4, H5, Hs0, Hs1⟩
    isplitl [Hg Ht0 Ht1 Hs0 Hs1 Hr]
    · isplitl [Hg]; · iexact Hg
      isplitl [Ht0 Ht1]
      · isplitl [Ht0]; · iexact Ht0
        iexact Ht1
      isplitl [Hs0 Hs1]
      · isplitl [Hs0]; · iexact Hs0
        iexact Hs1
      iexact Hr
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) a V c) (defs₀ (F := F)) Variants.none () Set.univ := fun t => by
  rw [bigSep_W1, bigSep_W1]
  exact sound_body1 a V c t

end Region1

end Cert.KernelIdeal.Hand

end
-- ==== Proof.Run.lean ====
import proofs.«137920_j38130719653975_1_alg».proof.Proof.R0
import proofs.«137920_j38130719653975_1_alg».proof.Proof.R1
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.Tactic

/-! # The run of @main, from the launch to the return

@main is four items: the first pallas_call, a stretch of fourteen host operations (the two counts, the two
confidence sums, and the counts reshaped into the second call's two tables), the second pallas_call, and a
stretch of four host operations (two reshapes and two divisions). The contents of every unscoped buffer at each
boundary between two items are a fold from the launch memory: a kernel region puts back its arrays at what its
write-backs leave and keeps every other buffer, a host stretch acts as its operations say. The second call's
prefetched tables hold what the first host stretch leaves in the two reshaped counts. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core c's buffers at launch. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b

/-- At the first region's exit: its arrays at what the pipeline leaves (the inputs as entered, each output's
    write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 (launch0 (F := F)).win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch (the second region's entry). -/
abbrev W2 : Dev nD → Valuation τ sig (Elt F) := fun c => StableHlo.after hostOps1 (W1 m ρ c)
/-- The same read at the TensorCore's references (what the second region's proof data take). -/
abbrev V2 : (c : Dev nD) → (b : Ref sig .tc) → Buf (Elt F) ((c : Thread nD τ).loc b) := fun c b => W2 m ρ c b

/-! ## The prefetched tables -/

/-- What the second region's two tables hold when it is entered: the two reshaped counts as the first host
    stretch leaves them (on the one device). -/
def tbl : pre1.Contents (Elt F) := fun k => W2 m ρ 0 (Proc.devRef .tc (pre1.ref k))

/-- The tables' admissible contents: the first pipeline has no table; the second's are tbl, whose side condition
    asks nothing. -/
abbrev adm : (p : Fin 2) → (pcfgs (F := F) p).Adm
  | ⟨0, _⟩ => cfg0.toPCfg_adm
  | ⟨1, _⟩ => ⟨tbl m ρ, trivial⟩

/-- The tables are the two reshaped counts after the first host stretch. -/
theorem adm_tbl0 : (adm m ρ 1).1 0 = W2 m ρ 0 (Proc.devRef .tc main_v9) := rfl
/-- Table by table. -/
theorem adm_tbl (k : Fin 2) : (adm m ρ 1).1 k = W2 m ρ 0 (Proc.devRef .tc (pre1.ref k)) := rfl
theorem adm_tbl1 : (adm m ρ 1).1 1 = W2 m ρ 0 (Proc.devRef .tc main_v10) := adm_tbl m ρ 1

/-- On any core (there is one) the tables as read off the entry contents. -/
theorem tbl_eq (c : Dev nD) : (fun k => V2 m ρ c (pre1.ref k)) = (adm m ρ 1).1 := by
  obtain rfl : c = 0 := Subsingleton.elim _ _
  show _ = tbl m ρ
  unfold tbl; rfl

/-- At the second region's exit: its arrays at what the pipeline leaves, every other buffer as entered. -/
def W3 (c : Dev nD) : Valuation τ sig (Elt F) :=
  Pipeline.withArrays spec1 c (W2 m ρ c) fun w => (dat1 (adm m ρ 1) (V2 m ρ) c).arrAt w (cfg1 (adm m ρ 1)).N
theorem W3_arr (c : Dev nD) (w : Fin 6) :
    W3 m ρ c (Proc.devRef .tc (Pipeline.arrRef spec1 w)) = (dat1 (adm m ρ 1) (V2 m ρ) c).arrAt w (cfg1 (adm m ρ 1)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin 6) :
    (dat1 (adm m ρ 1) (V2 m ρ) c).arrAt w (cfg1 (adm m ρ 1)).N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch: what @main returns from. -/
abbrev W4 : Dev nD → Valuation τ sig (Elt F) := fun c => StableHlo.after hostOps2 (W3 m ρ c)

/-! ### The arguments end as launched: no host operation writes one, the first region reads each through an input
    window, the second region does not touch them -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (V0 m ρ) c
  | ⟨1, _⟩ => fun c => dat1 (adm m ρ 1) (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debt,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem ops1_fresh : (hostOps1 : List (HloOp τ sig (Elt F))).Forall fun op => op.fresh = ∅ := by
  simp only [List.Forall]; repeat' constructor
/-- No operation of the second host stretch allocates a buffer. -/
theorem ops2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at W0, left at W1. -/
def reg0 : Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) (adm m ρ) (pdats m ρ) (launch0 (F := F)).win (launch0 (F := F)).arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ) (Ix := Unit) (Name := ℕ) (U := UR sig nD τ) (Lvl := ℕ)
      (launch0 (F := F)).win (launch0 (F := F)).arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W2, left at W3. Its tables
    are split out of the unscoped rest at entry, ride through the pipeline's invariant, and are put back at exit. -/
def reg1 : Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (adm m ρ 1) (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop((∃ r, prngReg c r) ∗ Pipeline.prefHeld pre1 c (fun _ => fullShare) (adm m ρ 1).1)
  Z c := Pipeline.unscopedRestP (Ix := Unit) (Name := ℕ) (U := UR sig nD τ) (Lvl := ℕ) pre1 spec1 c (V2 m ρ c)
  hentry c := by
    rw [Pipeline.ownSems0_none]
    have hsplit := Pipeline.arrays_of_unscopedBufs (p := 1) (pcfgs (F := F)) (adm m ρ) (pdats m ρ) (launch1 (F := F)).win (launch1 (F := F)).arr_whole c
      ((pdats m ρ 1 c).share_full fun _ => rfl) (V2 m ρ c) fun _ => rfl
    rw [Pipeline.unscopedBufs_held] at hsplit
    have htab := Pipeline.unscopedRest_split (Ix := Unit) (Name := ℕ) (U := UR sig nD τ) (Lvl := ℕ) (preFacts1) c (V2 m ρ c)
    rw [tbl_eq m ρ c] at htab
    iintro ⟨⟨Hub, Hp, HO⟩, -, -⟩
    ihave H := hsplit $$ Hub
    icases H with ⟨Ha, Hrest⟩
    ihave Hrest' := (Entails.of_eq htab) $$ Hrest
    icases Hrest' with ⟨Htab, Hrest⟩
    imodintro
    isplitl [Ha]; · iexact Ha
    isplitl [Htab]; · iexact Htab
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Phi1_in (adm m ρ 1) (V2 m ρ) c
  hout c := by
    rw [Pipeline.ownSems0_none]
    refine (Phi1_out (adm m ρ 1) (V2 m ρ) c).trans ?_
    iintro ⟨HY, Hs⟩
    isplitl [HY]; · iexact HY
    isplitr; · iempintro
    iexact Hs
  hexit c := by
    have hjoin := Pipeline.unscopedBufs_of_arrays (p := 1) (pcfgs (F := F)) (adm m ρ) (Ix := Unit) (Name := ℕ) (U := UR sig nD τ) (Lvl := ℕ)
      (launch1 (F := F)).win (launch1 (F := F)).arr_whole c (pdats m ρ) ((pdats m ρ 1 c).share_full fun _ => rfl)
      (V2 m ρ c) (V3 m ρ c) ((pdats m ρ 1 c).arrAt · (cfg1 (adm m ρ 1)).N) (hF1 m ρ c) (hrest1 m ρ c)
    rw [Pipeline.unscopedBufs_held] at hjoin
    have htab := Pipeline.unscopedRest_split (Ix := Unit) (Name := ℕ) (U := UR sig nD τ) (Lvl := ℕ) (preFacts1) c (V2 m ρ c)
    rw [tbl_eq m ρ c] at htab
    iintro ⟨Ha, HO, ⟨Hp, Htab⟩, Hrest⟩
    ihave Hrest' := (Entails.of_eq htab.symm) $$ [Htab Hrest]
    · isplitl [Htab]; · iexact Htab
      iexact Hrest
    imodintro
    isplitl [Ha Hrest']
    · iapply hjoin; isplitl [Ha] <;> iassumption
    isplitl [Hp]; · iexact Hp
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) (adm m ρ) (pdats m ρ) () defs₀ 𝒱₀ L lv) :=
  [ .region (reg0 m ρ),
    .host (hseg hostOps1 hostOps1_sub ops1_fresh (W1 m ρ)),
    .region (reg1 m ρ),
    .host (hseg hostOps2 hostOps2_sub ops2_fresh (W3 m ρ)) ]
/-- @main is the run of the segments. -/
theorem main_run (c : Dev nD) : main (F := F) c = Pipeline.Seg.run (segs m ρ) :=
  main_segs (adm m ρ) (pdats m ρ) () 𝒱₀ L lv _ _ (reg0 m ρ) (reg1 m ρ) rfl rfl c

set_option backward.isDefEq.respectTransparency.types false in
/-- THE RUN, at any postcondition that follows from the final memory holding every unscoped buffer at W4: at the
    compiled mesh, from any memory with zero counters, every weakly fair execution of @main on the TensorCore
    terminates, nothing faulting, and every final state satisfies it. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ)))
      (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ)))
              (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ)))
              (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- THE RUN: the final memory holds every unscoped buffer at W4. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_of m ρ fun s h => h

/-- THE FRAME: every argument array ends as launched. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩

end Cert.KernelIdeal.Hand

end
-- ==== Proof.Spec.lean ====
/-
  What both programs compute, as plain mathematics on the extended reals.

  A query row `x` (512 features) is compared with 64 prototype rows `P j`: the squared distance is
  `|x|² - 2·⟨x, P j⟩ + |P j|²`, clipped at zero; `e j = exp (-√d²)`; the posterior `p = e / Σ e`; the
  confidence `c = max p` and the entropy `h = -Σ p·log p`.  This is done once per modality (rgb, flow).
  The fused posterior weights the two unnormalised `e`'s by the confidences' shares and renormalises.
  The two losses sum, over the first `n_f` (resp. `n_r`) rows, the confidence times the mean over the 64
  classes of `p·(log p - q)`, and divide by the total confidence; `n_r` counts the rows whose rgb entropy
  and rgb confidence both exceed the flow ones, `n_f = 65536 - n_r`.

  Nothing here mentions a program: the kernel's blocks and the reference's whole arrays are both shown to be
  these functions, row by row.
-/
import Idealize.ShloMosaic.PureOps.Ideal
import Idealize.ShloMosaic.PureOps.Ideal.Laws
import Idealize.ShloMosaic.PureOps.Reduce

noncomputable section

namespace Cert.Spec

open Idealize.ShloMosaic

/-- A row of 512 features, a table of 64 prototypes, a posterior over the 64 classes. -/
abbrev Row := Fin 512 → EReal
abbrev Protos := Fin 64 → Fin 512 → EReal
abbrev Dist := Fin 64 → EReal

/-- The float literals the programs share, as the words they are printed with (never evaluated). -/
abbrev two : EReal := Ideal.ofBits .f32 0x40000000#32
abbrev c64 : EReal := Ideal.ofBits .f32 0x42800000#32
abbrev negInf : EReal := Ideal.ofBits .f32 0xFF800000#32

/-- `|x|²`. -/
def sqn (x : Row) : EReal := ∑ k : Fin 512, x k * x k
/-- `⟨x, y⟩`. -/
def dotp (x y : Row) : EReal := ∑ k : Fin 512, x k * y k
/-- The squared distance of `x` to prototype `j`, in the order both programs add it up. -/
def d2 (P : Protos) (x : Row) (j : Fin 64) : EReal := (sqn x - two * dotp x (P j)) + sqn (P j)
/-- `exp (-dist)`. -/
def ee (P : Protos) (x : Row) : Dist := fun j => Ideal.exp (-(Ideal.sqrt (max (d2 P x j) 0)))
/-- The posterior. -/
def pp (P : Protos) (x : Row) : Dist := fun j => Ideal.div (ee P x j) (∑ j' : Fin 64, ee P x j')
/-- A row's largest entry, from the word for `-∞`. -/
def rowMax (p : Dist) : EReal := (Finset.univ : Finset (Fin 64)).fold max negInf p
/-- The confidence. -/
def cc (P : Protos) (x : Row) : EReal := rowMax (pp P x)
/-- The entropy. -/
def hh (P : Protos) (x : Row) : EReal := -(∑ j : Fin 64, pp P x j * Ideal.log (pp P x j))

/-- The fused posterior before normalisation, and after. -/
def fusedNum (Pr Pf : Protos) (xr xf : Row) : Dist := fun j =>
  Ideal.div (cc Pr xr) (cc Pr xr + cc Pf xf) * ee Pr xr j + Ideal.div (cc Pf xf) (cc Pr xr + cc Pf xf) * ee Pf xf j
def fused (Pr Pf : Protos) (xr xf : Row) : Dist := fun j =>
  Ideal.div (fusedNum Pr Pf xr xf j) (∑ j' : Fin 64, fusedNum Pr Pf xr xf j')

/-- The mean over the classes of `p·(log p - q)`. -/
def klRow (p q : Dist) : EReal := Ideal.div (∑ j : Fin 64, p j * (Ideal.log (p j) - q j)) c64

section Whole

variable (Pr Pf : Protos) (Tr Tf : Fin 65536 → Row)

/-- Row `r` goes to the rgb side when its rgb entropy and rgb confidence both exceed the flow ones. -/
def maskR (r : Fin 65536) : BitVec 1 :=
  Ideal.cmp .ogt (hh Pr (Tr r)) (hh Pf (Tf r)) &&& Ideal.cmp .ogt (cc Pr (Tr r)) (cc Pf (Tf r))
/-- How many rows go to the rgb side, as a 32-bit word (the words' sum, in any order); and the rest. -/
def nR : BitVec 32 := (Finset.univ : Finset (Fin 65536)).fold IntOp.addi 0#32 fun r => (maskR Pr Pf Tr Tf r).setWidth 32
def nF : BitVec 32 := 65536#32 - nR Pr Pf Tr Tf
/-- Row `r`'s number as a 32-bit word, and whether it is below a count, read signed. -/
def rowWord (r : Fin 65536) : BitVec 32 := BitVec.ofNat 32 r.val
abbrev below (n : BitVec 32) (r : Fin 65536) : Prop := (rowWord r).slt n = true

/-- The flow-to-rgb loss: over the first `n_f` rows, flow confidence times `klRow p_f p_r`; by the total flow confidence. -/
def lossFR : EReal :=
  Ideal.div (∑ r : Fin 65536, if below (nF Pr Pf Tr Tf) r then cc Pf (Tf r) * klRow (pp Pf (Tf r)) (pp Pr (Tr r)) else 0)
    (∑ r : Fin 65536, cc Pf (Tf r))
/-- The rgb-to-flow loss. -/
def lossRF : EReal :=
  Ideal.div (∑ r : Fin 65536, if below (nR Pr Pf Tr Tf) r then cc Pr (Tr r) * klRow (pp Pr (Tr r)) (pp Pf (Tf r)) else 0)
    (∑ r : Fin 65536, cc Pr (Tr r))

end Whole

end Cert.Spec

end
-- ==== Proof.Results.lean ====
/-
  The five results, as whole arrays, from the four argument arrays: what the kernel's program and the reference
  are each shown to end with.  Row `r` of a two-axis array with 512 columns is `fun k => A (r, k)`; everything else
  is `Cert.Spec`'s row-by-row mathematics.
-/
import proofs.«137920_j38130719653975_1_alg».proof.Proof.Spec
import Idealize.ShloMosaic.Lib.ValueIdx

noncomputable section

namespace Cert.Results

open Idealize.ShloMosaic Idealize.ShloMosaic.ValueIdx

/-- The rows of an `[n, 512]` array. -/
def rows {n : Nat} (A : (⟨2, ![n, 512]⟩ : Shape).Idx → EReal) : Fin n → Cert.Spec.Row := fun r k => A (ix2 r k)

variable (a0 a1 : (⟨2, ![64, 512]⟩ : Shape).Idx → EReal) (a2 a3 : (⟨2, ![65536, 512]⟩ : Shape).Idx → EReal)

/-- The rgb posterior `[65536, 64]`: row `r` is the posterior of target-rgb row `r` against the rgb prototypes. -/
def postR : (⟨2, ![65536, 64]⟩ : Shape).Idx → EReal := fun i => Cert.Spec.pp (rows a0) (rows a2 (i 0)) (i 1)
/-- The flow posterior. -/
def postF : (⟨2, ![65536, 64]⟩ : Shape).Idx → EReal := fun i => Cert.Spec.pp (rows a1) (rows a3 (i 0)) (i 1)
/-- The fused posterior. -/
def fused : (⟨2, ![65536, 64]⟩ : Shape).Idx → EReal := fun i =>
  Cert.Spec.fused (rows a0) (rows a1) (rows a2 (i 0)) (rows a3 (i 0)) (i 1)
/-- The two losses, as rank-0 arrays. -/
def lossFR : (⟨0, ![]⟩ : Shape).Idx → EReal := fun _ => Cert.Spec.lossFR (rows a0) (rows a1) (rows a2) (rows a3)
def lossRF : (⟨0, ![]⟩ : Shape).Idx → EReal := fun _ => Cert.Spec.lossRF (rows a0) (rows a1) (rows a2) (rows a3)

end Cert.Results

end
-- ==== Proof.KHost.lean ====
/-
  The two stretches of host operations of the kernel's program, read as values.

  Between the two kernel regions the host counts the rows whose rgb entropy and rgb confidence both exceed the
  flow ones (`n_r`, and `n_f = 65536 - n_r`), sums each modality's confidences, and lays the two counts out as
  one-word tables.  After the second region it divides each accumulated sum by the matching confidence total.
  Each result is first written as the operations' composed term of the buffers the stretch starts from, and then,
  at the ideal values, as `Cert.Spec`'s mathematics when those buffers hold the first region's row-wise results.
-/
import proofs.«137920_j38130719653975_1_alg».proof.Proof.Gen.KernelIdeal.Launch
import proofs.«137920_j38130719653975_1_alg».proof.Proof.Gen.KernelIdeal.Regions
import proofs.«137920_j38130719653975_1_alg».proof.Proof.Results
import Idealize.ShloMosaic.Lib.StableHlo.Run
import Idealize.ShloMosaic.Lib.Pipeline.Value
import Idealize.ShloMosaic.PureOps.Ideal.Laws
import Idealize.ShloMosaic.PureOps.Reduce

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F] (X : Valuation τ sig (Elt F))

/-! ## The first stretch, as composed terms -/

/-- The mask's count `n_r`. -/
theorem h1_v5 : after hostOps1 X (Proc.devRef .tc main_v5)
    = Host.reduce IntOp.addi (extui 32 (andi (cmpf .ogt (X (Proc.devRef .tc main_v0_4)) (X (Proc.devRef .tc main_v0_6)))
        (cmpf .ogt (X (Proc.devRef .tc main_v0_3)) (X (Proc.devRef .tc main_v0_5)))) natLt_1_32) (constantI S_ 32 0#32) reducesTo_S65536x1_S_d0_1 h_S_ := by
  simp only [hostOps1]; after_results

/-- `n_f = 65536 - n_r`. -/
theorem h1_v6 : after hostOps1 X (Proc.devRef .tc main_v6)
    = subi (constantI S_ 32 65536#32) (after hostOps1 X (Proc.devRef .tc main_v5)) := by
  rw [h1_v5]; simp only [hostOps1]; after_results

/-- The rgb confidences' total. -/
theorem h1_v7 : after hostOps1 X (Proc.devRef .tc main_v7)
    = Host.reduceAdd (X (Proc.devRef .tc main_v0_3)) (constant S_ .f32 0x00000000#32) reducesTo_S65536x1_S_d0_1 h_S_ := by
  simp only [hostOps1]; after_results

/-- The flow confidences' total. -/
theorem h1_v8 : after hostOps1 X (Proc.devRef .tc main_v8)
    = Host.reduceAdd (X (Proc.devRef .tc main_v0_5)) (constant S_ .f32 0x00000000#32) reducesTo_S65536x1_S_d0_1 h_S_ := by
  simp only [hostOps1]; after_results

/-- The table of `n_f`: the count as a one-word array. -/
theorem h1_v9 : after hostOps1 X (Proc.devRef .tc main_v9)
    = shapeCast S1 (after hostOps1 X (Proc.devRef .tc main_v6)) shapeCasts_S_S1 := by
  rw [h1_v6, h1_v5]; simp only [hostOps1]; after_results; rfl

/-- The table of `n_r`. -/
theorem h1_v10 : after hostOps1 X (Proc.devRef .tc main_v10)
    = shapeCast S1 (after hostOps1 X (Proc.devRef .tc main_v5)) shapeCasts_S_S1 := by
  rw [h1_v5]; simp only [hostOps1]; after_results; rfl

/-- What the first stretch does not write it leaves. -/
theorem h1_keep (r : Ref sig .tc) (h : r ∉ hostOps1_W) : after hostOps1 X (Proc.devRef .tc r) = X (Proc.devRef .tc r) :=
  after_of_writes_sub hostOps1 _ hostOps1_writes h

/-! ## The second stretch, as composed terms -/

/-- The flow-to-rgb loss: the first accumulated sum by the flow confidences' total. -/
theorem h2_v13 : after hostOps2 X (Proc.devRef .tc main_v13)
    = Host.divf (shapeCast S_ (X (Proc.devRef .tc main_v11_0)) shapeCasts_S1x1_S_) (X (Proc.devRef .tc main_v8)) := by
  simp only [hostOps2]; after_results; rfl

/-- The rgb-to-flow loss. -/
theorem h2_v15 : after hostOps2 X (Proc.devRef .tc main_v15)
    = Host.divf (shapeCast S_ (X (Proc.devRef .tc main_v11_1)) shapeCasts_S1x1_S_) (X (Proc.devRef .tc main_v7)) := by
  simp only [hostOps2]; after_results; rfl

/-- What the second stretch does not write it leaves. -/
theorem h2_keep (r : Ref sig .tc) (h : r ∉ hostOps2_W) : after hostOps2 X (Proc.devRef .tc r) = X (Proc.devRef .tc r) :=
  after_of_writes_sub hostOps2 _ hostOps2_writes h

/-! ## At the ideal values: the stretches' results as mathematics

A column `[65536, 1]` holding a function of the row sums, over both its axes, to the sum over the rows; a column of
one-bit words widened to 32 bits adds up, in any order, to the fold over the rows. -/

section AtIdeal

open Idealize.ShloMosaic.ValueIdx

/-- The column `[65536, 1]` of a function of the row. -/
def col {α : Type} (f : Fin 65536 → α) : S65536x1.Idx → α := fun i => f (i 0)

/-- The rows and the indices of a column are in bijection. -/
def rowEquiv : Fin 65536 ≃ S65536x1.Idx where
  toFun r := ix2 r (0 : Fin 1)
  invFun i := i 0
  left_inv _ := rfl
  right_inv i := by
    refine (eq_ix2 i).symm ▸ ?_
    exact congrArg (ix2 (i 0)) (Subsingleton.elim _ _)

theorem col_rowEquiv {α : Type} (f : Fin 65536 → α) (r : Fin 65536) : col f (rowEquiv r) = f r := rfl

/-- The host's float sum of a column over both axes from the zero word: the sum over the rows. -/
theorem sum_col (f : Fin 65536 → EReal) :
    Host.reduceAdd (F := Ideal) (col f) (constant S_ .f32 0x00000000#32) reducesTo_S65536x1_S_d0_1 h_S_
      = fun _ => ∑ r : Fin 65536, f r := by
  funext j
  simp only [Host.reduceAdd, Ideal.hostReduceAdd_def]
  rw [Ideal.hostReduceAdd_total reducesTo_S65536x1_S_d0_1 (fun b => b.elim0)]
  rw [← Equiv.sum_comp rowEquiv (col f)]
  simp only [col_rowEquiv, constant, Ideal.ofBits_def, Ideal.ofBits_zero_f32, zero_add]

/-- The host's integer sum of a column of widened one-bit words over both axes from zero: the fold over the rows. -/
theorem count_col (msk : Fin 65536 → BitVec 1) :
    Host.reduce IntOp.addi (col fun r => (msk r).setWidth 32) (constantI S_ 32 0#32) reducesTo_S65536x1_S_d0_1 h_S_
      = fun _ => (Finset.univ : Finset (Fin 65536)).fold IntOp.addi 0#32 fun r => (msk r).setWidth 32 := by
  funext j
  rw [Host.reduce_eq_fold, Finset.filter_true_of_mem fun i _ => Subsingleton.elim _ _]
  rw [← Finset.map_univ_equiv rowEquiv, Finset.fold_map]
  rfl

variable (Pr Pf : Cert.Spec.Protos) (Tr Tf : Fin 65536 → Cert.Spec.Row) (Y : Valuation τ sig (Elt Ideal))
  (hcr : Y (Proc.devRef .tc main_v0_3) = col fun r => Cert.Spec.cc Pr (Tr r))
  (hhr : Y (Proc.devRef .tc main_v0_4) = col fun r => Cert.Spec.hh Pr (Tr r))
  (hcf : Y (Proc.devRef .tc main_v0_5) = col fun r => Cert.Spec.cc Pf (Tf r))
  (hhf : Y (Proc.devRef .tc main_v0_6) = col fun r => Cert.Spec.hh Pf (Tf r))

include hcr hhr hcf hhf in
/-- With the four columns holding the confidences and entropies, the count is `Spec.nR`. -/
theorem nR_val : after hostOps1 Y (Proc.devRef .tc main_v5) = fun _ => Cert.Spec.nR Pr Pf Tr Tf := by
  rw [h1_v5, hcr, hhr, hcf, hhf]
  exact count_col (Cert.Spec.maskR Pr Pf Tr Tf)

include hcr hhr hcf hhf in
theorem nF_val : after hostOps1 Y (Proc.devRef .tc main_v6) = fun _ => Cert.Spec.nF Pr Pf Tr Tf := by
  rw [h1_v6, nR_val Pr Pf Tr Tf Y hcr hhr hcf hhf]; rfl

include hcr in
theorem sumCr_val : after hostOps1 Y (Proc.devRef .tc main_v7) = fun _ => ∑ r : Fin 65536, Cert.Spec.cc Pr (Tr r) := by
  rw [h1_v7, hcr]; exact sum_col _

include hcf in
theorem sumCf_val : after hostOps1 Y (Proc.devRef .tc main_v8) = fun _ => ∑ r : Fin 65536, Cert.Spec.cc Pf (Tf r) := by
  rw [h1_v8, hcf]; exact sum_col _

include hcr hhr hcf hhf in
theorem tblF_val : after hostOps1 Y (Proc.devRef .tc main_v9) = fun _ => Cert.Spec.nF Pr Pf Tr Tf := by
  rw [h1_v9, nF_val Pr Pf Tr Tf Y hcr hhr hcf hhf]; rfl

include hcr hhr hcf hhf in
theorem tblR_val : after hostOps1 Y (Proc.devRef .tc main_v10) = fun _ => Cert.Spec.nR Pr Pf Tr Tf := by
  rw [h1_v10, nR_val Pr Pf Tr Tf Y hcr hhr hcf hhf]; rfl

/-- The second stretch's quotient of a `[1,1]` sum by a rank-0 total. -/
theorem quot_val (Z : Valuation τ sig (Elt Ideal)) (s d : EReal)
    (hs : Z (Proc.devRef .tc main_v11_0) = fun _ => s) (hd : Z (Proc.devRef .tc main_v8) = fun _ => d) :
    after hostOps2 Z (Proc.devRef .tc main_v13) = fun _ => Ideal.div s d := by
  rw [h2_v13, hs, hd]; rfl

theorem quot_val' (Z : Valuation τ sig (Elt Ideal)) (s d : EReal)
    (hs : Z (Proc.devRef .tc main_v11_1) = fun _ => s) (hd : Z (Proc.devRef .tc main_v7) = fun _ => d) :
    after hostOps2 Z (Proc.devRef .tc main_v15) = fun _ => Ideal.div s d := by
  rw [h2_v15, hs, hd]; rfl

end AtIdeal

end Cert.KernelIdeal.KHost

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.K0Pay.lean ====
/-
  Region 0's values, entry by entry.

  The posterior kernel's body computes, from a block of 1024 query rows and the 64 prototype rows of a modality,
  ten intermediate arrays.  Each is read here at an index and shown to be `Cert.Spec`'s row function of the query
  row and the prototype table: the unnormalised `e = exp (-√(max d² 0))`, the posterior `e / Σ e`, its largest
  entry, its entropy, and the fused posterior of the two modalities.

  The rgb and the flow copy of the body differ only in where the query norms `|x|²` are computed (inside the
  payload, or passed in), so the rgb payloads are the flow payloads at the rgb blocks, by unfolding; every fact is
  proved once, for the flow spelling.
-/
import proofs.«137920_j38130719653975_1_alg».proof.Proof.Results
import proofs.«137920_j38130719653975_1_alg».proof.Proof.Gen.KernelIdeal.Skeleton
import proofs.«137920_j38130719653975_1_alg».proof.Proof.LibKeepdims
import proofs.«137920_j38130719653975_1_alg».proof.Proof.LibPlainDot
import Idealize.ShloMosaic.Lib.Pipeline.Value
import Idealize.ShloMosaic.Lib.ValueLayout
import Idealize.ShloMosaic.PureOps.Ideal.Laws

noncomputable section

namespace Cert.KernelIdeal.K0Val

open Cert.KernelIdeal Cert.KernelIdeal.Gen Idealize.ShloMosaic Idealize.ShloMosaic.ValueIdx
open Cert.Spec Cert.Results

/-! ## Lane reductions of a two-axis array, read at a row -/

/-- The reduced index `q` with lane `k` put back is `(q, k)`. -/
theorem lift_row {a b : ℕ} (h : (⟨2, ![a, b]⟩ : Shape).Reduces [1] ⟨1, ![a]⟩) (q : Fin a)
    (k : Fin ((⟨2, ![a, b]⟩ : Shape).size 1)) : h.lift (ValueIdx.ix1 q) k = ix2 q (⟨k.val, k.isLt⟩ : Fin b) := by
  funext c; apply Fin.ext
  fin_cases c <;> rfl

/-- A lane sum from the zero word, at row `q`: the sum of the row's entries. -/
theorem rowSum_apply {a b : ℕ} (x : FVec Ideal ⟨2, ![a, b]⟩ .f32) (h : (⟨2, ![a, b]⟩ : Shape).Reduces [1] ⟨1, ![a]⟩)
    (hφ : FKind.Formats FTy.f32) (hacc : (0x00000000#32 : BitVec 32) = FKind.add.neutral .f32 hφ) (q : Fin a) :
    multiReduction .add [1] ⟨1, ![a]⟩ x 0x00000000#32 h hφ hacc (ValueIdx.ix1 q) = ∑ k : Fin b, x (ix2 q k) :=
  (Ideal.multiReduction_add_single x _ h hφ hacc (ValueIdx.ix1 q)).trans
    (Finset.sum_congr rfl fun k _ => congrArg x (lift_row h q k))

/-- A lane maximum from the word of `-∞`, at row `q`: the fold of `max` over the row's entries. -/
theorem rowMax_apply {a b : ℕ} (x : FVec Ideal ⟨2, ![a, b]⟩ .f32) (h : (⟨2, ![a, b]⟩ : Shape).Reduces [1] ⟨1, ![a]⟩)
    (hφ : FKind.Formats FTy.f32) (hacc : (0xFF800000#32 : BitVec 32) = FKind.maximumf.neutral .f32 hφ) (q : Fin a) :
    multiReduction .maximumf [1] ⟨1, ![a]⟩ x 0xFF800000#32 h hφ hacc (ValueIdx.ix1 q)
      = (Finset.univ : Finset (Fin b)).fold max (Ideal.ofBits .f32 0xFF800000#32) (fun j => x (ix2 q j)) := by
  refine (Ideal.multiReduction_maximumf_single x _ h hφ hacc (ValueIdx.ix1 q)).trans ?_
  have hf : (x ∘ h.lift (ValueIdx.ix1 q)) = fun k : Fin b => x (ix2 q k) := funext fun k => congrArg x (lift_row h q k)
  exact congrArg (fun f => Finset.fold max (Ideal.ofBits .f32 0xFF800000#32) f (Finset.univ : Finset (Fin b))) hf

/-- A lane sum kept as a column and spread back over the lanes, at `(q, j)`: the sum of row `q`. -/
theorem keepSum_apply {a b c : ℕ} (x : FVec Ideal ⟨2, ![a, b]⟩ .f32) (h : (⟨2, ![a, b]⟩ : Shape).Reduces [1] ⟨1, ![a]⟩)
    (hφ : FKind.Formats FTy.f32) (hacc : (0x00000000#32 : BitVec 32) = FKind.add.neutral .f32 hφ)
    (hs : (⟨1, ![a]⟩ : Shape).ShapeCasts ⟨2, ![a, 1]⟩) (hb : (⟨2, ![a, 1]⟩ : Shape).Broadcasts ⟨2, ![a, c]⟩) (q : Fin a) (j : Fin c) :
    broadcastTo ⟨2, ![a, c]⟩ (shapeCast ⟨2, ![a, 1]⟩ (multiReduction .add [1] ⟨1, ![a]⟩ x 0x00000000#32 h hφ hacc) hs) hb (ix2 q j)
      = ∑ k : Fin b, x (ix2 q k) :=
  (Cert.Keepdims.broadcastTo_a1_ab_apply _ hb q j).trans
    ((Cert.Keepdims.shapeCast_a_a1_apply _ hs q 0).trans (rowSum_apply x h hφ hacc q))

/-- An array divided by its lane sums, at `(q, j)`. -/
theorem normalize_apply {a b : ℕ} (e : FVec Ideal ⟨2, ![a, b]⟩ .f32) (h : (⟨2, ![a, b]⟩ : Shape).Reduces [1] ⟨1, ![a]⟩)
    (hφ : FKind.Formats FTy.f32) (hacc : (0x00000000#32 : BitVec 32) = FKind.add.neutral .f32 hφ)
    (hs : (⟨1, ![a]⟩ : Shape).ShapeCasts ⟨2, ![a, 1]⟩) (hb : (⟨2, ![a, 1]⟩ : Shape).Broadcasts ⟨2, ![a, b]⟩) (q : Fin a) (j : Fin b) :
    divf e (broadcastTo ⟨2, ![a, b]⟩ (shapeCast ⟨2, ![a, 1]⟩ (multiReduction .add [1] ⟨1, ![a]⟩ e 0x00000000#32 h hφ hacc) hs) hb) (ix2 q j)
      = Ideal.div (e (ix2 q j)) (∑ j' : Fin b, e (ix2 q j')) :=
  congrArg (Ideal.div (e (ix2 q j))) (keepSum_apply e h hφ hacc hs hb q j)

variable (x0 x1 : Vec Ideal S64x512 .f32) (x2 x3 : Vec Ideal S1024x512 .f32)

/-! ## The rgb payloads are the flow payloads at the rgb blocks -/

theorem pay1_eq : k0_pay1 (F := Ideal) x2 x0 = k0_pay6 x2 x0 (k0_pay5 x2) := rfl
theorem pay2_eq : k0_pay2 (F := Ideal) x2 x0 = k0_pay7 x2 x0 (k0_pay5 x2) := rfl
theorem pay3_eq : k0_pay3 (F := Ideal) x2 x0 = k0_pay8 x2 x0 (k0_pay5 x2) := rfl
theorem pay4_eq : k0_pay4 (F := Ideal) x2 x0 = k0_pay9 x2 x0 (k0_pay5 x2) := rfl

/-! ## The query norms -/

/-- `|x|²` of query row `q`. -/
theorem pay5_apply (q : Fin 1024) : k0_pay5 (F := Ideal) x3 (ValueIdx.ix1 q) = sqn (rows x3 q) := by
  unfold k0_pay5
  exact rowSum_apply (mulf x3 x3) reduces_S1024x512_S1024 _ _ q

/-! ## The unnormalised posterior -/

/-- The pointwise tail of the distance: from the three arrays `A` (query norms), `D` (inner products), `B` (prototype
    norms), `exp (0 - √(max ((A - 2·D) + B) 0))` at an index. -/
theorem tail_apply (A D B : FVec Ideal S1024x64 .f32) (i : S1024x64.Idx) :
    exp (subf (broadcast S1024x64 (Scalar.ofBits .f32 0x00000000#32))
      (sqrt (maximumf (addf (subf A (mulf (broadcast S1024x64 (Scalar.ofBits .f32 0x40000000#32)) D)) B)
        (broadcast S1024x64 (Scalar.ofBits .f32 0x00000000#32))))) i
      = Ideal.exp (-(Ideal.sqrt (max ((A i - two * D i) + B i) 0))) := by
  show Ideal.exp (Ideal.ofBits .f32 0x00000000#32 - Ideal.sqrt (max ((A i - Ideal.ofBits .f32 0x40000000#32 * D i) + B i) (Ideal.ofBits .f32 0x00000000#32))) = _
  rw [Ideal.ofBits_zero_f32, zero_sub]

/-- The inner products: the query block times the transposed prototype block into zero, at `(q, j)`. -/
theorem dot_apply (x : Vec Ideal S1024x512 .f32) (p : Vec Ideal S64x512 .f32) (q : Fin 1024) (j : Fin 64) :
    matmul (F := Ideal) dot_S1024x512_S512x64_S1024x64_1_0_0_1_n_n none (truncf .bf16 x bitsLt_bf16_f32)
        (transpose S512x64 [1, 0] (truncf .bf16 p bitsLt_bf16_f32) transposes_S64x512_p1_0_S512x64)
        (constant S1024x64 .f32 0x00000000#32) (ix2 q j)
      = dotp (rows x q) (rows p j) := by
  refine (Cert.PlainDot.matmul_zero_apply dot_S1024x512_S512x64_S1024x64_1_0_0_1_n_n rfl none _ _ (ix2 q j)).trans ?_
  refine Finset.sum_congr rfl fun k _ => ?_
  have ht : transpose S512x64 [1, 0] (truncf (F := Ideal) .bf16 p bitsLt_bf16_f32) transposes_S64x512_p1_0_S512x64 (ix2 k j) = p (ix2 j k) :=
    transpose_ix2_apply (truncf (F := Ideal) .bf16 p bitsLt_bf16_f32) transposes_S64x512_p1_0_S512x64 k j
  exact congrArg (x (ix2 q k) * ·) ht

/-- The prototype norms as a row spread over the query rows, at `(q, j)`: `|P j|²`. -/
theorem protoNorm_apply (p : Vec Ideal S64x512 .f32) (q : Fin 1024) (j : Fin 64) :
    broadcastTo S1024x64 (shapeCast S1x64 (multiReduction (F := Ideal) .add [1] S64 (mulf p p) 0x00000000#32 reduces_S64x512_S64 (.inl rfl) rfl)
        shapeCasts_S64_S1x64) broadcasts_S1x64_S1024x64 (ix2 q j) = sqn (rows p j) :=
  (broadcastTo_1b_ab_apply _ broadcasts_S1x64_S1024x64 q j).trans
    ((shapeCast_a_1a_apply _ shapeCasts_S64_S1x64 0 j).trans (rowSum_apply (mulf p p) reduces_S64x512_S64 _ _ j))

/-- The query norms as a column spread over the classes, at `(q, j)`. -/
theorem queryNorm_apply (n : FVec Ideal S1024 .f32) (q : Fin 1024) (j : Fin 64) :
    broadcastTo S1024x64 (shapeCast S1024x1 n shapeCasts_S1024_S1024x1) broadcasts_S1024x1_S1024x64 (ix2 q j) = n (ValueIdx.ix1 q) :=
  (Cert.Keepdims.broadcastTo_a1_ab_apply _ broadcasts_S1024x1_S1024x64 q j).trans
    (Cert.Keepdims.shapeCast_a_a1_apply n shapeCasts_S1024_S1024x1 q 0)

/-- The unnormalised posterior from any query-norm vector `n`. -/
theorem pay6_gen (x : Vec Ideal S1024x512 .f32) (p : Vec Ideal S64x512 .f32) (n : FVec Ideal S1024 .f32) (q : Fin 1024) (j : Fin 64) :
    k0_pay6 (F := Ideal) x p n (ix2 q j)
      = Ideal.exp (-(Ideal.sqrt (max ((n (ValueIdx.ix1 q) - two * dotp (rows x q) (rows p j)) + sqn (rows p j)) 0))) := by
  unfold k0_pay6
  refine (tail_apply _ _ _ (ix2 q j)).trans ?_
  rw [queryNorm_apply, dot_apply, protoNorm_apply]

theorem pay6_apply (q : Fin 1024) (j : Fin 64) :
    k0_pay6 (F := Ideal) x3 x1 (k0_pay5 x3) (ix2 q j) = ee (rows x1) (rows x3 q) j := by
  rw [pay6_gen, pay5_apply]; rfl

theorem pay1_apply (q : Fin 1024) (j : Fin 64) : k0_pay1 (F := Ideal) x2 x0 (ix2 q j) = ee (rows x0) (rows x2 q) j := by
  rw [pay1_eq]; exact pay6_apply x0 x2 q j

/-! ## The posterior, its largest entry and its entropy -/

theorem pay7_apply (q : Fin 1024) (j : Fin 64) :
    k0_pay7 (F := Ideal) x3 x1 (k0_pay5 x3) (ix2 q j) = pp (rows x1) (rows x3 q) j := by
  unfold k0_pay7
  refine (normalize_apply (k0_pay6 x3 x1 (k0_pay5 x3)) reduces_S1024x64_S1024 _ _ shapeCasts_S1024_S1024x1 broadcasts_S1024x1_S1024x64 q j).trans ?_
  unfold pp
  rw [pay6_apply]
  exact congrArg (Ideal.div _) (Finset.sum_congr rfl fun j' _ => pay6_apply x1 x3 q j')

theorem pay2_apply (q : Fin 1024) (j : Fin 64) : k0_pay2 (F := Ideal) x2 x0 (ix2 q j) = pp (rows x0) (rows x2 q) j := by
  rw [pay2_eq]; exact pay7_apply x0 x2 q j

theorem pay8_apply (q : Fin 1024) :
    k0_pay8 (F := Ideal) x3 x1 (k0_pay5 x3) (ix2 q (0 : Fin 1)) = cc (rows x1) (rows x3 q) := by
  unfold k0_pay8
  refine (Cert.Keepdims.shapeCast_a_a1_apply _ shapeCasts_S1024_S1024x1 q 0).trans ?_
  refine (rowMax_apply (k0_pay7 x3 x1 (k0_pay5 x3)) reduces_S1024x64_S1024 _ _ q).trans ?_
  unfold cc rowMax
  exact congrArg (fun f => Finset.fold max negInf f (Finset.univ : Finset (Fin 64))) (funext fun j => pay7_apply x1 x3 q j)

theorem pay3_apply (q : Fin 1024) : k0_pay3 (F := Ideal) x2 x0 (ix2 q (0 : Fin 1)) = cc (rows x0) (rows x2 q) := by
  rw [pay3_eq]; exact pay8_apply x0 x2 q

theorem pay9_apply (q : Fin 1024) :
    k0_pay9 (F := Ideal) x3 x1 (k0_pay5 x3) (ix2 q (0 : Fin 1)) = hh (rows x1) (rows x3 q) := by
  unfold k0_pay9
  show Ideal.ofBits .f32 0x00000000#32 - shapeCast S1024x1 (multiReduction .add [1] S1024
      (mulf (k0_pay7 x3 x1 (k0_pay5 x3)) (log (k0_pay7 x3 x1 (k0_pay5 x3)))) 0x00000000#32 reduces_S1024x64_S1024 (.inl rfl) rfl)
      shapeCasts_S1024_S1024x1 (ix2 q (0 : Fin 1)) = _
  rw [Ideal.ofBits_zero_f32, zero_sub]
  unfold hh
  refine congrArg (fun t : EReal => -t) ?_
  refine (Cert.Keepdims.shapeCast_a_a1_apply _ shapeCasts_S1024_S1024x1 q 0).trans ?_
  refine (rowSum_apply _ reduces_S1024x64_S1024 _ _ q).trans ?_
  refine Finset.sum_congr rfl fun j _ => ?_
  show k0_pay7 x3 x1 (k0_pay5 x3) (ix2 q j) * Ideal.log (k0_pay7 x3 x1 (k0_pay5 x3) (ix2 q j)) = _
  rw [pay7_apply]

theorem pay4_apply (q : Fin 1024) : k0_pay4 (F := Ideal) x2 x0 (ix2 q (0 : Fin 1)) = hh (rows x0) (rows x2 q) := by
  rw [pay4_eq]; exact pay9_apply x0 x2 q

/-! ## The fused posterior -/

/-- The confidence-weighted mixture of two unnormalised posteriors, at `(q, j)`. -/
theorem mix_apply (e1 e2 : FVec Ideal S1024x64 .f32) (c1 c2 : FVec Ideal S1024x1 .f32) (q : Fin 1024) (j : Fin 64) :
    addf (mulf (broadcastTo S1024x64 (divf c1 (addf c1 c2)) broadcasts_S1024x1_S1024x64) e1)
        (mulf (broadcastTo S1024x64 (divf c2 (addf c1 c2)) broadcasts_S1024x1_S1024x64) e2) (ix2 q j)
      = Ideal.div (c1 (ix2 q (0 : Fin 1))) (c1 (ix2 q (0 : Fin 1)) + c2 (ix2 q (0 : Fin 1))) * e1 (ix2 q j)
        + Ideal.div (c2 (ix2 q (0 : Fin 1))) (c1 (ix2 q (0 : Fin 1)) + c2 (ix2 q (0 : Fin 1))) * e2 (ix2 q j) := by
  show broadcastTo S1024x64 (divf c1 (addf c1 c2)) broadcasts_S1024x1_S1024x64 (ix2 q j) * e1 (ix2 q j)
      + broadcastTo S1024x64 (divf c2 (addf c1 c2)) broadcasts_S1024x1_S1024x64 (ix2 q j) * e2 (ix2 q j) = _
  rw [Cert.Keepdims.broadcastTo_a1_ab_apply _ broadcasts_S1024x1_S1024x64 q j,
    Cert.Keepdims.broadcastTo_a1_ab_apply _ broadcasts_S1024x1_S1024x64 q j]
  rfl

/-- The mixture's entries are `Cert.Spec.fusedNum`'s. -/
theorem mix_eq (q : Fin 1024) (j : Fin 64) :
    addf (mulf (broadcastTo S1024x64 (divf (k0_pay3 x2 x0) (addf (k0_pay3 x2 x0) (k0_pay8 x3 x1 (k0_pay5 x3)))) broadcasts_S1024x1_S1024x64) (k0_pay1 x2 x0))
        (mulf (broadcastTo S1024x64 (divf (k0_pay8 x3 x1 (k0_pay5 x3)) (addf (k0_pay3 x2 x0) (k0_pay8 x3 x1 (k0_pay5 x3)))) broadcasts_S1024x1_S1024x64) (k0_pay6 x3 x1 (k0_pay5 x3))) (ix2 q j)
      = fusedNum (rows x0) (rows x1) (rows x2 q) (rows x3 q) j := by
  rw [mix_apply, pay3_apply, pay8_apply, pay1_apply, pay6_apply]; rfl

theorem pay10_apply (q : Fin 1024) (j : Fin 64) :
    k0_pay10 (F := Ideal) x3 x1 (k0_pay1 x2 x0) (k0_pay3 x2 x0) (k0_pay5 x3) (ix2 q j)
      = Spec.fused (rows x0) (rows x1) (rows x2 q) (rows x3 q) j := by
  unfold k0_pay10
  refine (normalize_apply _ reduces_S1024x64_S1024 _ _ shapeCasts_S1024_S1024x1 broadcasts_S1024x1_S1024x64 q j).trans ?_
  unfold Spec.fused
  rw [mix_eq]
  exact congrArg (Ideal.div _) (Finset.sum_congr rfl fun j' _ => mix_eq x0 x1 x2 x3 q j')

end Cert.KernelIdeal.K0Val

end
-- ==== Proof.K0Val.lean ====
/-
  Region 0's seven output arrays, as whole arrays of the four argument arrays.

  The grid has 64 points; point `t` reads rows `1024·t … 1024·t + 1023` of the two query arrays and all of the two
  prototype arrays, and writes the same rows of each output.  Row `r` of an output is therefore written by point
  `r / 1024`, from query row `r`, and holds `Cert.Spec`'s function of that row: the blocks tile each output array, so
  the array after the region is that function, row by row.
-/
import proofs.«137920_j38130719653975_1_alg».proof.Proof.K0Pay
import proofs.«137920_j38130719653975_1_alg».proof.Proof.R0
import Idealize.ShloMosaic.Lib.Pipeline.Value

noncomputable section

namespace Cert.KernelIdeal.K0Val

open Cert.KernelIdeal Cert.KernelIdeal.Gen Idealize.ShloMosaic Idealize.ShloMosaic.ValueIdx Idealize.ShloMosaic.TcCoe
open Idealize.SL.Sem
open Idealize.ShloMosaic.Pipeline (Dat)
open Cert.Spec Cert.Results

/-! ## Where a block sits in its array -/

/-- The printed index maps, decided over the grid: the prototype windows stay at block (0, 0); every other window's
    block at point `t` is (t, 0). -/
theorem idx_facts : ∀ t : Fin cfg0.N,
    (win0_0.index t (0 : Fin 2) = 0 ∧ win0_0.index t (1 : Fin 2) = 0 ∧ win0_1.index t (0 : Fin 2) = 0 ∧ win0_1.index t (1 : Fin 2) = 0)
    ∧ (win0_2.index t (0 : Fin 2) = t.val ∧ win0_2.index t (1 : Fin 2) = 0 ∧ win0_3.index t (0 : Fin 2) = t.val ∧ win0_3.index t (1 : Fin 2) = 0)
    ∧ (win0_4.index t (0 : Fin 2) = t.val ∧ win0_4.index t (1 : Fin 2) = 0 ∧ win0_5.index t (0 : Fin 2) = t.val ∧ win0_5.index t (1 : Fin 2) = 0
      ∧ win0_6.index t (0 : Fin 2) = t.val ∧ win0_6.index t (1 : Fin 2) = 0)
    ∧ (win0_7.index t (0 : Fin 2) = t.val ∧ win0_7.index t (1 : Fin 2) = 0 ∧ win0_8.index t (0 : Fin 2) = t.val ∧ win0_8.index t (1 : Fin 2) = 0
      ∧ win0_9.index t (0 : Fin 2) = t.val ∧ win0_9.index t (1 : Fin 2) = 0 ∧ win0_10.index t (0 : Fin 2) = t.val ∧ win0_10.index t (1 : Fin 2) = 0) :=
  (by decide +kernel : ∀ t : Fin grid0.N, _)

/-- Row `q` of the block at point `t` is row `1024·t + q` of the array. -/
def rowOf (t : Fin cfg0.N) (q : Fin 1024) : Fin 65536 :=
  ⟨t.val * 1024 + q.val, by have := t.isLt; have h : cfg0.N = 64 := N_0; omega⟩

/-- The point whose block holds row `r`, the row's place in that block, and back. -/
def ptOf (r : Fin 65536) : Fin cfg0.N := ⟨r.val / 1024, Nat.lt_of_lt_of_eq (by have := r.isLt; omega) N_0.symm⟩
def inOf (r : Fin 65536) : Fin 1024 := ⟨r.val % 1024, Nat.mod_lt _ (by decide)⟩
theorem rowOf_pt_in (r : Fin 65536) : rowOf (ptOf r) (inOf r) = r :=
  Fin.ext (by show r.val / 1024 * 1024 + r.val % 1024 = r.val; omega)

section Blocks
variable (t : Fin cfg0.N)

theorem emb0 (y : S64x512.Idx) : ((cfg0.win 0).blk t).view.emb y = y := by
  obtain ⟨⟨e0, e1, -, -⟩, -⟩ := idx_facts t
  funext a; apply Fin.ext
  match a with
  | ⟨0, _⟩ => show win0_0.index t (0 : Fin 2) * 64 + 1 * (y 0).val = (y 0).val; omega
  | ⟨1, _⟩ => show win0_0.index t (1 : Fin 2) * 512 + 1 * (y 1).val = (y 1).val; omega

theorem emb1 (y : S64x512.Idx) : ((cfg0.win 1).blk t).view.emb y = y := by
  obtain ⟨⟨-, -, e0, e1⟩, -⟩ := idx_facts t
  funext a; apply Fin.ext
  match a with
  | ⟨0, _⟩ => show win0_1.index t (0 : Fin 2) * 64 + 1 * (y 0).val = (y 0).val; omega
  | ⟨1, _⟩ => show win0_1.index t (1 : Fin 2) * 512 + 1 * (y 1).val = (y 1).val; omega

theorem emb2 (q : Fin 1024) (k : Fin 512) : ((cfg0.win 2).blk t).view.emb (ix2 q k) = ix2 (rowOf t q) k := by
  obtain ⟨-, ⟨e0, e1, -, -⟩, -⟩ := idx_facts t
  funext a; apply Fin.ext
  match a with
  | ⟨0, _⟩ => show win0_2.index t (0 : Fin 2) * 1024 + 1 * q.val = t.val * 1024 + q.val; omega
  | ⟨1, _⟩ => show win0_2.index t (1 : Fin 2) * 512 + 1 * k.val = k.val; omega

theorem emb3 (q : Fin 1024) (k : Fin 512) : ((cfg0.win 3).blk t).view.emb (ix2 q k) = ix2 (rowOf t q) k := by
  obtain ⟨-, ⟨-, -, e0, e1⟩, -⟩ := idx_facts t
  funext a; apply Fin.ext
  match a with
  | ⟨0, _⟩ => show win0_3.index t (0 : Fin 2) * 1024 + 1 * q.val = t.val * 1024 + q.val; omega
  | ⟨1, _⟩ => show win0_3.index t (1 : Fin 2) * 512 + 1 * k.val = k.val; omega

theorem emb4 (q : Fin 1024) (j : Fin 64) : ((cfg0.win 4).blk t).view.emb (ix2 q j) = ix2 (rowOf t q) j := by
  obtain ⟨-, -, ⟨e0, e1, -, -, -, -⟩, -⟩ := idx_facts t
  funext a; apply Fin.ext
  match a with
  | ⟨0, _⟩ => show win0_4.index t (0 : Fin 2) * 1024 + 1 * q.val = t.val * 1024 + q.val; omega
  | ⟨1, _⟩ => show win0_4.index t (1 : Fin 2) * 64 + 1 * j.val = j.val; omega

theorem emb5 (q : Fin 1024) (j : Fin 64) : ((cfg0.win 5).blk t).view.emb (ix2 q j) = ix2 (rowOf t q) j := by
  have e := idx_facts t
  funext a; apply Fin.ext
  match a with
  | ⟨0, _⟩ => show win0_5.index t (0 : Fin 2) * 1024 + 1 * q.val = t.val * 1024 + q.val; omega
  | ⟨1, _⟩ => show win0_5.index t (1 : Fin 2) * 64 + 1 * j.val = j.val; omega

theorem emb6 (q : Fin 1024) (j : Fin 64) : ((cfg0.win 6).blk t).view.emb (ix2 q j) = ix2 (rowOf t q) j := by
  have e := idx_facts t
  funext a; apply Fin.ext
  match a with
  | ⟨0, _⟩ => show win0_6.index t (0 : Fin 2) * 1024 + 1 * q.val = t.val * 1024 + q.val; omega
  | ⟨1, _⟩ => show win0_6.index t (1 : Fin 2) * 64 + 1 * j.val = j.val; omega

theorem emb7 (q : Fin 1024) (u : Fin 1) : ((cfg0.win 7).blk t).view.emb (ix2 q u) = ix2 (rowOf t q) u := by
  have e := idx_facts t
  funext a; apply Fin.ext
  match a with
  | ⟨0, _⟩ => show win0_7.index t (0 : Fin 2) * 1024 + 1 * q.val = t.val * 1024 + q.val; omega
  | ⟨1, _⟩ => show win0_7.index t (1 : Fin 2) * 1 + 1 * u.val = u.val; omega

theorem emb8 (q : Fin 1024) (u : Fin 1) : ((cfg0.win 8).blk t).view.emb (ix2 q u) = ix2 (rowOf t q) u := by
  have e := idx_facts t
  funext a; apply Fin.ext
  match a with
  | ⟨0, _⟩ => show win0_8.index t (0 : Fin 2) * 1024 + 1 * q.val = t.val * 1024 + q.val; omega
  | ⟨1, _⟩ => show win0_8.index t (1 : Fin 2) * 1 + 1 * u.val = u.val; omega

theorem emb9 (q : Fin 1024) (u : Fin 1) : ((cfg0.win 9).blk t).view.emb (ix2 q u) = ix2 (rowOf t q) u := by
  have e := idx_facts t
  funext a; apply Fin.ext
  match a with
  | ⟨0, _⟩ => show win0_9.index t (0 : Fin 2) * 1024 + 1 * q.val = t.val * 1024 + q.val; omega
  | ⟨1, _⟩ => show win0_9.index t (1 : Fin 2) * 1 + 1 * u.val = u.val; omega

theorem emb10 (q : Fin 1024) (u : Fin 1) : ((cfg0.win 10).blk t).view.emb (ix2 q u) = ix2 (rowOf t q) u := by
  have e := idx_facts t
  funext a; apply Fin.ext
  match a with
  | ⟨0, _⟩ => show win0_10.index t (0 : Fin 2) * 1024 + 1 * q.val = t.val * 1024 + q.val; omega
  | ⟨1, _⟩ => show win0_10.index t (1 : Fin 2) * 1 + 1 * u.val = u.val; omega

end Blocks

/-! ## The input blocks, read off the arrays as the region finds them -/

section Region
variable (V : (c : Dev nD) → (b : Ref sig .tc) → Buf (Elt Ideal) ((c : Thread nD τ).loc b)) (c : Dev nD)

/-- The four argument arrays as the region finds them. -/
abbrev A0 : S64x512.Idx → EReal := V c main_arg0
abbrev A1 : S64x512.Idx → EReal := V c main_arg1
abbrev A2 : S65536x512.Idx → EReal := V c main_arg2
abbrev A3 : S65536x512.Idx → EReal := V c main_arg3

/-- The input windows' blocks at a point, at their literal types. -/
abbrev B0 (t : Fin cfg0.N) : Vec Ideal S64x512 .f32 := Hand.iblk0 V c 0 t
abbrev B1 (t : Fin cfg0.N) : Vec Ideal S64x512 .f32 := Hand.iblk0 V c 1 t
abbrev B2 (t : Fin cfg0.N) : Vec Ideal S1024x512 .f32 := Hand.iblk0 V c 2 t
abbrev B3 (t : Fin cfg0.N) : Vec Ideal S1024x512 .f32 := Hand.iblk0 V c 3 t

variable (t : Fin cfg0.N)

/-- The prototype windows have one block, the whole array. -/
theorem blk0_eq : B0 V c t = A0 V c := by
  funext y
  show V c main_arg0 (((cfg0.win 0).blk t).view.emb y) = V c main_arg0 y
  rw [emb0]

theorem blk1_eq : B1 V c t = A1 V c := by
  funext y
  show V c main_arg1 (((cfg0.win 1).blk t).view.emb y) = V c main_arg1 y
  rw [emb1]

/-- Row `q` of a query block is row `1024·t + q` of its array. -/
theorem rows_blk2 (q : Fin 1024) : rows (B2 V c t) q = rows (A2 V c) (rowOf t q) := by
  funext k
  show V c main_arg2 (((cfg0.win 2).blk t).view.emb (ix2 q k)) = V c main_arg2 (ix2 (rowOf t q) k)
  rw [emb2]

theorem rows_blk3 (q : Fin 1024) : rows (B3 V c t) q = rows (A3 V c) (rowOf t q) := by
  funext k
  show V c main_arg3 (((cfg0.win 3).blk t).view.emb (ix2 q k)) = V c main_arg3 (ix2 (rowOf t q) k)
  rw [emb3]

/-! ## Window 4: the rgb posterior -/

theorem flushed4_eq : (Hand.dat0 V c).flushed 4 t = ((cfg0.win 4).blk t).view.read (Elt Ideal) (postR (A0 V c) (A2 V c)) := by
  show (cfg0.win 4).cut (grid0.coords t) ((Hand.dat0 V c).after 4 t) = _
  rw [Hand.after0_4]
  funext y
  obtain ⟨q, j, rfl⟩ : ∃ (q : Fin 1024) (j : Fin 64), y = ix2 q j := ⟨y 0, y 1, eq_ix2 y⟩
  show k0_pay2 (B2 V c t) (B0 V c t) (ix2 q j) = postR (A0 V c) (A2 V c) (((cfg0.win 4).blk t).view.emb (ix2 q j))
  rw [emb4, pay2_apply, blk0_eq, rows_blk2]
  rfl

theorem cover4 (i : S65536x64.Idx) : ∃ t : Fin cfg0.N, (cfg0.win 4).flush t = true ∧ i ∈ ((cfg0.win 4).blk t).view.set := by
  obtain ⟨r, j, rfl⟩ : ∃ (r : Fin 65536) (j : Fin 64), i = ix2 r j :=
    ⟨⟨(i 0).val, (i 0).isLt⟩, ⟨(i 1).val, (i 1).isLt⟩, eq_ix2 i⟩
  refine ⟨ptOf r, flush0_4 _, ?_⟩
  have hm := ((cfg0.win 4).blk (ptOf r)).view.emb_mem_set (ix2 (inOf r) j)
  rwa [emb4, rowOf_pt_in] at hm

/-- The rgb posterior array after the region. -/
theorem arr4 : (Hand.dat0 V c).arrAt 4 cfg0.N = postR (A0 V c) (A2 V c) :=
  (Hand.dat0 V c).arrAt_eq_of_cover 4 _ (fun t _ => flushed4_eq V c t) cover4

/-! ## Window 5: the flow posterior -/

theorem flushed5_eq : (Hand.dat0 V c).flushed 5 t = ((cfg0.win 5).blk t).view.read (Elt Ideal) (postF (A1 V c) (A3 V c)) := by
  show (cfg0.win 5).cut (grid0.coords t) ((Hand.dat0 V c).after 5 t) = _
  rw [Hand.after0_5]
  funext y
  obtain ⟨q, j, rfl⟩ : ∃ (q : Fin 1024) (j : Fin 64), y = ix2 q j := ⟨y 0, y 1, eq_ix2 y⟩
  show k0_pay7 (B3 V c t) (B1 V c t) (k0_pay5 (B3 V c t)) (ix2 q j) = postF (A1 V c) (A3 V c) (((cfg0.win 5).blk t).view.emb (ix2 q j))
  rw [emb5, pay7_apply, blk1_eq, rows_blk3]
  rfl

theorem cover5 (i : S65536x64.Idx) : ∃ t : Fin cfg0.N, (cfg0.win 5).flush t = true ∧ i ∈ ((cfg0.win 5).blk t).view.set := by
  obtain ⟨r, j, rfl⟩ : ∃ (r : Fin 65536) (j : Fin 64), i = ix2 r j :=
    ⟨⟨(i 0).val, (i 0).isLt⟩, ⟨(i 1).val, (i 1).isLt⟩, eq_ix2 i⟩
  refine ⟨ptOf r, flush0_5 _, ?_⟩
  have hm := ((cfg0.win 5).blk (ptOf r)).view.emb_mem_set (ix2 (inOf r) j)
  rwa [emb5, rowOf_pt_in] at hm

/-- The flow posterior array after the region. -/
theorem arr5 : (Hand.dat0 V c).arrAt 5 cfg0.N = postF (A1 V c) (A3 V c) :=
  (Hand.dat0 V c).arrAt_eq_of_cover 5 _ (fun t _ => flushed5_eq V c t) cover5

/-! ## Window 6: the fused posterior -/

theorem flushed6_eq :
    (Hand.dat0 V c).flushed 6 t = ((cfg0.win 6).blk t).view.read (Elt Ideal) (Results.fused (A0 V c) (A1 V c) (A2 V c) (A3 V c)) := by
  show (cfg0.win 6).cut (grid0.coords t) ((Hand.dat0 V c).after 6 t) = _
  rw [Hand.after0_6]
  funext y
  obtain ⟨q, j, rfl⟩ : ∃ (q : Fin 1024) (j : Fin 64), y = ix2 q j := ⟨y 0, y 1, eq_ix2 y⟩
  show k0_pay10 (B3 V c t) (B1 V c t) (k0_pay1 (B2 V c t) (B0 V c t)) (k0_pay3 (B2 V c t) (B0 V c t)) (k0_pay5 (B3 V c t)) (ix2 q j)
    = Results.fused (A0 V c) (A1 V c) (A2 V c) (A3 V c) (((cfg0.win 6).blk t).view.emb (ix2 q j))
  rw [emb6, pay10_apply, blk0_eq, blk1_eq, rows_blk2, rows_blk3]
  rfl

theorem cover6 (i : S65536x64.Idx) : ∃ t : Fin cfg0.N, (cfg0.win 6).flush t = true ∧ i ∈ ((cfg0.win 6).blk t).view.set := by
  obtain ⟨r, j, rfl⟩ : ∃ (r : Fin 65536) (j : Fin 64), i = ix2 r j :=
    ⟨⟨(i 0).val, (i 0).isLt⟩, ⟨(i 1).val, (i 1).isLt⟩, eq_ix2 i⟩
  refine ⟨ptOf r, flush0_6 _, ?_⟩
  have hm := ((cfg0.win 6).blk (ptOf r)).view.emb_mem_set (ix2 (inOf r) j)
  rwa [emb6, rowOf_pt_in] at hm

/-- The fused posterior array after the region. -/
theorem arr6 : (Hand.dat0 V c).arrAt 6 cfg0.N = Results.fused (A0 V c) (A1 V c) (A2 V c) (A3 V c) :=
  (Hand.dat0 V c).arrAt_eq_of_cover 6 _ (fun t _ => flushed6_eq V c t) cover6

/-! ## Windows 7 … 10: the confidence and entropy columns -/

/-- A `[65536, 1]` column whose row `r` is the confidence, resp. the entropy, of query row `r` against the prototypes. -/
abbrev confCol (P : S64x512.Idx → EReal) (T : S65536x512.Idx → EReal) : S65536x1.Idx → EReal :=
  fun i => cc (rows P) (rows T ⟨(i 0).val, (i 0).isLt⟩)
abbrev entrCol (P : S64x512.Idx → EReal) (T : S65536x512.Idx → EReal) : S65536x1.Idx → EReal :=
  fun i => hh (rows P) (rows T ⟨(i 0).val, (i 0).isLt⟩)

theorem flushed7_eq : (Hand.dat0 V c).flushed 7 t = ((cfg0.win 7).blk t).view.read (Elt Ideal) (confCol (A0 V c) (A2 V c)) := by
  show (cfg0.win 7).cut (grid0.coords t) ((Hand.dat0 V c).after 7 t) = _
  rw [Hand.after0_7]
  funext y
  obtain ⟨q, u, rfl⟩ : ∃ (q : Fin 1024) (u : Fin 1), y = ix2 q u := ⟨y 0, y 1, eq_ix2 y⟩
  obtain rfl : u = 0 := Subsingleton.elim _ _
  show k0_pay3 (B2 V c t) (B0 V c t) (ix2 q (0 : Fin 1)) = confCol (A0 V c) (A2 V c) (((cfg0.win 7).blk t).view.emb (ix2 q (0 : Fin 1)))
  rw [emb7, pay3_apply, blk0_eq, rows_blk2]

theorem cover7 (i : S65536x1.Idx) : ∃ t : Fin cfg0.N, (cfg0.win 7).flush t = true ∧ i ∈ ((cfg0.win 7).blk t).view.set := by
  obtain ⟨r, u, rfl⟩ : ∃ (r : Fin 65536) (u : Fin 1), i = ix2 r u :=
    ⟨⟨(i 0).val, (i 0).isLt⟩, ⟨(i 1).val, (i 1).isLt⟩, eq_ix2 i⟩
  refine ⟨ptOf r, flush0_7 _, ?_⟩
  have hm := ((cfg0.win 7).blk (ptOf r)).view.emb_mem_set (ix2 (inOf r) u)
  rwa [emb7, rowOf_pt_in] at hm

/-- The rgb confidence column after the region. -/
theorem arr7 : (Hand.dat0 V c).arrAt 7 cfg0.N = confCol (A0 V c) (A2 V c) :=
  (Hand.dat0 V c).arrAt_eq_of_cover 7 _ (fun t _ => flushed7_eq V c t) cover7

theorem flushed8_eq : (Hand.dat0 V c).flushed 8 t = ((cfg0.win 8).blk t).view.read (Elt Ideal) (entrCol (A0 V c) (A2 V c)) := by
  show (cfg0.win 8).cut (grid0.coords t) ((Hand.dat0 V c).after 8 t) = _
  rw [Hand.after0_8]
  funext y
  obtain ⟨q, u, rfl⟩ : ∃ (q : Fin 1024) (u : Fin 1), y = ix2 q u := ⟨y 0, y 1, eq_ix2 y⟩
  obtain rfl : u = 0 := Subsingleton.elim _ _
  show k0_pay4 (B2 V c t) (B0 V c t) (ix2 q (0 : Fin 1)) = entrCol (A0 V c) (A2 V c) (((cfg0.win 8).blk t).view.emb (ix2 q (0 : Fin 1)))
  rw [emb8, pay4_apply, blk0_eq, rows_blk2]

theorem cover8 (i : S65536x1.Idx) : ∃ t : Fin cfg0.N, (cfg0.win 8).flush t = true ∧ i ∈ ((cfg0.win 8).blk t).view.set := by
  obtain ⟨r, u, rfl⟩ : ∃ (r : Fin 65536) (u : Fin 1), i = ix2 r u :=
    ⟨⟨(i 0).val, (i 0).isLt⟩, ⟨(i 1).val, (i 1).isLt⟩, eq_ix2 i⟩
  refine ⟨ptOf r, flush0_8 _, ?_⟩
  have hm := ((cfg0.win 8).blk (ptOf r)).view.emb_mem_set (ix2 (inOf r) u)
  rwa [emb8, rowOf_pt_in] at hm

/-- The rgb entropy column after the region. -/
theorem arr8 : (Hand.dat0 V c).arrAt 8 cfg0.N = entrCol (A0 V c) (A2 V c) :=
  (Hand.dat0 V c).arrAt_eq_of_cover 8 _ (fun t _ => flushed8_eq V c t) cover8

theorem flushed9_eq : (Hand.dat0 V c).flushed 9 t = ((cfg0.win 9).blk t).view.read (Elt Ideal) (confCol (A1 V c) (A3 V c)) := by
  show (cfg0.win 9).cut (grid0.coords t) ((Hand.dat0 V c).after 9 t) = _
  rw [Hand.after0_9]
  funext y
  obtain ⟨q, u, rfl⟩ : ∃ (q : Fin 1024) (u : Fin 1), y = ix2 q u := ⟨y 0, y 1, eq_ix2 y⟩
  obtain rfl : u = 0 := Subsingleton.elim _ _
  show k0_pay8 (B3 V c t) (B1 V c t) (k0_pay5 (B3 V c t)) (ix2 q (0 : Fin 1)) = confCol (A1 V c) (A3 V c) (((cfg0.win 9).blk t).view.emb (ix2 q (0 : Fin 1)))
  rw [emb9, pay8_apply, blk1_eq, rows_blk3]

theorem cover9 (i : S65536x1.Idx) : ∃ t : Fin cfg0.N, (cfg0.win 9).flush t = true ∧ i ∈ ((cfg0.win 9).blk t).view.set := by
  obtain ⟨r, u, rfl⟩ : ∃ (r : Fin 65536) (u : Fin 1), i = ix2 r u :=
    ⟨⟨(i 0).val, (i 0).isLt⟩, ⟨(i 1).val, (i 1).isLt⟩, eq_ix2 i⟩
  refine ⟨ptOf r, flush0_9 _, ?_⟩
  have hm := ((cfg0.win 9).blk (ptOf r)).view.emb_mem_set (ix2 (inOf r) u)
  rwa [emb9, rowOf_pt_in] at hm

/-- The flow confidence column after the region. -/
theorem arr9 : (Hand.dat0 V c).arrAt 9 cfg0.N = confCol (A1 V c) (A3 V c) :=
  (Hand.dat0 V c).arrAt_eq_of_cover 9 _ (fun t _ => flushed9_eq V c t) cover9

theorem flushed10_eq : (Hand.dat0 V c).flushed 10 t = ((cfg0.win 10).blk t).view.read (Elt Ideal) (entrCol (A1 V c) (A3 V c)) := by
  show (cfg0.win 10).cut (grid0.coords t) ((Hand.dat0 V c).after 10 t) = _
  rw [Hand.after0_10]
  funext y
  obtain ⟨q, u, rfl⟩ : ∃ (q : Fin 1024) (u : Fin 1), y = ix2 q u := ⟨y 0, y 1, eq_ix2 y⟩
  obtain rfl : u = 0 := Subsingleton.elim _ _
  show k0_pay9 (B3 V c t) (B1 V c t) (k0_pay5 (B3 V c t)) (ix2 q (0 : Fin 1)) = entrCol (A1 V c) (A3 V c) (((cfg0.win 10).blk t).view.emb (ix2 q (0 : Fin 1)))
  rw [emb10, pay9_apply, blk1_eq, rows_blk3]

theorem cover10 (i : S65536x1.Idx) : ∃ t : Fin cfg0.N, (cfg0.win 10).flush t = true ∧ i ∈ ((cfg0.win 10).blk t).view.set := by
  obtain ⟨r, u, rfl⟩ : ∃ (r : Fin 65536) (u : Fin 1), i = ix2 r u :=
    ⟨⟨(i 0).val, (i 0).isLt⟩, ⟨(i 1).val, (i 1).isLt⟩, eq_ix2 i⟩
  refine ⟨ptOf r, flush0_10 _, ?_⟩
  have hm := ((cfg0.win 10).blk (ptOf r)).view.emb_mem_set (ix2 (inOf r) u)
  rwa [emb10, rowOf_pt_in] at hm

/-- The flow entropy column after the region. -/
theorem arr10 : (Hand.dat0 V c).arrAt 10 cfg0.N = entrCol (A1 V c) (A3 V c) :=
  (Hand.dat0 V c).arrAt_eq_of_cover 10 _ (fun t _ => flushed10_eq V c t) cover10

end Region

end Cert.KernelIdeal.K0Val

end
-- ==== Proof.K1Pay.lean ====
/-
  The second call's pure values at the extended reals, read at an index.

  A block is 1024 consecutive rows.  For block number `t` and a row `q` inside it the row's number is `t·1024 + q`.
  The flow term of a row is, where the row's number is (signed) below the count `n_f`, the flow confidence times the
  mean over the 64 classes of `p_f·(log p_f − p_r)`, and zero elsewhere; the rgb term is the rgb confidence times the
  mean of `p_r·(log p_r − p_f)`, kept where the row's number is below `n_r`.  Each of the two accumulators starts at
  zero and one step adds the sum of a block's 1024 terms to it.
-/
import proofs.«137920_j38130719653975_1_alg».proof.Proof.Results
import proofs.«137920_j38130719653975_1_alg».proof.Proof.Gen.KernelIdeal.Skeleton
import Idealize.ShloMosaic.Lib.Pipeline.Value
import Idealize.ShloMosaic.PureOps.Ideal.Laws

noncomputable section

namespace Cert.KernelIdeal.K1Val

open Idealize.ShloMosaic Cert.KernelIdeal Cert.KernelIdeal.Gen Idealize.ShloMosaic.ValueIdx

/-- The index a sum over the rows of a one-column block inserts: row `q`, column `0`. -/
theorem lift_col (j : S1.Idx) (q : Fin 1024) :
    (reduces_S1024x1_S1).lift j q = ix2 q (0 : Fin 1) := by
  funext a; match a with
  | ⟨0, _⟩ => rfl
  | ⟨1, _⟩ =>
    have h : (j 0).val < 1 := (j 0).isLt
    exact Fin.ext (by show (j 0).val = 0; omega)

/-- The index a sum over the 64 classes of row `q` inserts: row `q`, class `j`. -/
theorem lift_row (q : Fin 1024) (j : Fin 64) :
    (reduces_S1024x64_S1024).lift (ValueIdx.ix1 q) j = ix2 q j := by
  funext a; match a with
  | ⟨0, _⟩ => rfl
  | ⟨1, _⟩ => rfl

/-- The zero the first accumulator starts from. -/
theorem pay3_zero : k1_pay3 (F := Ideal) (ix2 0 0) = 0 := by
  unfold k1_pay3
  rw [shapeCast_self]
  exact Ideal.ofBits_zero_f32

/-- The zero the second accumulator starts from. -/
theorem pay4_zero : k1_pay4 (F := Ideal) (ix2 0 0) = 0 := by
  unfold k1_pay4
  rw [shapeCast_self]
  exact Ideal.ofBits_zero_f32

/-- One update of the first accumulator: the old value plus the sum of the block's 1024 terms. -/
theorem pay1_apply (v : FVec Ideal S1024x1 .f32) (acc : Vec Ideal S1x1 .f32) :
    k1_pay1 (F := Ideal) v acc (ix2 0 0) = acc (ix2 0 0) + ∑ q : Fin 1024, v (ix2 q 0) := by
  unfold k1_pay1
  rw [shapeCast_self]
  rw [addf_apply]
  congr 1
  refine (shapeCast_addUnit_apply ![1] _ _ (ix2 0 0)).trans ?_
  refine (Ideal.multiReduction_add_single v 0x00000000#32 reduces_S1024x1_S1 (.inl rfl) rfl _).trans ?_
  refine Finset.sum_congr rfl fun q _ => ?_
  exact congrArg v (lift_col _ q)

/-- One update of the second accumulator: the old value plus the sum of the block's terms, a term replaced by `z`
    where the mask is not set. -/
theorem pay2_apply (msk : IVec S1024x1 1) (v : FVec Ideal S1024x1 .f32) (z : Ideal .f32) (acc : Vec Ideal S1x1 .f32) :
    k1_pay2 (F := Ideal) msk v z acc (ix2 0 0)
      = acc (ix2 0 0) + ∑ q : Fin 1024, (if msk (ix2 q 0) = 1 then v (ix2 q 0) else z) := by
  unfold k1_pay2
  rw [shapeCast_self]
  rw [addf_apply]
  congr 1
  refine (shapeCast_addUnit_apply ![1] _ _ (ix2 0 0)).trans ?_
  refine (Ideal.multiReduction_add_single _ 0x00000000#32 reduces_S1024x1_S1 (.inl rfl) rfl _).trans ?_
  refine Finset.sum_congr rfl fun q _ => ?_
  exact congrArg (select msk v (broadcast S1024x1 z)) (lift_col _ q)

/-- The row's number: the block's number times 1024 plus the row inside the block, as a 32-bit word. -/
theorem pay7_apply (i : grid1.Coords) (q : Fin 1024) :
    k1_pay7 i (ix2 q 0) = BitVec.ofNat 32 ((i 0).val * 1024 + q.val) := by
  unfold k1_pay7
  show IntOp.addi (Scalar.muli (BitVec.ofNat 32 (i 0).val) 1024#32) (iota .tc S1024x1 32 [0] iota_S1024x1_d0_w32 (ix2 q 0)) = _
  rw [iota_single_apply]
  show BitVec.ofNat 32 (i 0).val * 1024#32 + BitVec.ofNat 32 q.val = _
  rw [BitVec.ofNat_add, BitVec.ofNat_mul]

/-- A choice on a signed "less than" of two words is the choice on the comparison's truth. -/
theorem select_slt {α : Type} (x y : BitVec 32) (a b : α) :
    Scalar.select (IntOp.cmpi .slt x y) a b = if x.slt y = true then a else b := by
  unfold Scalar.select IntOp.cmpi
  cases h : x.slt y <;> simp [h]

/-- The mean over the 64 classes of `u·(log u - w)` at row `q` of a block. -/
theorem rowMean_apply (u w : FVec Ideal S1024x64 .f32) (q : Fin 1024) :
    divf (shapeCast S1024x1 (multiReduction (F := Ideal) .add [1] S1024 (mulf u (subf (log u) w)) 0x00000000#32
        reduces_S1024x64_S1024 (.inl rfl) rfl) shapeCasts_S1024_S1024x1)
      (broadcast S1024x1 (Scalar.ofBits (F := Ideal) .f32 0x42800000#32)) (ix2 q 0)
      = Cert.Spec.klRow (fun j => u (ix2 q j)) (fun j => w (ix2 q j)) := by
  rw [divf_apply]
  unfold Cert.Spec.klRow
  congr 1
  refine (shapeCast_apply _ _ (ix2 q 0) (ValueIdx.ix1 q) (by
    rw [Shape.rowMajor_val_one, Shape.rowMajor_val_two]; show q.val = q.val * 1 + 0; omega)).trans ?_
  refine (Ideal.multiReduction_add_single _ 0x00000000#32 reduces_S1024x64_S1024 (.inl rfl) rfl _).trans ?_
  refine Finset.sum_congr rfl fun j _ => ?_
  exact congrArg (mulf u (subf (log u) w)) (lift_row q j)

/-- A row's flow term: where the row's number is below the count, the confidence times the mean; zero elsewhere. -/
theorem pay8_apply (i : grid1.Coords) (y0 y1 : Vec Ideal S1024x64 .f32) (y2 : Vec Ideal S1024x1 .f32)
    (nf : Elt Ideal .i32) (q : Fin 1024) :
    k1_pay8 (F := Ideal) i y0 y1 y2 nf (ix2 q 0)
      = if (BitVec.ofNat 32 ((i 0).val * 1024 + q.val)).slt nf = true
          then y2 (ix2 q 0) * Cert.Spec.klRow (fun j => y0 (ix2 q j)) (fun j => y1 (ix2 q j)) else 0 := by
  simp only [k1_pay8, k1_pay5, k1_pay6, shapeCast_self]
  rw [select_apply, mulf_apply, rowMean_apply]
  show Scalar.select (IntOp.cmpi .slt (k1_pay7 i (ix2 q 0)) nf) _ (Ideal.ofBits .f32 0x00000000#32) = _
  rw [pay7_apply, select_slt, Ideal.ofBits_zero_f32]

/-- A row's rgb mask: whether its number is below the count. -/
theorem pay9_apply (i : grid1.Coords) (nr : Elt Ideal .i32) (q : Fin 1024) :
    k1_pay9 (F := Ideal) i nr (ix2 q 0) = IntOp.cmpi .slt (BitVec.ofNat 32 ((i 0).val * 1024 + q.val)) nr := by
  unfold k1_pay9
  show IntOp.cmpi .slt (k1_pay7 i (ix2 q 0)) nr = _
  rw [pay7_apply]

/-- A row's rgb term before masking: the confidence times the mean. -/
theorem pay10_apply (y0 y1 : Vec Ideal S1024x64 .f32) (y3 : Vec Ideal S1024x1 .f32) (q : Fin 1024) :
    k1_pay10 (F := Ideal) y0 y1 y3 (ix2 q 0)
      = y3 (ix2 q 0) * Cert.Spec.klRow (fun j => y1 (ix2 q j)) (fun j => y0 (ix2 q j)) := by
  simp only [k1_pay10, k1_pay5, k1_pay6, shapeCast_self]
  rw [mulf_apply, rowMean_apply]

end Cert.KernelIdeal.K1Val
end
-- ==== Proof.LibPartialSum.lean ====
/-
  Partial sums along a finite index range.

  For a family f over the positions 0, …, N − 1 with values in a commutative additive monoid, psum f n is the sum of
  f over the positions below n; a position at or beyond N counts as zero, so psum f n is defined for every n. Three
  facts: the empty partial sum is zero; the partial sum up to n + b is the partial sum up to n plus the block of b
  terms f(n), …, f(n + b − 1), when that block lies inside the range; and the partial sum up to N is the sum of f over
  all positions. Together they say a sum over the whole range can be reached by adding it block by block.
-/
import Mathlib.Algebra.BigOperators.Fin
import Mathlib.Algebra.BigOperators.Group.Finset.Basic

noncomputable section

namespace Cert.PartialSum

variable {M : Type*} [AddCommMonoid M]

/-- The sum of f over the positions below n (positions at or beyond N contribute nothing). -/
def psum {N : ℕ} (f : Fin N → M) (n : ℕ) : M := ∑ q ∈ Finset.range n, if h : q < N then f ⟨q, h⟩ else 0

/-- The sum over no positions is zero. -/
theorem psum_zero {N : ℕ} (f : Fin N → M) : psum f 0 = 0 := by
  unfold psum
  exact Finset.sum_range_zero _

/-- The sum over the positions below n + b is the sum over those below n plus the block f(n), …, f(n + b − 1), when
    n + b ≤ N. -/
theorem psum_add {N : ℕ} (f : Fin N → M) (n b : ℕ) (h : n + b ≤ N) :
    psum f (n + b) = psum f n + ∑ r : Fin b, f ⟨n + r.val, by omega⟩ := by
  unfold psum
  rw [Finset.sum_range_add]
  refine congrArg _ ?_
  rw [Finset.sum_range]
  refine Finset.sum_congr rfl fun r _ => ?_
  exact dif_pos (show n + r.val < N by omega)

/-- The sum over the positions below N is the sum over all of them. -/
theorem psum_full {N : ℕ} (f : Fin N → M) : psum f N = ∑ k : Fin N, f k := by
  unfold psum
  rw [Finset.sum_range]
  exact Finset.sum_congr rfl fun k _ => dif_pos k.isLt

end Cert.PartialSum

end
-- ==== Proof.K1Val.lean ====
/-
  What the second call computes, at the extended reals.

  The call walks the 65536 rows in 64 blocks of 1024.  Row `r`'s flow term is, where `r` is (signed) below the flow
  count, the flow confidence of the row times the mean over the 64 classes of `p_f·(log p_f − p_r)`, and zero elsewhere;
  its rgb term is the twin with the rgb count, the rgb confidence and `p_r·(log p_r − p_f)`.

  Row `q` of block `t` is row `t·1024 + q` of each of the four arrays the call reads.  Each accumulator starts at zero
  and one point adds its block's 1024 terms, so after `n` points it holds the sum of the terms of the rows below
  `n·1024` (a partial sum, `Cert.PartialSum.psum`).  The two outputs are one-entry arrays whose block never moves, so
  only the last point writes them back: they end holding the sums over all 65536 rows.
-/
import proofs.«137920_j38130719653975_1_alg».proof.Proof.K1Pay
import proofs.«137920_j38130719653975_1_alg».proof.Proof.R1
import proofs.«137920_j38130719653975_1_alg».proof.Proof.LibPartialSum
import Idealize.ShloMosaic.Lib.Pipeline.Value

set_option maxRecDepth 16384

noncomputable section

namespace Cert.KernelIdeal.K1Val

open Idealize.ShloMosaic Idealize.ShloMosaic.TcCoe Cert.KernelIdeal Cert.KernelIdeal.Gen Idealize.ShloMosaic.ValueIdx
open Idealize.ShloMosaic.Pipeline (Dat)
open Cert.PartialSum

variable (a : (pcfg1 (F := Ideal)).Adm)
variable (V : (c : Dev nD) → (b : Ref sig .tc) → Buf (Elt Ideal) ((c : Thread nD τ).loc b))
variable (c : Dev nD)

/-! ## A block's rows in the whole array -/

/-- The four input windows' block index at point `t` is `(t, 0)`. -/
theorem index0 : ∀ t : Fin grid1.N, cc1_transform_0 (grid1.coords t) = ![t.val, 0] := by decide
theorem index1 : ∀ t : Fin grid1.N, cc1_transform_1 (grid1.coords t) = ![t.val, 0] := by decide
theorem index2 : ∀ t : Fin grid1.N, cc1_transform_2 (grid1.coords t) = ![t.val, 0] := by decide
theorem index3 : ∀ t : Fin grid1.N, cc1_transform_3 (grid1.coords t) = ![t.val, 0] := by decide
/-- The grid has one axis: a point's coordinate is its position. -/
theorem coord0 : ∀ t : Fin grid1.N, ((grid1.coords t) 0).val = t.val := by decide

/-- Row `q` of block `t` is row `t·1024 + q` of the 65536. -/
theorem row_lt (t : Fin (cfg1 a).N) (q : Fin 1024) : t.val * 1024 + q.val < 65536 := by
  have h : t.val < grid1.N := t.isLt
  rw [N_1] at h
  have := q.isLt
  omega

theorem blk_rows0 (t : Fin (cfg1 a).N) (q : Fin 1024) (j : Fin 64) :
    Hand.iblk1 a V c 0 t (ix2 q j) = V c main_v0_1 (ix2 ⟨t.val*1024+q.val, row_lt a t q⟩ j) := by
  unfold Hand.iblk1
  show V c main_v0_1 ((((cfg1 a).win 0).blk t).view.emb (ix2 q j)) = _
  congr 1
  funext k; apply Fin.ext
  have e : ((cfg1 a).win 0).index t = ![t.val, 0] := index0 t
  match k with
  | ⟨0, _⟩ =>
    show ((cfg1 a).win 0).index t (0 : Fin 2) * 1024 + 1 * q.val = t.val*1024+q.val
    rw [e]; show t.val * 1024 + 1 * q.val = _; omega
  | ⟨1, _⟩ =>
    show ((cfg1 a).win 0).index t (1 : Fin 2) * 64 + 1 * j.val = j.val
    rw [e]; show 0 * 64 + 1 * j.val = _; omega

theorem blk_rows1 (t : Fin (cfg1 a).N) (q : Fin 1024) (j : Fin 64) :
    Hand.iblk1 a V c 1 t (ix2 q j) = V c main_v0_0 (ix2 ⟨t.val*1024+q.val, row_lt a t q⟩ j) := by
  unfold Hand.iblk1
  show V c main_v0_0 ((((cfg1 a).win 1).blk t).view.emb (ix2 q j)) = _
  congr 1
  funext k; apply Fin.ext
  have e : ((cfg1 a).win 1).index t = ![t.val, 0] := index1 t
  match k with
  | ⟨0, _⟩ =>
    show ((cfg1 a).win 1).index t (0 : Fin 2) * 1024 + 1 * q.val = t.val*1024+q.val
    rw [e]; show t.val * 1024 + 1 * q.val = _; omega
  | ⟨1, _⟩ =>
    show ((cfg1 a).win 1).index t (1 : Fin 2) * 64 + 1 * j.val = j.val
    rw [e]; show 0 * 64 + 1 * j.val = _; omega

theorem blk_rows2 (t : Fin (cfg1 a).N) (q : Fin 1024) :
    Hand.iblk1 a V c 2 t (ix2 q 0) = V c main_v0_5 (ix2 ⟨t.val*1024+q.val, row_lt a t q⟩ 0) := by
  unfold Hand.iblk1
  show V c main_v0_5 ((((cfg1 a).win 2).blk t).view.emb (ix2 q 0)) = _
  congr 1
  funext k; apply Fin.ext
  have e : ((cfg1 a).win 2).index t = ![t.val, 0] := index2 t
  match k with
  | ⟨0, _⟩ =>
    show ((cfg1 a).win 2).index t (0 : Fin 2) * 1024 + 1 * q.val = t.val*1024+q.val
    rw [e]; show t.val * 1024 + 1 * q.val = _; omega
  | ⟨1, _⟩ =>
    show ((cfg1 a).win 2).index t (1 : Fin 2) * 1 + 1 * 0 = 0
    rw [e]; show 0 * 1 + 1 * 0 = _; omega

theorem blk_rows3 (t : Fin (cfg1 a).N) (q : Fin 1024) :
    Hand.iblk1 a V c 3 t (ix2 q 0) = V c main_v0_3 (ix2 ⟨t.val*1024+q.val, row_lt a t q⟩ 0) := by
  unfold Hand.iblk1
  show V c main_v0_3 ((((cfg1 a).win 3).blk t).view.emb (ix2 q 0)) = _
  congr 1
  funext k; apply Fin.ext
  have e : ((cfg1 a).win 3).index t = ![t.val, 0] := index3 t
  match k with
  | ⟨0, _⟩ =>
    show ((cfg1 a).win 3).index t (0 : Fin 2) * 1024 + 1 * q.val = t.val*1024+q.val
    rw [e]; show t.val * 1024 + 1 * q.val = _; omega
  | ⟨1, _⟩ =>
    show ((cfg1 a).win 3).index t (1 : Fin 2) * 1 + 1 * 0 = 0
    rw [e]; show 0 * 1 + 1 * 0 = _; omega

/-! ## The two accumulators as partial sums over the rows -/

/-- The four arrays the second call reads, as the region finds them: the flow and rgb posteriors `[65536, 64]` and the
    flow and rgb confidences `[65536, 1]`. -/
abbrev PF : (⟨2, ![65536, 64]⟩ : Shape).Idx → EReal := V c main_v0_1
abbrev PR : (⟨2, ![65536, 64]⟩ : Shape).Idx → EReal := V c main_v0_0
abbrev CF : (⟨2, ![65536, 1]⟩ : Shape).Idx → EReal := V c main_v0_5
abbrev CR : (⟨2, ![65536, 1]⟩ : Shape).Idx → EReal := V c main_v0_3

/-- Row `r`'s flow term: below the flow count, the flow confidence times the mean of `p_f·(log p_f − p_r)`. -/
def termF (r : Fin 65536) : EReal :=
  if (BitVec.ofNat 32 r.val).slt (Hand.wordF a) = true
    then CF V c (ix2 r 0) * Cert.Spec.klRow (fun j => PF V c (ix2 r j)) (fun j => PR V c (ix2 r j))
    else 0

/-- Row `r`'s rgb term: below the rgb count, the rgb confidence times the mean of `p_r·(log p_r − p_f)`. -/
def termR (r : Fin 65536) : EReal :=
  if (BitVec.ofNat 32 r.val).slt (Hand.wordR a) = true
    then CR V c (ix2 r 0) * Cert.Spec.klRow (fun j => PR V c (ix2 r j)) (fun j => PF V c (ix2 r j))
    else 0

/-- A term is determined by the row's number, the confidence and the two posterior rows. -/
theorem term_congr {w : BitVec 32} {m m' : ℕ} {x x' : EReal} {f f' g g' : Fin 64 → EReal}
    (hm : m = m') (hx : x = x') (hf : f = f') (hg : g = g') :
    (if (BitVec.ofNat 32 m).slt w = true then x * Cert.Spec.klRow f g else 0)
      = (if (BitVec.ofNat 32 m').slt w = true then x' * Cert.Spec.klRow f' g' else 0) := by
  subst hm hx hf hg; rfl

/-- The flow term the body computes for row `q` of block `t` is the flow term of row `t·1024 + q`. -/
theorem pay8_term (t : Fin (cfg1 a).N) (q : Fin 1024) :
    k1_pay8 (F := Ideal) (grid1.coords t) (Hand.iblk1 a V c 0 t) (Hand.iblk1 a V c 1 t) (Hand.iblk1 a V c 2 t)
        (Hand.wordF a) (ix2 q 0)
      = termF a V c ⟨t.val * 1024 + q.val, row_lt a t q⟩ := by
  refine (pay8_apply _ _ _ _ _ q).trans ?_
  unfold termF
  exact term_congr (congrArg (· * 1024 + q.val) (coord0 t)) (blk_rows2 a V c t q)
    (funext fun j => blk_rows0 a V c t q j) (funext fun j => blk_rows1 a V c t q j)

/-- After `n` points the first accumulator holds the flow terms of the rows below `n·1024`. -/
theorem accF_eq : ∀ n : ℕ, n ≤ 64 → Hand.accF a V c n (ix2 0 0) = psum (termF a V c) (n * 1024)
  | 0, _ => by
    rw [Nat.zero_mul, psum_zero]
    exact pay3_zero
  | n + 1, hn => by
    have ih := accF_eq n (by omega)
    have hN : n < (cfg1 a).N := by
      show n < grid1.N
      rw [N_1]; omega
    have hs : Hand.accF a V c (n + 1) = Hand.stepF a V c ⟨n, hN⟩ (Hand.accF a V c n) := by
      rw [Hand.accF]; exact dif_pos hN
    rw [hs]
    unfold Hand.stepF
    rw [pay1_apply, ih, show (n + 1) * 1024 = n * 1024 + 1024 by ring, psum_add _ _ _ (by omega)]
    congr 1
    refine Finset.sum_congr rfl fun q _ => ?_
    exact pay8_term a V c ⟨n, hN⟩ q

/-- A masked choice, decoded: the mask is the signed comparison, the chosen value is named, the other is zero. -/
theorem masked_congr {m : BitVec 1} {x y : BitVec 32} {u u' z : EReal} (hm : m = IntOp.cmpi .slt x y) (hu : u = u')
    (hz : z = 0) : (if m = 1 then u else z) = if x.slt y = true then u' else 0 := by
  subst hm hu hz; exact select_slt x y u 0

/-- The rgb term the body computes for row `q` of block `t` is the rgb term of row `t·1024 + q`. -/
theorem pay9_term (t : Fin (cfg1 a).N) (q : Fin 1024) :
    (if k1_pay9 (F := Ideal) (grid1.coords t) (Hand.wordR a) (ix2 q 0) = 1
        then k1_pay10 (F := Ideal) (Hand.iblk1 a V c 0 t) (Hand.iblk1 a V c 1 t) (Hand.iblk1 a V c 3 t) (ix2 q 0)
        else Scalar.ofBits (F := Ideal) .f32 0x00000000#32)
      = termR a V c ⟨t.val * 1024 + q.val, row_lt a t q⟩ := by
  refine (masked_congr (pay9_apply (grid1.coords t) (Hand.wordR a) q) (pay10_apply _ _ _ q) Ideal.ofBits_zero_f32).trans ?_
  unfold termR
  exact term_congr (congrArg (· * 1024 + q.val) (coord0 t)) (blk_rows3 a V c t q)
    (funext fun j => blk_rows1 a V c t q j) (funext fun j => blk_rows0 a V c t q j)

/-- After `n` points the second accumulator holds the rgb terms of the rows below `n·1024`. -/
theorem accR_eq : ∀ n : ℕ, n ≤ 64 → Hand.accR a V c n (ix2 0 0) = psum (termR a V c) (n * 1024)
  | 0, _ => by
    rw [Nat.zero_mul, psum_zero]
    exact pay4_zero
  | n + 1, hn => by
    have ih := accR_eq n (by omega)
    have hN : n < (cfg1 a).N := by
      show n < grid1.N
      rw [N_1]; omega
    have hs : Hand.accR a V c (n + 1) = Hand.stepR a V c ⟨n, hN⟩ (Hand.accR a V c n) := by
      rw [Hand.accR]; exact dif_pos hN
    rw [hs]
    unfold Hand.stepR
    rw [pay2_apply, ih, show (n + 1) * 1024 = n * 1024 + 1024 by ring, psum_add _ _ _ (by omega)]
    congr 1
    refine Finset.sum_congr rfl fun q _ => ?_
    exact pay9_term a V c ⟨n, hN⟩ q

/-! ## What the call leaves in its two one-entry output arrays -/

/-- The two outputs' block index is constant, so only the last point writes back. -/
theorem flushOf4 : ∀ t : Fin grid1.N, Pipeline.Window.flushOf grid1 true cc1_transform_4 t = decide (t.val = 63) := by decide
theorem flushOf5 : ∀ t : Fin grid1.N, Pipeline.Window.flushOf grid1 true cc1_transform_5 t = decide (t.val = 63) := by decide
theorem index4 : ∀ t : Fin grid1.N, cc1_transform_4 (grid1.coords t) = ![0, 0] := by decide
theorem index5 : ∀ t : Fin grid1.N, cc1_transform_5 (grid1.coords t) = ![0, 0] := by decide

theorem flush4 (t : Fin (cfg1 a).N) : ((cfg1 a).win 4).flush t = decide (t.val = 63) := flushOf4 t
theorem flush5 (t : Fin (cfg1 a).N) : ((cfg1 a).win 5).flush t = decide (t.val = 63) := flushOf5 t

theorem last_lt : 63 < (cfg1 a).N := by
  show 63 < grid1.N
  rw [N_1]; omega

/-- A one-by-one block has one index. -/
theorem idx11 (x : (⟨2, ![1, 1]⟩ : Shape).Idx) : x = ix2 0 0 := by
  funext k
  match k with
  | ⟨0, _⟩ => have h : (x 0).val < 1 := (x 0).isLt; exact Fin.ext (by show (x 0).val = 0; omega)
  | ⟨1, _⟩ => have h : (x 1).val < 1 := (x 1).isLt; exact Fin.ext (by show (x 1).val = 0; omega)

/-- The one entry of the first output array lies in the last point's block. -/
theorem cover4 (i : (⟨2, ![1, 1]⟩ : Shape).Idx) : i ∈ (((cfg1 a).win 4).blk ⟨63, last_lt a⟩).view.set := by
  have e : ((cfg1 a).win 4).index ⟨63, last_lt a⟩ = ![0, 0] := index4 ⟨63, last_lt a⟩
  have hi : i = (((cfg1 a).win 4).blk ⟨63, last_lt a⟩).view.emb (ix2 0 0) := by
    funext k; apply Fin.ext
    match k with
    | ⟨0, _⟩ =>
      have h0 : (i 0).val < 1 := (i 0).isLt
      show (i 0).val = ((cfg1 a).win 4).index ⟨63, last_lt a⟩ (0 : Fin 2) * 1 + 1 * 0
      rw [e]; show (i 0).val = 0 * 1 + 1 * 0; omega
    | ⟨1, _⟩ =>
      have h1 : (i 1).val < 1 := (i 1).isLt
      show (i 1).val = ((cfg1 a).win 4).index ⟨63, last_lt a⟩ (1 : Fin 2) * 1 + 1 * 0
      rw [e]; show (i 1).val = 0 * 1 + 1 * 0; omega
  rw [hi]; exact View.emb_mem_set _ _

/-- The one entry of the second output array lies in the last point's block. -/
theorem cover5 (i : (⟨2, ![1, 1]⟩ : Shape).Idx) : i ∈ (((cfg1 a).win 5).blk ⟨63, last_lt a⟩).view.set := by
  have e : ((cfg1 a).win 5).index ⟨63, last_lt a⟩ = ![0, 0] := index5 ⟨63, last_lt a⟩
  have hi : i = (((cfg1 a).win 5).blk ⟨63, last_lt a⟩).view.emb (ix2 0 0) := by
    funext k; apply Fin.ext
    match k with
    | ⟨0, _⟩ =>
      have h0 : (i 0).val < 1 := (i 0).isLt
      show (i 0).val = ((cfg1 a).win 5).index ⟨63, last_lt a⟩ (0 : Fin 2) * 1 + 1 * 0
      rw [e]; show (i 0).val = 0 * 1 + 1 * 0; omega
    | ⟨1, _⟩ =>
      have h1 : (i 1).val < 1 := (i 1).isLt
      show (i 1).val = ((cfg1 a).win 5).index ⟨63, last_lt a⟩ (1 : Fin 2) * 1 + 1 * 0
      rw [e]; show (i 1).val = 0 * 1 + 1 * 0; omega
  rw [hi]; exact View.emb_mem_set _ _

/-- The first output array ends holding the sum of all 65536 flow terms. -/
theorem arr4 : (Hand.dat1 a V c).arrAt 4 (cfg1 a).N = fun _ => ∑ r : Fin 65536, termF a V c r := by
  have hS : Hand.accF a V c 64 (ix2 0 0) = ∑ r : Fin 65536, termF a V c r := by
    rw [accF_eq a V c 64 (le_refl _), show (64 : ℕ) * 1024 = 65536 by norm_num]
    exact psum_full _
  generalize (∑ r : Fin 65536, termF a V c r) = S at hS ⊢
  refine Dat.arrAt_eq_of_cover (Hand.dat1 a V c) 4 (fun _ => S) (fun t hf => ?_) (fun i => ⟨⟨63, last_lt a⟩, ?_, ?_⟩)
  · have ht : t.val = 63 := by
      rw [flush4 a t] at hf; exact of_decide_eq_true hf
    funext x
    have hl : (Hand.dat1 a V c).flushed 4 t x
        = Hand.accF a V c (t.val + 1) (((cfg1 a).win 4).xinj ((cfg1 a).grid.coords t) x) := by
      show (Hand.dat1 a V c).after 4 t _ = _
      rw [Hand.after1_4]
    refine hl.trans ?_
    rw [idx11 (((cfg1 a).win 4).xinj ((cfg1 a).grid.coords t) x), ht]
    exact hS
  · exact (flush4 a ⟨63, last_lt a⟩).trans (decide_eq_true rfl)
  · exact cover4 a i

/-- The second output array ends holding the sum of all 65536 rgb terms. -/
theorem arr5 : (Hand.dat1 a V c).arrAt 5 (cfg1 a).N = fun _ => ∑ r : Fin 65536, termR a V c r := by
  have hS : Hand.accR a V c 64 (ix2 0 0) = ∑ r : Fin 65536, termR a V c r := by
    rw [accR_eq a V c 64 (le_refl _), show (64 : ℕ) * 1024 = 65536 by norm_num]
    exact psum_full _
  generalize (∑ r : Fin 65536, termR a V c r) = S at hS ⊢
  refine Dat.arrAt_eq_of_cover (Hand.dat1 a V c) 5 (fun _ => S) (fun t hf => ?_) (fun i => ⟨⟨63, last_lt a⟩, ?_, ?_⟩)
  · have ht : t.val = 63 := by
      rw [flush5 a t] at hf; exact of_decide_eq_true hf
    funext x
    have hl : (Hand.dat1 a V c).flushed 5 t x
        = Hand.accR a V c (t.val + 1) (((cfg1 a).win 5).xinj ((cfg1 a).grid.coords t) x) := by
      show (Hand.dat1 a V c).after 5 t _ = _
      rw [Hand.after1_5]
    refine hl.trans ?_
    rw [idx11 (((cfg1 a).win 5).xinj ((cfg1 a).grid.coords t) x), ht]
    exact hS
  · exact (flush5 a ⟨63, last_lt a⟩).trans (decide_eq_true rfl)
  · exact cover5 a i

end Cert.KernelIdeal.K1Val
end
-- ==== Proof.KernelVal.lean ====
import proofs.«137920_j38130719653975_1_alg».proof.Proof.Run
import proofs.«137920_j38130719653975_1_alg».proof.Proof.KHost
import proofs.«137920_j38130719653975_1_alg».proof.Proof.K0Val
import proofs.«137920_j38130719653975_1_alg».proof.Proof.K1Val

/-! # The kernel's program run at the ideal values

The contents of the result buffers at the end of @main, read through the fold of the run: the first call leaves
the three posteriors and the four columns of confidences and entropies; the first host stretch counts the rows of
each side, totals the confidences and lays the two counts out as the second call's tables; the second call leaves
the two masked sums; the second host stretch divides each by its confidence total. Each is the row-by-row
mathematics of the four argument arrays. -/

set_option maxRecDepth 16384

noncomputable section

namespace Cert.KernelIdeal.KVal

open Cert.KernelIdeal Cert.KernelIdeal.Gen
open Idealize.ShloMosaic Idealize.ShloMosaic.TcCoe Idealize.SL.Sem Idealize.ShloMosaic.ValueIdx
open Cert.Results (rows)
open Cert.KernelIdeal.KHost (col)

variable (m : (ℓ : Loc nD τ sig) → Buf (Elt Ideal) ℓ) (ρ : Dev nD → PrngReg) (c : Dev nD)

/-- The four argument arrays on core c, and their rows. -/
abbrev a0 : (⟨2, ![64, 512]⟩ : Shape).Idx → EReal := m ((c : Thread nD τ).loc main_arg0)
abbrev a1 : (⟨2, ![64, 512]⟩ : Shape).Idx → EReal := m ((c : Thread nD τ).loc main_arg1)
abbrev a2 : (⟨2, ![65536, 512]⟩ : Shape).Idx → EReal := m ((c : Thread nD τ).loc main_arg2)
abbrev a3 : (⟨2, ![65536, 512]⟩ : Shape).Idx → EReal := m ((c : Thread nD τ).loc main_arg3)
abbrev Pr : Cert.Spec.Protos := rows (a0 m c)
abbrev Pf : Cert.Spec.Protos := rows (a1 m c)
abbrev Tr : Fin 65536 → Cert.Spec.Row := rows (a2 m c)
abbrev Tf : Fin 65536 → Cert.Spec.Row := rows (a3 m c)

/-! ## After the first call -/

theorem W1_v0_0 : Hand.W1 m ρ c (Proc.devRef .tc main_v0_0) = Cert.Results.postR (a0 m c) (a2 m c) :=
  (Hand.W1_arr m ρ c 4).trans (K0Val.arr4 (Hand.V0 m ρ) c)
theorem W1_v0_1 : Hand.W1 m ρ c (Proc.devRef .tc main_v0_1) = Cert.Results.postF (a1 m c) (a3 m c) :=
  (Hand.W1_arr m ρ c 5).trans (K0Val.arr5 (Hand.V0 m ρ) c)
theorem W1_v0_2 : Hand.W1 m ρ c (Proc.devRef .tc main_v0_2) = Cert.Results.fused (a0 m c) (a1 m c) (a2 m c) (a3 m c) :=
  (Hand.W1_arr m ρ c 6).trans (K0Val.arr6 (Hand.V0 m ρ) c)
theorem W1_v0_3 : Hand.W1 m ρ c (Proc.devRef .tc main_v0_3) = col fun r => Cert.Spec.cc (Pr m c) (Tr m c r) :=
  (Hand.W1_arr m ρ c 7).trans (K0Val.arr7 (Hand.V0 m ρ) c)
theorem W1_v0_4 : Hand.W1 m ρ c (Proc.devRef .tc main_v0_4) = col fun r => Cert.Spec.hh (Pr m c) (Tr m c r) :=
  (Hand.W1_arr m ρ c 8).trans (K0Val.arr8 (Hand.V0 m ρ) c)
theorem W1_v0_5 : Hand.W1 m ρ c (Proc.devRef .tc main_v0_5) = col fun r => Cert.Spec.cc (Pf m c) (Tf m c r) :=
  (Hand.W1_arr m ρ c 9).trans (K0Val.arr9 (Hand.V0 m ρ) c)
theorem W1_v0_6 : Hand.W1 m ρ c (Proc.devRef .tc main_v0_6) = col fun r => Cert.Spec.hh (Pf m c) (Tf m c r) :=
  (Hand.W1_arr m ρ c 10).trans (K0Val.arr10 (Hand.V0 m ρ) c)

/-! ## After the first host stretch -/

theorem W2_keep (r : Ref sig .tc) (h : r ∉ hostOps1_W) : Hand.W2 m ρ c (Proc.devRef .tc r) = Hand.W1 m ρ c (Proc.devRef .tc r) :=
  KHost.h1_keep (Hand.W1 m ρ c) r h
theorem W2_v7 : Hand.W2 m ρ c (Proc.devRef .tc main_v7) = fun _ => ∑ r : Fin 65536, Cert.Spec.cc (Pr m c) (Tr m c r) :=
  KHost.sumCr_val (Pr m c) (Tr m c) (Hand.W1 m ρ c) (W1_v0_3 m ρ c)
theorem W2_v8 : Hand.W2 m ρ c (Proc.devRef .tc main_v8) = fun _ => ∑ r : Fin 65536, Cert.Spec.cc (Pf m c) (Tf m c r) :=
  KHost.sumCf_val (Pf m c) (Tf m c) (Hand.W1 m ρ c) (W1_v0_5 m ρ c)
theorem W2_v9 : Hand.W2 m ρ c (Proc.devRef .tc main_v9) = fun _ => Cert.Spec.nF (Pr m c) (Pf m c) (Tr m c) (Tf m c) :=
  KHost.tblF_val (Pr m c) (Pf m c) (Tr m c) (Tf m c) (Hand.W1 m ρ c) (W1_v0_3 m ρ c) (W1_v0_4 m ρ c) (W1_v0_5 m ρ c) (W1_v0_6 m ρ c)
theorem W2_v10 : Hand.W2 m ρ c (Proc.devRef .tc main_v10) = fun _ => Cert.Spec.nR (Pr m c) (Pf m c) (Tr m c) (Tf m c) :=
  KHost.tblR_val (Pr m c) (Pf m c) (Tr m c) (Tf m c) (Hand.W1 m ρ c) (W1_v0_3 m ρ c) (W1_v0_4 m ρ c) (W1_v0_5 m ρ c) (W1_v0_6 m ρ c)

/-! ## The tables' words -/

theorem wordF_val : Hand.wordF (Hand.adm m ρ 1) = Cert.Spec.nF (Pr m 0) (Pf m 0) (Tr m 0) (Tf m 0) := by
  unfold Hand.wordF
  show (Hand.adm m ρ 1).1 0 _ = _
  rw [Hand.adm_tbl0, W2_v9]
theorem wordR_val : Hand.wordR (Hand.adm m ρ 1) = Cert.Spec.nR (Pr m 0) (Pf m 0) (Tr m 0) (Tf m 0) := by
  unfold Hand.wordR
  show (Hand.adm m ρ 1).1 1 _ = _
  rw [Hand.adm_tbl1, W2_v10]

/-! ## After the second call -/

/-- The first masked sum. -/
abbrev numFR : EReal := ∑ r : Fin 65536, if Cert.Spec.below (Cert.Spec.nF (Pr m c) (Pf m c) (Tr m c) (Tf m c)) r then
  Cert.Spec.cc (Pf m c) (Tf m c r) * Cert.Spec.klRow (Cert.Spec.pp (Pf m c) (Tf m c r)) (Cert.Spec.pp (Pr m c) (Tr m c r)) else 0
/-- The second masked sum. -/
abbrev numRF : EReal := ∑ r : Fin 65536, if Cert.Spec.below (Cert.Spec.nR (Pr m c) (Pf m c) (Tr m c) (Tf m c)) r then
  Cert.Spec.cc (Pr m c) (Tr m c r) * Cert.Spec.klRow (Cert.Spec.pp (Pr m c) (Tr m c r)) (Cert.Spec.pp (Pf m c) (Tf m c r)) else 0

theorem V2_v0_0 : Hand.V2 m ρ c main_v0_0 = Cert.Results.postR (a0 m c) (a2 m c) :=
  (W2_keep m ρ c main_v0_0 (by decide)).trans (W1_v0_0 m ρ c)
theorem V2_v0_1 : Hand.V2 m ρ c main_v0_1 = Cert.Results.postF (a1 m c) (a3 m c) :=
  (W2_keep m ρ c main_v0_1 (by decide)).trans (W1_v0_1 m ρ c)
theorem V2_v0_3 : Hand.V2 m ρ c main_v0_3 = col fun r => Cert.Spec.cc (Pr m c) (Tr m c r) :=
  (W2_keep m ρ c main_v0_3 (by decide)).trans (W1_v0_3 m ρ c)
theorem V2_v0_5 : Hand.V2 m ρ c main_v0_5 = col fun r => Cert.Spec.cc (Pf m c) (Tf m c r) :=
  (W2_keep m ρ c main_v0_5 (by decide)).trans (W1_v0_5 m ρ c)

theorem W3_v11_0 : Hand.W3 m ρ c (Proc.devRef .tc main_v11_0) = fun _ => numFR m c := by
  obtain rfl : c = 0 := Subsingleton.elim _ _
  refine (Hand.W3_arr m ρ 0 4).trans ((K1Val.arr4 (Hand.adm m ρ 1) (Hand.V2 m ρ) 0).trans ?_)
  funext _
  refine Finset.sum_congr rfl fun r _ => ?_
  unfold K1Val.termF K1Val.CF K1Val.PF K1Val.PR
  rw [wordF_val, V2_v0_0, V2_v0_1, V2_v0_5]
  rfl
theorem W3_v11_1 : Hand.W3 m ρ c (Proc.devRef .tc main_v11_1) = fun _ => numRF m c := by
  obtain rfl : c = 0 := Subsingleton.elim _ _
  refine (Hand.W3_arr m ρ 0 5).trans ((K1Val.arr5 (Hand.adm m ρ 1) (Hand.V2 m ρ) 0).trans ?_)
  funext _
  refine Finset.sum_congr rfl fun r _ => ?_
  unfold K1Val.termR K1Val.CR K1Val.PF K1Val.PR
  rw [wordR_val, V2_v0_0, V2_v0_1, V2_v0_3]
  rfl
theorem W3_keep (r : Ref sig .tc) (h : ∀ w, Pipeline.arrRef spec1 w ≠ r) : Hand.W3 m ρ c (Proc.devRef .tc r) = Hand.W2 m ρ c (Proc.devRef .tc r) :=
  Hand.W3_of_ne m ρ c r h

/-! ## After the second host stretch -/

theorem W4_keep (r : Ref sig .tc) (h : r ∉ hostOps2_W) : Hand.W4 m ρ c (Proc.devRef .tc r) = Hand.W3 m ρ c (Proc.devRef .tc r) :=
  KHost.h2_keep (Hand.W3 m ρ c) r h

theorem W4_v13 : Hand.W4 m ρ c (Proc.devRef .tc main_v13) = Cert.Results.lossFR (a0 m c) (a1 m c) (a2 m c) (a3 m c) :=
  KHost.quot_val (Hand.W3 m ρ c) (numFR m c) (∑ r : Fin 65536, Cert.Spec.cc (Pf m c) (Tf m c r)) (W3_v11_0 m ρ c)
    ((W3_keep m ρ c main_v8 (by decide)).trans (W2_v8 m ρ c))
theorem W4_v15 : Hand.W4 m ρ c (Proc.devRef .tc main_v15) = Cert.Results.lossRF (a0 m c) (a1 m c) (a2 m c) (a3 m c) :=
  KHost.quot_val' (Hand.W3 m ρ c) (numRF m c) (∑ r : Fin 65536, Cert.Spec.cc (Pr m c) (Tr m c r)) (W3_v11_1 m ρ c)
    ((W3_keep m ρ c main_v7 (by decide)).trans (W2_v7 m ρ c))
theorem W4_v0_0 : Hand.W4 m ρ c (Proc.devRef .tc main_v0_0) = Cert.Results.postR (a0 m c) (a2 m c) :=
  (W4_keep m ρ c main_v0_0 (by decide)).trans ((Hand.W3_arr m ρ c 1).trans
    (((Hand.dat1 (Hand.adm m ρ 1) (Hand.V2 m ρ) c).arrAt_in 1 rfl _).trans ((Hand.A_eq1 (Hand.adm m ρ 1) (Hand.V2 m ρ) c 1).trans (V2_v0_0 m ρ c))))
theorem W4_v0_1 : Hand.W4 m ρ c (Proc.devRef .tc main_v0_1) = Cert.Results.postF (a1 m c) (a3 m c) :=
  (W4_keep m ρ c main_v0_1 (by decide)).trans ((Hand.W3_arr m ρ c 0).trans
    (((Hand.dat1 (Hand.adm m ρ 1) (Hand.V2 m ρ) c).arrAt_in 0 rfl _).trans ((Hand.A_eq1 (Hand.adm m ρ 1) (Hand.V2 m ρ) c 0).trans (V2_v0_1 m ρ c))))
theorem W4_v0_2 : Hand.W4 m ρ c (Proc.devRef .tc main_v0_2) = Cert.Results.fused (a0 m c) (a1 m c) (a2 m c) (a3 m c) :=
  (W4_keep m ρ c main_v0_2 (by decide)).trans ((W3_keep m ρ c main_v0_2 (by decide)).trans
    ((W2_keep m ρ c main_v0_2 (by decide)).trans (W1_v0_2 m ρ c)))

/-- THE KERNEL'S RUN AT THE IDEAL VALUES: from any memory with zero counters every weakly fair execution of @main
    terminates, nothing faulting, and ends with the two losses, the two posteriors and the fused posterior at the
    row-by-row mathematics of the four argument arrays, which end as launched. -/
theorem kernel_run : θ_run (Cert.KernelIdeal.defs (F := Ideal)) (onTc (τ := τ) (main (F := Ideal))) ⟨m, fun _ => 0, ρ⟩ (fun r => ∀ c : Dev nD,
      r.2.mem ((c.tc : Thread nD τ).loc main_v13) = Cert.Results.lossFR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v15) = Cert.Results.lossRF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = Cert.Results.postF (m ((c.tc : Thread nD τ).loc main_arg1)) (m ((c.tc : Thread nD τ).loc main_arg3))
      ∧ r.2.mem ((c.tc : Thread nD τ).loc main_v0_0) = Cert.Results.postR (m ((c.tc : Thread nD τ).loc main_arg0)) (m ((c.tc : Thread nD τ).loc main_arg2))
      ∧ r.2.mem ((c.tc : Thread nD τ).loc main_v0_2) = Cert.Results.fused (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Hand.run_of m ρ fun s h c =>
    ⟨(h c _ (Hand.mem_uc main_v13 (by decide))).trans (W4_v13 m ρ c),
     (h c _ (Hand.mem_uc main_v15 (by decide))).trans (W4_v15 m ρ c),
     (h c _ (Hand.mem_uc main_v0_1 (by decide))).trans (W4_v0_1 m ρ c),
     (h c _ (Hand.mem_uc main_v0_0 (by decide))).trans (W4_v0_0 m ρ c),
     (h c _ (Hand.mem_uc main_v0_2 (by decide))).trans (W4_v0_2 m ρ c),
     (h c _ (Hand.mem_uc main_arg0 (by decide))).trans (Hand.W4_main_arg0 m ρ c),
     (h c _ (Hand.mem_uc main_arg1 (by decide))).trans (Hand.W4_main_arg1 m ρ c),
     (h c _ (Hand.mem_uc main_arg2 (by decide))).trans (Hand.W4_main_arg2 m ρ c),
     (h c _ (Hand.mem_uc main_arg3 (by decide))).trans (Hand.W4_main_arg3 m ρ c)⟩

end Cert.KernelIdeal.KVal

end
-- ==== Proof.RefRunStages.lean ====
/-
  The reference's run read stage by stage.  @main is a straight line of 180 host operations, each writing a buffer of its
  own once; the contents of the buffers after the line is the fold of the operations' results over the launch contents.
  The line is cut into 7 consecutive stretches.  After each stretch, every buffer that a later stretch reads, or that
  @main returns, holds its stage (the function `val_<buffer>` of the argument arrays), and the four argument arrays are
  what they were: a buffer written in the stretch is its operation's function of buffers the stretch wrote or of facts of
  the stretch before; a buffer written earlier is passed through, no operation of the stretch writing it.  The last
  stretch's facts are the run's statement.
-/
import proofs.«137920_j38130719653975_1_alg».proof.Proof.RefStages
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- @main's 180 operations, in order (a called function's operations stand in its call's place). -/
abbrev ops : List (HloOp τ sig (Elt F)) :=
  [ binary main_arg2 main_arg2 main_v0 (mulf : (⟨S65536x512, .f32⟩ : BufTy).Contents (Elt F) → (⟨S65536x512, .f32⟩ : BufTy).Contents (Elt F) → (⟨S65536x512, .f32⟩ : BufTy).Contents (Elt F)),
    nullary main_cst (constant S_ .f32 0x00000000#32),
    binary main_v0 main_cst main_v1 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v1 main_v2 (broadcastInDim S65536x1 ![0] bcast_S65536_S65536x1_0 : (⟨S65536, .f32⟩ : BufTy).Contents (Elt F) → (⟨S65536x1, .f32⟩ : BufTy).Contents (Elt F)),
    unary main_arg0 main_v3 ((transpose S512x64 [1, 0] · transposes_S64x512_S512x64_1_0) : (⟨S64x512, .f32⟩ : BufTy).Contents (Elt F) → (⟨S512x64, .f32⟩ : BufTy).Contents (Elt F)),
    binary main_arg2 main_v3 main_v4 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)),
    nullary main_cst_0 (constant S_ .f32 0x40000000#32),
    unary main_cst_0 main_v5 (broadcastInDim S65536x64 ![] bcast_S_S65536x64 : (⟨S_, .f32⟩ : BufTy).Contents (Elt F) → (⟨S65536x64, .f32⟩ : BufTy).Contents (Elt F)),
    binary main_v5 main_v4 main_v6 (mulf : (⟨S65536x64, .f32⟩ : BufTy).Contents (Elt F) → (⟨S65536x64, .f32⟩ : BufTy).Contents (Elt F) → (⟨S65536x64, .f32⟩ : BufTy).Contents (Elt F)),
    unary main_v2 main_v7 (broadcastInDim S65536x64 ![0, 1] bcast_S65536x1_S65536x64_0_1 : (⟨S65536x1, .f32⟩ : BufTy).Contents (Elt F) → (⟨S65536x64, .f32⟩ : BufTy).Contents (Elt F)),
    binary main_v7 main_v6 main_v8 (subf : (⟨S65536x64, .f32⟩ : BufTy).Contents (Elt F) → (⟨S65536x64, .f32⟩ : BufTy).Contents (Elt F) → (⟨S65536x64, .f32⟩ : BufTy).Contents (Elt F)),
    binary main_arg0 main_arg0 main_v9 (mulf : (⟨S64x512, .f32⟩ : BufTy).Contents (Elt F) → (⟨S64x512, .f32⟩ : BufTy).Contents (Elt F) → (⟨S64x512, .f32⟩ : BufTy).Contents (Elt F)),
    nullary main_cst_1 (constant S_ .f32 0x00000000#32),
    binary main_v9 main_cst_1 main_v10 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v10 main_v11 (broadcastInDim S1x64 ![1] bcast_S64_S1x64_1 : (⟨S64, .f32⟩ : BufTy).Contents (Elt F) → (⟨S1x64, .f32⟩ : BufTy).Contents (Elt F)),
    unary main_v11 main_v12 (broadcastInDim S65536x64 ![0, 1] bcast_S1x64_S65536x64_0_1 : (⟨S1x64, .f32⟩ : BufTy).Contents (Elt F) → (⟨S65536x64, .f32⟩ : BufTy).Contents (Elt F)),
    binary main_v8 main_v12 main_v13 (addf : (⟨S65536x64, .f32⟩ : BufTy).Contents (Elt F) → (⟨S65536x64, .f32⟩ : BufTy).Contents (Elt F) → (⟨S65536x64, .f32⟩ : BufTy).Contents (Elt F)),
    nullary main_cst_2 (constant S_ .f32 0x00000000#32),
    unary main_cst_2 main_v14 (broadcastInDim S65536x64 ![] bcast_S_S65536x64 : (⟨S_, .f32⟩ : BufTy).Contents (Elt F) → (⟨S65536x64, .f32⟩ : BufTy).Contents (Elt F)),
    binary main_v13 main_v14 main_v15 (maximumf : (⟨S65536x64, .f32⟩ : BufTy).Contents (Elt F) → (⟨S65536x64, .f32⟩ : BufTy).Contents (Elt F) → (⟨S65536x64, .f32⟩ : BufTy).Contents (Elt F)),
    unary main_v15 main_v16 (Host.sqrt : (⟨S65536x64, .f32⟩ : BufTy).Contents (Elt F) → (⟨S65536x64, .f32⟩ : BufTy).Contents (Elt F)),
    unary main_v16 main_v17 (Host.negf : (⟨S65536x64, .f32⟩ : BufTy).Contents (Elt F) → (⟨S65536x64, .f32⟩ : BufTy).Contents (Elt F)),
    unary main_v17 main_v18 (Host.exp : (⟨S65536x64, .f32⟩ : BufTy).Contents (Elt F) → (⟨S65536x64, .f32⟩ : BufTy).Contents (Elt F)),
    nullary main_cst_3 (constant S_ .f32 0x00000000#32),
    binary main_v18 main_cst_3 main_v19 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v19 main_v20 (broadcastInDim S65536x1 ![0] bcast_S65536_S65536x1_0 : (⟨S65536, .f32⟩ : BufTy).Contents (Elt F) → (⟨S65536x1, .f32⟩ : BufTy).Contents (Elt F)),
    unary main_v20 main_v21 (broadcastInDim S65536x64 ![0, 1] bcast_S65536x1_S65536x64_0_1 : (⟨S65536x1, .f32⟩ : BufTy).Contents (Elt F) → (⟨S65536x64, .f32⟩ : BufTy).Contents (Elt F)),
    binary main_v18 main_v21 main_v22 (Host.divf : (⟨S65536x64, .f32⟩ : BufTy).Contents (Elt F) → (⟨S65536x64, .f32⟩ : BufTy).Contents (Elt F) → (⟨S65536x64, .f32⟩ : BufTy).Contents (Elt F)),
    nullary main_cst_4 (constant S_ .f32 0xFF800000#32),
    binary main_v22 main_cst_4 main_v23 ((fun x v => Host.reduce FloatOps.maximumf x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v22 main_v24 (Host.log : (⟨S65536x64, .f32⟩ : BufTy).Contents (Elt F) → (⟨S65536x64, .f32⟩ : BufTy).Contents (Elt F)),
    binary main_v22 main_v24 main_v25 (mulf : (⟨S65536x64, .f32⟩ : BufTy).Contents (Elt F) → (⟨S65536x64, .f32⟩ : BufTy).Contents (Elt F) → (⟨S65536x64, .f32⟩ : BufTy).Contents (Elt F)),
    nullary main_cst_5 (constant S_ .f32 0x00000000#32),
    binary main_v25 main_cst_5 main_v26 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v26 main_v27 (Host.negf : (⟨S65536, .f32⟩ : BufTy).Contents (Elt F) → (⟨S65536, .f32⟩ : BufTy).Contents (Elt F)),
    binary main_arg3 main_arg3 main_v28 (mulf : (⟨S65536x512, .f32⟩ : BufTy).Contents (Elt F) → (⟨S65536x512, .f32⟩ : BufTy).Contents (Elt F) → (⟨S65536x512, .f32⟩ : BufTy).Contents (Elt F)),
    nullary main_cst_6 (constant S_ .f32 0x00000000#32),
    binary main_v28 main_cst_6 main_v29 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v29 main_v30 (broadcastInDim S65536x1 ![0] bcast_S65536_S65536x1_0 : (⟨S65536, .f32⟩ : BufTy).Contents (Elt F) → (⟨S65536x1, .f32⟩ : BufTy).Contents (Elt F)),
    unary main_arg1 main_v31 ((transpose S512x64 [1, 0] · transposes_S64x512_S512x64_1_0) : (⟨S64x512, .f32⟩ : BufTy).Contents (Elt F) → (⟨S512x64, .f32⟩ : BufTy).Contents (Elt F)),
    binary main_arg3 main_v31 main_v32 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)),
    nullary main_cst_7 (constant S_ .f32 0x40000000#32),
    unary main_cst_7 main_v33 (broadcastInDim S65536x64 ![] bcast_S_S65536x64 : (⟨S_, .f32⟩ : BufTy).Contents (Elt F) → (⟨S65536x64, .f32⟩ : BufTy).Contents (Elt F)),
    binary main_v33 main_v32 main_v34 (mulf : (⟨S65536x64, .f32⟩ : BufTy).Contents (Elt F) → (⟨S65536x64, .f32⟩ : BufTy).Contents (Elt F) → (⟨S65536x64, .f32⟩ : BufTy).Contents (Elt F)),
    unary main_v30 main_v35 (broadcastInDim S65536x64 ![0, 1] bcast_S65536x1_S65536x64_0_1 : (⟨S65536x1, .f32⟩ : BufTy).Contents (Elt F) → (⟨S65536x64, .f32⟩ : BufTy).Contents (Elt F)),
    binary main_v35 main_v34 main_v36 (subf : (⟨S65536x64, .f32⟩ : BufTy).Contents (Elt F) → (⟨S65536x64, .f32⟩ : BufTy).Contents (Elt F) → (⟨S65536x64, .f32⟩ : BufTy).Contents (Elt F)),
    binary main_arg1 main_arg1 main_v37 (mulf : (⟨S64x512, .f32⟩ : BufTy).Contents (Elt F) → (⟨S64x512, .f32⟩ : BufTy).Contents (Elt F) → (⟨S64x512, .f32⟩ : BufTy).Contents (Elt F)),
    nullary main_cst_8 (constant S_ .f32 0x00000000#32),
    binary main_v37 main_cst_8 main_v38 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v38 main_v39 (broadcastInDim S1x64 ![1] bcast_S64_S1x64_1 : (⟨S64, .f32⟩ : BufTy).Contents (Elt F) → (⟨S1x64, .f32⟩ : BufTy).Contents (Elt F)),
    unary main_v39 main_v40 (broadcastInDim S65536x64 ![0, 1] bcast_S1x64_S65536x64_0_1 : (⟨S1x64, .f32⟩ : BufTy).Contents (Elt F) → (⟨S65536x64, .f32⟩ : BufTy).Contents (Elt F)),
    binary main_v36 main_v40 main_v41 (addf : (⟨S65536x64, .f32⟩ : BufTy).Contents (Elt F) → (⟨S65536x64, .f32⟩ : BufTy).Contents (Elt F) → (⟨S65536x64, .f32⟩ : BufTy).Contents (Elt F)),
    nullary main_cst_9 (constant S_ .f32 0x00000000#32),
    unary main_cst_9 main_v42 (broadcastInDim S65536x64 ![] bcast_S_S65536x64 : (⟨S_, .f32⟩ : BufTy).Contents (Elt F) → (⟨S65536x64, .f32⟩ : BufTy).Contents (Elt F)),
    binary main_v41 main_v42 main_v43 (maximumf : (⟨S65536x64, .f32⟩ : BufTy).Contents (Elt F) → (⟨S65536x64, .f32⟩ : BufTy).Contents (Elt F) → (⟨S65536x64, .f32⟩ : BufTy).Contents (Elt F)),
    unary main_v43 main_v44 (Host.sqrt : (⟨S65536x64, .f32⟩ : BufTy).Contents (Elt F) → (⟨S65536x64, .f32⟩ : BufTy).Contents (Elt F)),
    unary main_v44 main_v45 (Host.negf : (⟨S65536x64, .f32⟩ : BufTy).Contents (Elt F) → (⟨S65536x64, .f32⟩ : BufTy).Contents (Elt F)),
    unary main_v45 main_v46 (Host.exp : (⟨S65536x64, .f32⟩ : BufTy).Contents (Elt F) → (⟨S65536x64, .f32⟩ : BufTy).Contents (Elt F)),
    nullary main_cst_10 (constant S_ .f32 0x00000000#32),
    binary main_v46 main_cst_10 main_v47 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v47 main_v48 (broadcastInDim S65536x1 ![0] bcast_S65536_S65536x1_0 : (⟨S65536, .f32⟩ : BufTy).Contents (Elt F) → (⟨S65536x1, .f32⟩ : BufTy).Contents (Elt F)),
    unary main_v48 main_v49 (broadcastInDim S65536x64 ![0, 1] bcast_S65536x1_S65536x64_0_1 : (⟨S65536x1, .f32⟩ : BufTy).Contents (Elt F) → (⟨S65536x64, .f32⟩ : BufTy).Contents (Elt F)),
    binary main_v46 main_v49 main_v50 (Host.divf : (⟨S65536x64, .f32⟩ : BufTy).Contents (Elt F) → (⟨S65536x64, .f32⟩ : BufTy).Contents (Elt F) → (⟨S65536x64, .f32⟩ : BufTy).Contents (Elt F)),
    nullary main_cst_11 (constant S_ .f32 0xFF800000#32),
    binary main_v50 main_cst_11 main_v51 ((fun x v => Host.reduce FloatOps.maximumf x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v50 main_v52 (Host.log : (⟨S65536x64, .f32⟩ : BufTy).Contents (Elt F) → (⟨S65536x64, .f32⟩ : BufTy).Contents (Elt F)),
    binary main_v50 main_v52 main_v53 (mulf : (⟨S65536x64, .f32⟩ : BufTy).Contents (Elt F) → (⟨S65536x64, .f32⟩ : BufTy).Contents (Elt F) → (⟨S65536x64, .f32⟩ : BufTy).Contents (Elt F)),
    nullary main_cst_12 (constant S_ .f32 0x00000000#32),
    binary main_v53 main_cst_12 main_v54 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v54 main_v55 (Host.negf : (⟨S65536, .f32⟩ : BufTy).Contents (Elt F) → (⟨S65536, .f32⟩ : BufTy).Contents (Elt F)),
    binary main_v27 main_v55 main_v56 (cmpf .ogt : (⟨S65536, .f32⟩ : BufTy).Contents (Elt F) → (⟨S65536, .f32⟩ : BufTy).Contents (Elt F) → (⟨S65536, .i1⟩ : BufTy).Contents (Elt F)),
    binary main_v23 main_v51 main_v57 (cmpf .ogt : (⟨S65536, .f32⟩ : BufTy).Contents (Elt F) → (⟨S65536, .f32⟩ : BufTy).Contents (Elt F) → (⟨S65536, .i1⟩ : BufTy).Contents (Elt F)),
    binary main_v56 main_v57 main_v58 (andi : (⟨S65536, .i1⟩ : BufTy).Contents (Elt F) → (⟨S65536, .i1⟩ : BufTy).Contents (Elt F) → (⟨S65536, .i1⟩ : BufTy).Contents (Elt F)),
    unary main_v58 main_v59 ((extui 32 · natLt_1_32) : (⟨S65536, .i1⟩ : BufTy).Contents (Elt F) → (⟨S65536, .i32⟩ : BufTy).Contents (Elt F)),
    nullary main_c (constantI S_ 32 0#32),
    binary main_v59 main_c main_v60 ((fun x v => Host.reduce IntOp.addi x v reducesTo_S65536_S_d0 h_S_) : (⟨S65536, .i32⟩ : BufTy).Contents (Elt F) → (⟨S_, .i32⟩ : BufTy).Contents (Elt F) → (⟨S_, .i32⟩ : BufTy).Contents (Elt F)),
    nullary main_c_13 (constantI S_ 32 65536#32),
    binary main_c_13 main_v60 main_v61 (subi : (⟨S_, .i32⟩ : BufTy).Contents (Elt F) → (⟨S_, .i32⟩ : BufTy).Contents (Elt F) → (⟨S_, .i32⟩ : BufTy).Contents (Elt F)),
    nullary main_v62 (iotaInDim S65536 32 0),
    unary main_v50 main_v63 (Host.log : (⟨S65536x64, .f32⟩ : BufTy).Contents (Elt F) → (⟨S65536x64, .f32⟩ : BufTy).Contents (Elt F)),
    binary main_v63 main_v22 main_v64 (subf : (⟨S65536x64, .f32⟩ : BufTy).Contents (Elt F) → (⟨S65536x64, .f32⟩ : BufTy).Contents (Elt F) → (⟨S65536x64, .f32⟩ : BufTy).Contents (Elt F)),
    binary main_v50 main_v64 main_v65 (mulf : (⟨S65536x64, .f32⟩ : BufTy).Contents (Elt F) → (⟨S65536x64, .f32⟩ : BufTy).Contents (Elt F) → (⟨S65536x64, .f32⟩ : BufTy).Contents (Elt F)),
    nullary main_cst_14 (constant S_ .f32 0x00000000#32),
    binary main_v65 main_cst_14 main_v66 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    nullary main_cst_15 (constant S_ .f32 0x42800000#32),
    unary main_cst_15 main_v67 (broadcastInDim S65536 ![] bcast_S_S65536 : (⟨S_, .f32⟩ : BufTy).Contents (Elt F) → (⟨S65536, .f32⟩ : BufTy).Contents (Elt F)),
    binary main_v66 main_v67 main_v68 (Host.divf : (⟨S65536, .f32⟩ : BufTy).Contents (Elt F) → (⟨S65536, .f32⟩ : BufTy).Contents (Elt F) → (⟨S65536, .f32⟩ : BufTy).Contents (Elt F)),
    unary main_v22 main_v69 (Host.log : (⟨S65536x64, .f32⟩ : BufTy).Contents (Elt F) → (⟨S65536x64, .f32⟩ : BufTy).Contents (Elt F)),
    binary main_v69 main_v50 main_v70 (subf : (⟨S65536x64, .f32⟩ : BufTy).Contents (Elt F) → (⟨S65536x64, .f32⟩ : BufTy).Contents (Elt F) → (⟨S65536x64, .f32⟩ : BufTy).Contents (Elt F)),
    binary main_v22 main_v70 main_v71 (mulf : (⟨S65536x64, .f32⟩ : BufTy).Contents (Elt F) → (⟨S65536x64, .f32⟩ : BufTy).Contents (Elt F) → (⟨S65536x64, .f32⟩ : BufTy).Contents (Elt F)),
    nullary main_cst_16 (constant S_ .f32 0x00000000#32),
    binary main_v71 main_cst_16 main_v72 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    nullary main_cst_17 (constant S_ .f32 0x42800000#32),
    unary main_cst_17 main_v73 (broadcastInDim S65536 ![] bcast_S_S65536 : (⟨S_, .f32⟩ : BufTy).Contents (Elt F) → (⟨S65536, .f32⟩ : BufTy).Contents (Elt F)),
    binary main_v72 main_v73 main_v74 (Host.divf : (⟨S65536, .f32⟩ : BufTy).Contents (Elt F) → (⟨S65536, .f32⟩ : BufTy).Contents (Elt F) → (⟨S65536, .f32⟩ : BufTy).Contents (Elt F)),
    unary main_v61 main_v75 (broadcastInDim S65536 ![] bcast_S_S65536 : (⟨S_, .i32⟩ : BufTy).Contents (Elt F) → (⟨S65536, .i32⟩ : BufTy).Contents (Elt F)),
    binary main_v62 main_v75 main_v76 (cmpi .slt : (⟨S65536, .i32⟩ : BufTy).Contents (Elt F) → (⟨S65536, .i32⟩ : BufTy).Contents (Elt F) → (⟨S65536, .i1⟩ : BufTy).Contents (Elt F)),
    binary main_v51 main_v68 main_v77 (mulf : (⟨S65536, .f32⟩ : BufTy).Contents (Elt F) → (⟨S65536, .f32⟩ : BufTy).Contents (Elt F) → (⟨S65536, .f32⟩ : BufTy).Contents (Elt F)),
    nullary main_cst_18 (constant S_ .f32 0x00000000#32),
    TRef.unary (TRef.of (T := ⟨S_, .f32⟩) main_cst_18) (TRef.of (T := ⟨S_, .f32⟩) main_call0_v0) id,
    TRef.unary (TRef.of (T := ⟨S_, .f32⟩) main_call0_v0) (TRef.of (T := ⟨S65536, .f32⟩) main_call0_v1) (broadcastInDim S65536 ![] bcast_S_S65536),
    TRef.ternary (TRef.of (T := ⟨S65536, .i1⟩) main_v76) (TRef.of (T := ⟨S65536, .f32⟩) main_v77) (TRef.of (T := ⟨S65536, .f32⟩) main_call0_v1) (TRef.of (T := ⟨S65536, .f32⟩) main_v78) select,
    nullary main_cst_19 (constant S_ .f32 0x00000000#32),
    binary main_v78 main_cst_19 main_v79 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_20 (constant S_ .f32 0x00000000#32),
    binary main_v51 main_cst_20 main_v80 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    binary main_v79 main_v80 main_v81 (Host.divf : (⟨S_, .f32⟩ : BufTy).Contents (Elt F) → (⟨S_, .f32⟩ : BufTy).Contents (Elt F) → (⟨S_, .f32⟩ : BufTy).Contents (Elt F)),
    unary main_v60 main_v82 (broadcastInDim S65536 ![] bcast_S_S65536 : (⟨S_, .i32⟩ : BufTy).Contents (Elt F) → (⟨S65536, .i32⟩ : BufTy).Contents (Elt F)),
    binary main_v62 main_v82 main_v83 (cmpi .slt : (⟨S65536, .i32⟩ : BufTy).Contents (Elt F) → (⟨S65536, .i32⟩ : BufTy).Contents (Elt F) → (⟨S65536, .i1⟩ : BufTy).Contents (Elt F)),
    binary main_v23 main_v74 main_v84 (mulf : (⟨S65536, .f32⟩ : BufTy).Contents (Elt F) → (⟨S65536, .f32⟩ : BufTy).Contents (Elt F) → (⟨S65536, .f32⟩ : BufTy).Contents (Elt F)),
    nullary main_cst_21 (constant S_ .f32 0x00000000#32),
    TRef.unary (TRef.of (T := ⟨S_, .f32⟩) main_cst_21) (TRef.of (T := ⟨S_, .f32⟩) main_call1_v0) id,
    TRef.unary (TRef.of (T := ⟨S_, .f32⟩) main_call1_v0) (TRef.of (T := ⟨S65536, .f32⟩) main_call1_v1) (broadcastInDim S65536 ![] bcast_S_S65536),
    TRef.ternary (TRef.of (T := ⟨S65536, .i1⟩) main_v83) (TRef.of (T := ⟨S65536, .f32⟩) main_v84) (TRef.of (T := ⟨S65536, .f32⟩) main_call1_v1) (TRef.of (T := ⟨S65536, .f32⟩) main_v85) select,
    nullary main_cst_22 (constant S_ .f32 0x00000000#32),
    binary main_v85 main_cst_22 main_v86 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_23 (constant S_ .f32 0x00000000#32),
    binary main_v23 main_cst_23 main_v87 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    binary main_v86 main_v87 main_v88 (Host.divf : (⟨S_, .f32⟩ : BufTy).Contents (Elt F) → (⟨S_, .f32⟩ : BufTy).Contents (Elt F) → (⟨S_, .f32⟩ : BufTy).Contents (Elt F)),
    binary main_v23 main_v51 main_v89 (addf : (⟨S65536, .f32⟩ : BufTy).Contents (Elt F) → (⟨S65536, .f32⟩ : BufTy).Contents (Elt F) → (⟨S65536, .f32⟩ : BufTy).Contents (Elt F)),
    binary main_v23 main_v89 main_v90 (Host.divf : (⟨S65536, .f32⟩ : BufTy).Contents (Elt F) → (⟨S65536, .f32⟩ : BufTy).Contents (Elt F) → (⟨S65536, .f32⟩ : BufTy).Contents (Elt F)),
    binary main_v51 main_v89 main_v91 (Host.divf : (⟨S65536, .f32⟩ : BufTy).Contents (Elt F) → (⟨S65536, .f32⟩ : BufTy).Contents (Elt F) → (⟨S65536, .f32⟩ : BufTy).Contents (Elt F)),
    binary main_arg2 main_arg2 main_v92 (mulf : (⟨S65536x512, .f32⟩ : BufTy).Contents (Elt F) → (⟨S65536x512, .f32⟩ : BufTy).Contents (Elt F) → (⟨S65536x512, .f32⟩ : BufTy).Contents (Elt F)),
    nullary main_cst_24 (constant S_ .f32 0x00000000#32),
    binary main_v92 main_cst_24 main_v93 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v93 main_v94 (broadcastInDim S65536x1 ![0] bcast_S65536_S65536x1_0 : (⟨S65536, .f32⟩ : BufTy).Contents (Elt F) → (⟨S65536x1, .f32⟩ : BufTy).Contents (Elt F)),
    unary main_arg0 main_v95 ((transpose S512x64 [1, 0] · transposes_S64x512_S512x64_1_0) : (⟨S64x512, .f32⟩ : BufTy).Contents (Elt F) → (⟨S512x64, .f32⟩ : BufTy).Contents (Elt F)),
    binary main_arg2 main_v95 main_v96 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)),
    nullary main_cst_25 (constant S_ .f32 0x40000000#32),
    unary main_cst_25 main_v97 (broadcastInDim S65536x64 ![] bcast_S_S65536x64 : (⟨S_, .f32⟩ : BufTy).Contents (Elt F) → (⟨S65536x64, .f32⟩ : BufTy).Contents (Elt F)),
    binary main_v97 main_v96 main_v98 (mulf : (⟨S65536x64, .f32⟩ : BufTy).Contents (Elt F) → (⟨S65536x64, .f32⟩ : BufTy).Contents (Elt F) → (⟨S65536x64, .f32⟩ : BufTy).Contents (Elt F)),
    unary main_v94 main_v99 (broadcastInDim S65536x64 ![0, 1] bcast_S65536x1_S65536x64_0_1 : (⟨S65536x1, .f32⟩ : BufTy).Contents (Elt F) → (⟨S65536x64, .f32⟩ : BufTy).Contents (Elt F)),
    binary main_v99 main_v98 main_v100 (subf : (⟨S65536x64, .f32⟩ : BufTy).Contents (Elt F) → (⟨S65536x64, .f32⟩ : BufTy).Contents (Elt F) → (⟨S65536x64, .f32⟩ : BufTy).Contents (Elt F)),
    binary main_arg0 main_arg0 main_v101 (mulf : (⟨S64x512, .f32⟩ : BufTy).Contents (Elt F) → (⟨S64x512, .f32⟩ : BufTy).Contents (Elt F) → (⟨S64x512, .f32⟩ : BufTy).Contents (Elt F)),
    nullary main_cst_26 (constant S_ .f32 0x00000000#32),
    binary main_v101 main_cst_26 main_v102 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v102 main_v103 (broadcastInDim S1x64 ![1] bcast_S64_S1x64_1 : (⟨S64, .f32⟩ : BufTy).Contents (Elt F) → (⟨S1x64, .f32⟩ : BufTy).Contents (Elt F)),
    unary main_v103 main_v104 (broadcastInDim S65536x64 ![0, 1] bcast_S1x64_S65536x64_0_1 : (⟨S1x64, .f32⟩ : BufTy).Contents (Elt F) → (⟨S65536x64, .f32⟩ : BufTy).Contents (Elt F)),
    binary main_v100 main_v104 main_v105 (addf : (⟨S65536x64, .f32⟩ : BufTy).Contents (Elt F) → (⟨S65536x64, .f32⟩ : BufTy).Contents (Elt F) → (⟨S65536x64, .f32⟩ : BufTy).Contents (Elt F)),
    nullary main_cst_27 (constant S_ .f32 0x00000000#32),
    unary main_cst_27 main_v106 (broadcastInDim S65536x64 ![] bcast_S_S65536x64 : (⟨S_, .f32⟩ : BufTy).Contents (Elt F) → (⟨S65536x64, .f32⟩ : BufTy).Contents (Elt F)),
    binary main_v105 main_v106 main_v107 (maximumf : (⟨S65536x64, .f32⟩ : BufTy).Contents (Elt F) → (⟨S65536x64, .f32⟩ : BufTy).Contents (Elt F) → (⟨S65536x64, .f32⟩ : BufTy).Contents (Elt F)),
    unary main_v107 main_v108 (Host.sqrt : (⟨S65536x64, .f32⟩ : BufTy).Contents (Elt F) → (⟨S65536x64, .f32⟩ : BufTy).Contents (Elt F)),
    unary main_v108 main_v109 (Host.negf : (⟨S65536x64, .f32⟩ : BufTy).Contents (Elt F) → (⟨S65536x64, .f32⟩ : BufTy).Contents (Elt F)),
    unary main_v109 main_v110 (Host.exp : (⟨S65536x64, .f32⟩ : BufTy).Contents (Elt F) → (⟨S65536x64, .f32⟩ : BufTy).Contents (Elt F)),
    binary main_arg3 main_arg3 main_v111 (mulf : (⟨S65536x512, .f32⟩ : BufTy).Contents (Elt F) → (⟨S65536x512, .f32⟩ : BufTy).Contents (Elt F) → (⟨S65536x512, .f32⟩ : BufTy).Contents (Elt F)),
    nullary main_cst_28 (constant S_ .f32 0x00000000#32),
    binary main_v111 main_cst_28 main_v112 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v112 main_v113 (broadcastInDim S65536x1 ![0] bcast_S65536_S65536x1_0 : (⟨S65536, .f32⟩ : BufTy).Contents (Elt F) → (⟨S65536x1, .f32⟩ : BufTy).Contents (Elt F)),
    unary main_arg1 main_v114 ((transpose S512x64 [1, 0] · transposes_S64x512_S512x64_1_0) : (⟨S64x512, .f32⟩ : BufTy).Contents (Elt F) → (⟨S512x64, .f32⟩ : BufTy).Contents (Elt F)),
    binary main_arg3 main_v114 main_v115 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)),
    nullary main_cst_29 (constant S_ .f32 0x40000000#32),
    unary main_cst_29 main_v116 (broadcastInDim S65536x64 ![] bcast_S_S65536x64 : (⟨S_, .f32⟩ : BufTy).Contents (Elt F) → (⟨S65536x64, .f32⟩ : BufTy).Contents (Elt F)),
    binary main_v116 main_v115 main_v117 (mulf : (⟨S65536x64, .f32⟩ : BufTy).Contents (Elt F) → (⟨S65536x64, .f32⟩ : BufTy).Contents (Elt F) → (⟨S65536x64, .f32⟩ : BufTy).Contents (Elt F)),
    unary main_v113 main_v118 (broadcastInDim S65536x64 ![0, 1] bcast_S65536x1_S65536x64_0_1 : (⟨S65536x1, .f32⟩ : BufTy).Contents (Elt F) → (⟨S65536x64, .f32⟩ : BufTy).Contents (Elt F)),
    binary main_v118 main_v117 main_v119 (subf : (⟨S65536x64, .f32⟩ : BufTy).Contents (Elt F) → (⟨S65536x64, .f32⟩ : BufTy).Contents (Elt F) → (⟨S65536x64, .f32⟩ : BufTy).Contents (Elt F)),
    binary main_arg1 main_arg1 main_v120 (mulf : (⟨S64x512, .f32⟩ : BufTy).Contents (Elt F) → (⟨S64x512, .f32⟩ : BufTy).Contents (Elt F) → (⟨S64x512, .f32⟩ : BufTy).Contents (Elt F)),
    nullary main_cst_30 (constant S_ .f32 0x00000000#32),
    binary main_v120 main_cst_30 main_v121 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v121 main_v122 (broadcastInDim S1x64 ![1] bcast_S64_S1x64_1 : (⟨S64, .f32⟩ : BufTy).Contents (Elt F) → (⟨S1x64, .f32⟩ : BufTy).Contents (Elt F)),
    unary main_v122 main_v123 (broadcastInDim S65536x64 ![0, 1] bcast_S1x64_S65536x64_0_1 : (⟨S1x64, .f32⟩ : BufTy).Contents (Elt F) → (⟨S65536x64, .f32⟩ : BufTy).Contents (Elt F)),
    binary main_v119 main_v123 main_v124 (addf : (⟨S65536x64, .f32⟩ : BufTy).Contents (Elt F) → (⟨S65536x64, .f32⟩ : BufTy).Contents (Elt F) → (⟨S65536x64, .f32⟩ : BufTy).Contents (Elt F)),
    nullary main_cst_31 (constant S_ .f32 0x00000000#32),
    unary main_cst_31 main_v125 (broadcastInDim S65536x64 ![] bcast_S_S65536x64 : (⟨S_, .f32⟩ : BufTy).Contents (Elt F) → (⟨S65536x64, .f32⟩ : BufTy).Contents (Elt F)),
    binary main_v124 main_v125 main_v126 (maximumf : (⟨S65536x64, .f32⟩ : BufTy).Contents (Elt F) → (⟨S65536x64, .f32⟩ : BufTy).Contents (Elt F) → (⟨S65536x64, .f32⟩ : BufTy).Contents (Elt F)),
    unary main_v126 main_v127 (Host.sqrt : (⟨S65536x64, .f32⟩ : BufTy).Contents (Elt F) → (⟨S65536x64, .f32⟩ : BufTy).Contents (Elt F)),
    unary main_v127 main_v128 (Host.negf : (⟨S65536x64, .f32⟩ : BufTy).Contents (Elt F) → (⟨S65536x64, .f32⟩ : BufTy).Contents (Elt F)),
    unary main_v128 main_v129 (Host.exp : (⟨S65536x64, .f32⟩ : BufTy).Contents (Elt F) → (⟨S65536x64, .f32⟩ : BufTy).Contents (Elt F)),
    unary main_v90 main_v130 (broadcastInDim S65536x1 ![0] bcast_S65536_S65536x1_0 : (⟨S65536, .f32⟩ : BufTy).Contents (Elt F) → (⟨S65536x1, .f32⟩ : BufTy).Contents (Elt F)),
    unary main_v130 main_v131 (broadcastInDim S65536x64 ![0, 1] bcast_S65536x1_S65536x64_0_1 : (⟨S65536x1, .f32⟩ : BufTy).Contents (Elt F) → (⟨S65536x64, .f32⟩ : BufTy).Contents (Elt F)),
    binary main_v131 main_v110 main_v132 (mulf : (⟨S65536x64, .f32⟩ : BufTy).Contents (Elt F) → (⟨S65536x64, .f32⟩ : BufTy).Contents (Elt F) → (⟨S65536x64, .f32⟩ : BufTy).Contents (Elt F)),
    unary main_v91 main_v133 (broadcastInDim S65536x1 ![0] bcast_S65536_S65536x1_0 : (⟨S65536, .f32⟩ : BufTy).Contents (Elt F) → (⟨S65536x1, .f32⟩ : BufTy).Contents (Elt F)),
    unary main_v133 main_v134 (broadcastInDim S65536x64 ![0, 1] bcast_S65536x1_S65536x64_0_1 : (⟨S65536x1, .f32⟩ : BufTy).Contents (Elt F) → (⟨S65536x64, .f32⟩ : BufTy).Contents (Elt F)),
    binary main_v134 main_v129 main_v135 (mulf : (⟨S65536x64, .f32⟩ : BufTy).Contents (Elt F) → (⟨S65536x64, .f32⟩ : BufTy).Contents (Elt F) → (⟨S65536x64, .f32⟩ : BufTy).Contents (Elt F)),
    binary main_v132 main_v135 main_v136 (addf : (⟨S65536x64, .f32⟩ : BufTy).Contents (Elt F) → (⟨S65536x64, .f32⟩ : BufTy).Contents (Elt F) → (⟨S65536x64, .f32⟩ : BufTy).Contents (Elt F)),
    nullary main_cst_32 (constant S_ .f32 0x00000000#32),
    binary main_v136 main_cst_32 main_v137 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v137 main_v138 (broadcastInDim S65536x1 ![0] bcast_S65536_S65536x1_0 : (⟨S65536, .f32⟩ : BufTy).Contents (Elt F) → (⟨S65536x1, .f32⟩ : BufTy).Contents (Elt F)),
    unary main_v138 main_v139 (broadcastInDim S65536x64 ![0, 1] bcast_S65536x1_S65536x64_0_1 : (⟨S65536x1, .f32⟩ : BufTy).Contents (Elt F) → (⟨S65536x64, .f32⟩ : BufTy).Contents (Elt F)),
    binary main_v136 main_v139 main_v140 (Host.divf : (⟨S65536x64, .f32⟩ : BufTy).Contents (Elt F) → (⟨S65536x64, .f32⟩ : BufTy).Contents (Elt F) → (⟨S65536x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., unary_bufs_sub .., unary_bufs_sub .., nullary_bufs_sub .., binary_bufs_sub .., unary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., unary_bufs_sub .., unary_bufs_sub .., nullary_bufs_sub .., binary_bufs_sub .., unary_bufs_sub .., unary_bufs_sub .., binary_bufs_sub .., nullary_bufs_sub .., binary_bufs_sub .., unary_bufs_sub .., binary_bufs_sub .., nullary_bufs_sub .., binary_bufs_sub .., unary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., binary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., binary_bufs_sub .., binary_bufs_sub .., binary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-! ## The stretches -/

/-- Operations 1 … 35. -/
abbrev ops0 : List (HloOp τ sig (Elt F)) :=
  [ binary main_arg2 main_arg2 main_v0 (mulf : (⟨S65536x512, .f32⟩ : BufTy).Contents (Elt F) → (⟨S65536x512, .f32⟩ : BufTy).Contents (Elt F) → (⟨S65536x512, .f32⟩ : BufTy).Contents (Elt F)),
    nullary main_cst (constant S_ .f32 0x00000000#32),
    binary main_v0 main_cst main_v1 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v1 main_v2 (broadcastInDim S65536x1 ![0] bcast_S65536_S65536x1_0 : (⟨S65536, .f32⟩ : BufTy).Contents (Elt F) → (⟨S65536x1, .f32⟩ : BufTy).Contents (Elt F)),
    unary main_arg0 main_v3 ((transpose S512x64 [1, 0] · transposes_S64x512_S512x64_1_0) : (⟨S64x512, .f32⟩ : BufTy).Contents (Elt F) → (⟨S512x64, .f32⟩ : BufTy).Contents (Elt F)),
    binary main_arg2 main_v3 main_v4 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)),
    nullary main_cst_0 (constant S_ .f32 0x40000000#32),
    unary main_cst_0 main_v5 (broadcastInDim S65536x64 ![] bcast_S_S65536x64 : (⟨S_, .f32⟩ : BufTy).Contents (Elt F) → (⟨S65536x64, .f32⟩ : BufTy).Contents (Elt F)),
    binary main_v5 main_v4 main_v6 (mulf : (⟨S65536x64, .f32⟩ : BufTy).Contents (Elt F) → (⟨S65536x64, .f32⟩ : BufTy).Contents (Elt F) → (⟨S65536x64, .f32⟩ : BufTy).Contents (Elt F)),
    unary main_v2 main_v7 (broadcastInDim S65536x64 ![0, 1] bcast_S65536x1_S65536x64_0_1 : (⟨S65536x1, .f32⟩ : BufTy).Contents (Elt F) → (⟨S65536x64, .f32⟩ : BufTy).Contents (Elt F)),
    binary main_v7 main_v6 main_v8 (subf : (⟨S65536x64, .f32⟩ : BufTy).Contents (Elt F) → (⟨S65536x64, .f32⟩ : BufTy).Contents (Elt F) → (⟨S65536x64, .f32⟩ : BufTy).Contents (Elt F)),
    binary main_arg0 main_arg0 main_v9 (mulf : (⟨S64x512, .f32⟩ : BufTy).Contents (Elt F) → (⟨S64x512, .f32⟩ : BufTy).Contents (Elt F) → (⟨S64x512, .f32⟩ : BufTy).Contents (Elt F)),
    nullary main_cst_1 (constant S_ .f32 0x00000000#32),
    binary main_v9 main_cst_1 main_v10 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v10 main_v11 (broadcastInDim S1x64 ![1] bcast_S64_S1x64_1 : (⟨S64, .f32⟩ : BufTy).Contents (Elt F) → (⟨S1x64, .f32⟩ : BufTy).Contents (Elt F)),
    unary main_v11 main_v12 (broadcastInDim S65536x64 ![0, 1] bcast_S1x64_S65536x64_0_1 : (⟨S1x64, .f32⟩ : BufTy).Contents (Elt F) → (⟨S65536x64, .f32⟩ : BufTy).Contents (Elt F)),
    binary main_v8 main_v12 main_v13 (addf : (⟨S65536x64, .f32⟩ : BufTy).Contents (Elt F) → (⟨S65536x64, .f32⟩ : BufTy).Contents (Elt F) → (⟨S65536x64, .f32⟩ : BufTy).Contents (Elt F)),
    nullary main_cst_2 (constant S_ .f32 0x00000000#32),
    unary main_cst_2 main_v14 (broadcastInDim S65536x64 ![] bcast_S_S65536x64 : (⟨S_, .f32⟩ : BufTy).Contents (Elt F) → (⟨S65536x64, .f32⟩ : BufTy).Contents (Elt F)),
    binary main_v13 main_v14 main_v15 (maximumf : (⟨S65536x64, .f32⟩ : BufTy).Contents (Elt F) → (⟨S65536x64, .f32⟩ : BufTy).Contents (Elt F) → (⟨S65536x64, .f32⟩ : BufTy).Contents (Elt F)),
    unary main_v15 main_v16 (Host.sqrt : (⟨S65536x64, .f32⟩ : BufTy).Contents (Elt F) → (⟨S65536x64, .f32⟩ : BufTy).Contents (Elt F)),
    unary main_v16 main_v17 (Host.negf : (⟨S65536x64, .f32⟩ : BufTy).Contents (Elt F) → (⟨S65536x64, .f32⟩ : BufTy).Contents (Elt F)),
    unary main_v17 main_v18 (Host.exp : (⟨S65536x64, .f32⟩ : BufTy).Contents (Elt F) → (⟨S65536x64, .f32⟩ : BufTy).Contents (Elt F)),
    nullary main_cst_3 (constant S_ .f32 0x00000000#32),
    binary main_v18 main_cst_3 main_v19 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v19 main_v20 (broadcastInDim S65536x1 ![0] bcast_S65536_S65536x1_0 : (⟨S65536, .f32⟩ : BufTy).Contents (Elt F) → (⟨S65536x1, .f32⟩ : BufTy).Contents (Elt F)),
    unary main_v20 main_v21 (broadcastInDim S65536x64 ![0, 1] bcast_S65536x1_S65536x64_0_1 : (⟨S65536x1, .f32⟩ : BufTy).Contents (Elt F) → (⟨S65536x64, .f32⟩ : BufTy).Contents (Elt F)),
    binary main_v18 main_v21 main_v22 (Host.divf : (⟨S65536x64, .f32⟩ : BufTy).Contents (Elt F) → (⟨S65536x64, .f32⟩ : BufTy).Contents (Elt F) → (⟨S65536x64, .f32⟩ : BufTy).Contents (Elt F)),
    nullary main_cst_4 (constant S_ .f32 0xFF800000#32),
    binary main_v22 main_cst_4 main_v23 ((fun x v => Host.reduce FloatOps.maximumf x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v22 main_v24 (Host.log : (⟨S65536x64, .f32⟩ : BufTy).Contents (Elt F) → (⟨S65536x64, .f32⟩ : BufTy).Contents (Elt F)),
    binary main_v22 main_v24 main_v25 (mulf : (⟨S65536x64, .f32⟩ : BufTy).Contents (Elt F) → (⟨S65536x64, .f32⟩ : BufTy).Contents (Elt F) → (⟨S65536x64, .f32⟩ : BufTy).Contents (Elt F)),
    nullary main_cst_5 (constant S_ .f32 0x00000000#32),
    binary main_v25 main_cst_5 main_v26 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v26 main_v27 (Host.negf : (⟨S65536, .f32⟩ : BufTy).Contents (Elt F) → (⟨S65536, .f32⟩ : BufTy).Contents (Elt F)) ]

/-- Operations 36 … 70. -/
abbrev ops1 : List (HloOp τ sig (Elt F)) :=
  [ binary main_arg3 main_arg3 main_v28 (mulf : (⟨S65536x512, .f32⟩ : BufTy).Contents (Elt F) → (⟨S65536x512, .f32⟩ : BufTy).Contents (Elt F) → (⟨S65536x512, .f32⟩ : BufTy).Contents (Elt F)),
    nullary main_cst_6 (constant S_ .f32 0x00000000#32),
    binary main_v28 main_cst_6 main_v29 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v29 main_v30 (broadcastInDim S65536x1 ![0] bcast_S65536_S65536x1_0 : (⟨S65536, .f32⟩ : BufTy).Contents (Elt F) → (⟨S65536x1, .f32⟩ : BufTy).Contents (Elt F)),
    unary main_arg1 main_v31 ((transpose S512x64 [1, 0] · transposes_S64x512_S512x64_1_0) : (⟨S64x512, .f32⟩ : BufTy).Contents (Elt F) → (⟨S512x64, .f32⟩ : BufTy).Contents (Elt F)),
    binary main_arg3 main_v31 main_v32 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)),
    nullary main_cst_7 (constant S_ .f32 0x40000000#32),
    unary main_cst_7 main_v33 (broadcastInDim S65536x64 ![] bcast_S_S65536x64 : (⟨S_, .f32⟩ : BufTy).Contents (Elt F) → (⟨S65536x64, .f32⟩ : BufTy).Contents (Elt F)),
    binary main_v33 main_v32 main_v34 (mulf : (⟨S65536x64, .f32⟩ : BufTy).Contents (Elt F) → (⟨S65536x64, .f32⟩ : BufTy).Contents (Elt F) → (⟨S65536x64, .f32⟩ : BufTy).Contents (Elt F)),
    unary main_v30 main_v35 (broadcastInDim S65536x64 ![0, 1] bcast_S65536x1_S65536x64_0_1 : (⟨S65536x1, .f32⟩ : BufTy).Contents (Elt F) → (⟨S65536x64, .f32⟩ : BufTy).Contents (Elt F)),
    binary main_v35 main_v34 main_v36 (subf : (⟨S65536x64, .f32⟩ : BufTy).Contents (Elt F) → (⟨S65536x64, .f32⟩ : BufTy).Contents (Elt F) → (⟨S65536x64, .f32⟩ : BufTy).Contents (Elt F)),
    binary main_arg1 main_arg1 main_v37 (mulf : (⟨S64x512, .f32⟩ : BufTy).Contents (Elt F) → (⟨S64x512, .f32⟩ : BufTy).Contents (Elt F) → (⟨S64x512, .f32⟩ : BufTy).Contents (Elt F)),
    nullary main_cst_8 (constant S_ .f32 0x00000000#32),
    binary main_v37 main_cst_8 main_v38 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v38 main_v39 (broadcastInDim S1x64 ![1] bcast_S64_S1x64_1 : (⟨S64, .f32⟩ : BufTy).Contents (Elt F) → (⟨S1x64, .f32⟩ : BufTy).Contents (Elt F)),
    unary main_v39 main_v40 (broadcastInDim S65536x64 ![0, 1] bcast_S1x64_S65536x64_0_1 : (⟨S1x64, .f32⟩ : BufTy).Contents (Elt F) → (⟨S65536x64, .f32⟩ : BufTy).Contents (Elt F)),
    binary main_v36 main_v40 main_v41 (addf : (⟨S65536x64, .f32⟩ : BufTy).Contents (Elt F) → (⟨S65536x64, .f32⟩ : BufTy).Contents (Elt F) → (⟨S65536x64, .f32⟩ : BufTy).Contents (Elt F)),
    nullary main_cst_9 (constant S_ .f32 0x00000000#32),
    unary main_cst_9 main_v42 (broadcastInDim S65536x64 ![] bcast_S_S65536x64 : (⟨S_, .f32⟩ : BufTy).Contents (Elt F) → (⟨S65536x64, .f32⟩ : BufTy).Contents (Elt F)),
    binary main_v41 main_v42 main_v43 (maximumf : (⟨S65536x64, .f32⟩ : BufTy).Contents (Elt F) → (⟨S65536x64, .f32⟩ : BufTy).Contents (Elt F) → (⟨S65536x64, .f32⟩ : BufTy).Contents (Elt F)),
    unary main_v43 main_v44 (Host.sqrt : (⟨S65536x64, .f32⟩ : BufTy).Contents (Elt F) → (⟨S65536x64, .f32⟩ : BufTy).Contents (Elt F)),
    unary main_v44 main_v45 (Host.negf : (⟨S65536x64, .f32⟩ : BufTy).Contents (Elt F) → (⟨S65536x64, .f32⟩ : BufTy).Contents (Elt F)),
    unary main_v45 main_v46 (Host.exp : (⟨S65536x64, .f32⟩ : BufTy).Contents (Elt F) → (⟨S65536x64, .f32⟩ : BufTy).Contents (Elt F)),
    nullary main_cst_10 (constant S_ .f32 0x00000000#32),
    binary main_v46 main_cst_10 main_v47 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v47 main_v48 (broadcastInDim S65536x1 ![0] bcast_S65536_S65536x1_0 : (⟨S65536, .f32⟩ : BufTy).Contents (Elt F) → (⟨S65536x1, .f32⟩ : BufTy).Contents (Elt F)),
    unary main_v48 main_v49 (broadcastInDim S65536x64 ![0, 1] bcast_S65536x1_S65536x64_0_1 : (⟨S65536x1, .f32⟩ : BufTy).Contents (Elt F) → (⟨S65536x64, .f32⟩ : BufTy).Contents (Elt F)),
    binary main_v46 main_v49 main_v50 (Host.divf : (⟨S65536x64, .f32⟩ : BufTy).Contents (Elt F) → (⟨S65536x64, .f32⟩ : BufTy).Contents (Elt F) → (⟨S65536x64, .f32⟩ : BufTy).Contents (Elt F)),
    nullary main_cst_11 (constant S_ .f32 0xFF800000#32),
    binary main_v50 main_cst_11 main_v51 ((fun x v => Host.reduce FloatOps.maximumf x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v50 main_v52 (Host.log : (⟨S65536x64, .f32⟩ : BufTy).Contents (Elt F) → (⟨S65536x64, .f32⟩ : BufTy).Contents (Elt F)),
    binary main_v50 main_v52 main_v53 (mulf : (⟨S65536x64, .f32⟩ : BufTy).Contents (Elt F) → (⟨S65536x64, .f32⟩ : BufTy).Contents (Elt F) → (⟨S65536x64, .f32⟩ : BufTy).Contents (Elt F)),
    nullary main_cst_12 (constant S_ .f32 0x00000000#32),
    binary main_v53 main_cst_12 main_v54 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v54 main_v55 (Host.negf : (⟨S65536, .f32⟩ : BufTy).Contents (Elt F) → (⟨S65536, .f32⟩ : BufTy).Contents (Elt F)) ]

/-- Operations 71 … 95. -/
abbrev ops2 : List (HloOp τ sig (Elt F)) :=
  [ binary main_v27 main_v55 main_v56 (cmpf .ogt : (⟨S65536, .f32⟩ : BufTy).Contents (Elt F) → (⟨S65536, .f32⟩ : BufTy).Contents (Elt F) → (⟨S65536, .i1⟩ : BufTy).Contents (Elt F)),
    binary main_v23 main_v51 main_v57 (cmpf .ogt : (⟨S65536, .f32⟩ : BufTy).Contents (Elt F) → (⟨S65536, .f32⟩ : BufTy).Contents (Elt F) → (⟨S65536, .i1⟩ : BufTy).Contents (Elt F)),
    binary main_v56 main_v57 main_v58 (andi : (⟨S65536, .i1⟩ : BufTy).Contents (Elt F) → (⟨S65536, .i1⟩ : BufTy).Contents (Elt F) → (⟨S65536, .i1⟩ : BufTy).Contents (Elt F)),
    unary main_v58 main_v59 ((extui 32 · natLt_1_32) : (⟨S65536, .i1⟩ : BufTy).Contents (Elt F) → (⟨S65536, .i32⟩ : BufTy).Contents (Elt F)),
    nullary main_c (constantI S_ 32 0#32),
    binary main_v59 main_c main_v60 ((fun x v => Host.reduce IntOp.addi x v reducesTo_S65536_S_d0 h_S_) : (⟨S65536, .i32⟩ : BufTy).Contents (Elt F) → (⟨S_, .i32⟩ : BufTy).Contents (Elt F) → (⟨S_, .i32⟩ : BufTy).Contents (Elt F)),
    nullary main_c_13 (constantI S_ 32 65536#32),
    binary main_c_13 main_v60 main_v61 (subi : (⟨S_, .i32⟩ : BufTy).Contents (Elt F) → (⟨S_, .i32⟩ : BufTy).Contents (Elt F) → (⟨S_, .i32⟩ : BufTy).Contents (Elt F)),
    nullary main_v62 (iotaInDim S65536 32 0),
    unary main_v50 main_v63 (Host.log : (⟨S65536x64, .f32⟩ : BufTy).Contents (Elt F) → (⟨S65536x64, .f32⟩ : BufTy).Contents (Elt F)),
    binary main_v63 main_v22 main_v64 (subf : (⟨S65536x64, .f32⟩ : BufTy).Contents (Elt F) → (⟨S65536x64, .f32⟩ : BufTy).Contents (Elt F) → (⟨S65536x64, .f32⟩ : BufTy).Contents (Elt F)),
    binary main_v50 main_v64 main_v65 (mulf : (⟨S65536x64, .f32⟩ : BufTy).Contents (Elt F) → (⟨S65536x64, .f32⟩ : BufTy).Contents (Elt F) → (⟨S65536x64, .f32⟩ : BufTy).Contents (Elt F)),
    nullary main_cst_14 (constant S_ .f32 0x00000000#32),
    binary main_v65 main_cst_14 main_v66 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    nullary main_cst_15 (constant S_ .f32 0x42800000#32),
    unary main_cst_15 main_v67 (broadcastInDim S65536 ![] bcast_S_S65536 : (⟨S_, .f32⟩ : BufTy).Contents (Elt F) → (⟨S65536, .f32⟩ : BufTy).Contents (Elt F)),
    binary main_v66 main_v67 main_v68 (Host.divf : (⟨S65536, .f32⟩ : BufTy).Contents (Elt F) → (⟨S65536, .f32⟩ : BufTy).Contents (Elt F) → (⟨S65536, .f32⟩ : BufTy).Contents (Elt F)),
    unary main_v22 main_v69 (Host.log : (⟨S65536x64, .f32⟩ : BufTy).Contents (Elt F) → (⟨S65536x64, .f32⟩ : BufTy).Contents (Elt F)),
    binary main_v69 main_v50 main_v70 (subf : (⟨S65536x64, .f32⟩ : BufTy).Contents (Elt F) → (⟨S65536x64, .f32⟩ : BufTy).Contents (Elt F) → (⟨S65536x64, .f32⟩ : BufTy).Contents (Elt F)),
    binary main_v22 main_v70 main_v71 (mulf : (⟨S65536x64, .f32⟩ : BufTy).Contents (Elt F) → (⟨S65536x64, .f32⟩ : BufTy).Contents (Elt F) → (⟨S65536x64, .f32⟩ : BufTy).Contents (Elt F)),
    nullary main_cst_16 (constant S_ .f32 0x00000000#32),
    binary main_v71 main_cst_16 main_v72 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    nullary main_cst_17 (constant S_ .f32 0x42800000#32),
    unary main_cst_17 main_v73 (broadcastInDim S65536 ![] bcast_S_S65536 : (⟨S_, .f32⟩ : BufTy).Contents (Elt F) → (⟨S65536, .f32⟩ : BufTy).Contents (Elt F)),
    binary main_v72 main_v73 main_v74 (Host.divf : (⟨S65536, .f32⟩ : BufTy).Contents (Elt F) → (⟨S65536, .f32⟩ : BufTy).Contents (Elt F) → (⟨S65536, .f32⟩ : BufTy).Contents (Elt F)) ]

/-- Operations 96 … 122. -/
abbrev ops3 : List (HloOp τ sig (Elt F)) :=
  [ unary main_v61 main_v75 (broadcastInDim S65536 ![] bcast_S_S65536 : (⟨S_, .i32⟩ : BufTy).Contents (Elt F) → (⟨S65536, .i32⟩ : BufTy).Contents (Elt F)),
    binary main_v62 main_v75 main_v76 (cmpi .slt : (⟨S65536, .i32⟩ : BufTy).Contents (Elt F) → (⟨S65536, .i32⟩ : BufTy).Contents (Elt F) → (⟨S65536, .i1⟩ : BufTy).Contents (Elt F)),
    binary main_v51 main_v68 main_v77 (mulf : (⟨S65536, .f32⟩ : BufTy).Contents (Elt F) → (⟨S65536, .f32⟩ : BufTy).Contents (Elt F) → (⟨S65536, .f32⟩ : BufTy).Contents (Elt F)),
    nullary main_cst_18 (constant S_ .f32 0x00000000#32),
    TRef.unary (TRef.of (T := ⟨S_, .f32⟩) main_cst_18) (TRef.of (T := ⟨S_, .f32⟩) main_call0_v0) id,
    TRef.unary (TRef.of (T := ⟨S_, .f32⟩) main_call0_v0) (TRef.of (T := ⟨S65536, .f32⟩) main_call0_v1) (broadcastInDim S65536 ![] bcast_S_S65536),
    TRef.ternary (TRef.of (T := ⟨S65536, .i1⟩) main_v76) (TRef.of (T := ⟨S65536, .f32⟩) main_v77) (TRef.of (T := ⟨S65536, .f32⟩) main_call0_v1) (TRef.of (T := ⟨S65536, .f32⟩) main_v78) select,
    nullary main_cst_19 (constant S_ .f32 0x00000000#32),
    binary main_v78 main_cst_19 main_v79 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_20 (constant S_ .f32 0x00000000#32),
    binary main_v51 main_cst_20 main_v80 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    binary main_v79 main_v80 main_v81 (Host.divf : (⟨S_, .f32⟩ : BufTy).Contents (Elt F) → (⟨S_, .f32⟩ : BufTy).Contents (Elt F) → (⟨S_, .f32⟩ : BufTy).Contents (Elt F)),
    unary main_v60 main_v82 (broadcastInDim S65536 ![] bcast_S_S65536 : (⟨S_, .i32⟩ : BufTy).Contents (Elt F) → (⟨S65536, .i32⟩ : BufTy).Contents (Elt F)),
    binary main_v62 main_v82 main_v83 (cmpi .slt : (⟨S65536, .i32⟩ : BufTy).Contents (Elt F) → (⟨S65536, .i32⟩ : BufTy).Contents (Elt F) → (⟨S65536, .i1⟩ : BufTy).Contents (Elt F)),
    binary main_v23 main_v74 main_v84 (mulf : (⟨S65536, .f32⟩ : BufTy).Contents (Elt F) → (⟨S65536, .f32⟩ : BufTy).Contents (Elt F) → (⟨S65536, .f32⟩ : BufTy).Contents (Elt F)),
    nullary main_cst_21 (constant S_ .f32 0x00000000#32),
    TRef.unary (TRef.of (T := ⟨S_, .f32⟩) main_cst_21) (TRef.of (T := ⟨S_, .f32⟩) main_call1_v0) id,
    TRef.unary (TRef.of (T := ⟨S_, .f32⟩) main_call1_v0) (TRef.of (T := ⟨S65536, .f32⟩) main_call1_v1) (broadcastInDim S65536 ![] bcast_S_S65536),
    TRef.ternary (TRef.of (T := ⟨S65536, .i1⟩) main_v83) (TRef.of (T := ⟨S65536, .f32⟩) main_v84) (TRef.of (T := ⟨S65536, .f32⟩) main_call1_v1) (TRef.of (T := ⟨S65536, .f32⟩) main_v85) select,
    nullary main_cst_22 (constant S_ .f32 0x00000000#32),
    binary main_v85 main_cst_22 main_v86 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_23 (constant S_ .f32 0x00000000#32),
    binary main_v23 main_cst_23 main_v87 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    binary main_v86 main_v87 main_v88 (Host.divf : (⟨S_, .f32⟩ : BufTy).Contents (Elt F) → (⟨S_, .f32⟩ : BufTy).Contents (Elt F) → (⟨S_, .f32⟩ : BufTy).Contents (Elt F)),
    binary main_v23 main_v51 main_v89 (addf : (⟨S65536, .f32⟩ : BufTy).Contents (Elt F) → (⟨S65536, .f32⟩ : BufTy).Contents (Elt F) → (⟨S65536, .f32⟩ : BufTy).Contents (Elt F)),
    binary main_v23 main_v89 main_v90 (Host.divf : (⟨S65536, .f32⟩ : BufTy).Contents (Elt F) → (⟨S65536, .f32⟩ : BufTy).Contents (Elt F) → (⟨S65536, .f32⟩ : BufTy).Contents (Elt F)),
    binary main_v51 main_v89 main_v91 (Host.divf : (⟨S65536, .f32⟩ : BufTy).Contents (Elt F) → (⟨S65536, .f32⟩ : BufTy).Contents (Elt F) → (⟨S65536, .f32⟩ : BufTy).Contents (Elt F)) ]

/-- Operations 123 … 145. -/
abbrev ops4 : List (HloOp τ sig (Elt F)) :=
  [ binary main_arg2 main_arg2 main_v92 (mulf : (⟨S65536x512, .f32⟩ : BufTy).Contents (Elt F) → (⟨S65536x512, .f32⟩ : BufTy).Contents (Elt F) → (⟨S65536x512, .f32⟩ : BufTy).Contents (Elt F)),
    nullary main_cst_24 (constant S_ .f32 0x00000000#32),
    binary main_v92 main_cst_24 main_v93 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v93 main_v94 (broadcastInDim S65536x1 ![0] bcast_S65536_S65536x1_0 : (⟨S65536, .f32⟩ : BufTy).Contents (Elt F) → (⟨S65536x1, .f32⟩ : BufTy).Contents (Elt F)),
    unary main_arg0 main_v95 ((transpose S512x64 [1, 0] · transposes_S64x512_S512x64_1_0) : (⟨S64x512, .f32⟩ : BufTy).Contents (Elt F) → (⟨S512x64, .f32⟩ : BufTy).Contents (Elt F)),
    binary main_arg2 main_v95 main_v96 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)),
    nullary main_cst_25 (constant S_ .f32 0x40000000#32),
    unary main_cst_25 main_v97 (broadcastInDim S65536x64 ![] bcast_S_S65536x64 : (⟨S_, .f32⟩ : BufTy).Contents (Elt F) → (⟨S65536x64, .f32⟩ : BufTy).Contents (Elt F)),
    binary main_v97 main_v96 main_v98 (mulf : (⟨S65536x64, .f32⟩ : BufTy).Contents (Elt F) → (⟨S65536x64, .f32⟩ : BufTy).Contents (Elt F) → (⟨S65536x64, .f32⟩ : BufTy).Contents (Elt F)),
    unary main_v94 main_v99 (broadcastInDim S65536x64 ![0, 1] bcast_S65536x1_S65536x64_0_1 : (⟨S65536x1, .f32⟩ : BufTy).Contents (Elt F) → (⟨S65536x64, .f32⟩ : BufTy).Contents (Elt F)),
    binary main_v99 main_v98 main_v100 (subf : (⟨S65536x64, .f32⟩ : BufTy).Contents (Elt F) → (⟨S65536x64, .f32⟩ : BufTy).Contents (Elt F) → (⟨S65536x64, .f32⟩ : BufTy).Contents (Elt F)),
    binary main_arg0 main_arg0 main_v101 (mulf : (⟨S64x512, .f32⟩ : BufTy).Contents (Elt F) → (⟨S64x512, .f32⟩ : BufTy).Contents (Elt F) → (⟨S64x512, .f32⟩ : BufTy).Contents (Elt F)),
    nullary main_cst_26 (constant S_ .f32 0x00000000#32),
    binary main_v101 main_cst_26 main_v102 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v102 main_v103 (broadcastInDim S1x64 ![1] bcast_S64_S1x64_1 : (⟨S64, .f32⟩ : BufTy).Contents (Elt F) → (⟨S1x64, .f32⟩ : BufTy).Contents (Elt F)),
    unary main_v103 main_v104 (broadcastInDim S65536x64 ![0, 1] bcast_S1x64_S65536x64_0_1 : (⟨S1x64, .f32⟩ : BufTy).Contents (Elt F) → (⟨S65536x64, .f32⟩ : BufTy).Contents (Elt F)),
    binary main_v100 main_v104 main_v105 (addf : (⟨S65536x64, .f32⟩ : BufTy).Contents (Elt F) → (⟨S65536x64, .f32⟩ : BufTy).Contents (Elt F) → (⟨S65536x64, .f32⟩ : BufTy).Contents (Elt F)),
    nullary main_cst_27 (constant S_ .f32 0x00000000#32),
    unary main_cst_27 main_v106 (broadcastInDim S65536x64 ![] bcast_S_S65536x64 : (⟨S_, .f32⟩ : BufTy).Contents (Elt F) → (⟨S65536x64, .f32⟩ : BufTy).Contents (Elt F)),
    binary main_v105 main_v106 main_v107 (maximumf : (⟨S65536x64, .f32⟩ : BufTy).Contents (Elt F) → (⟨S65536x64, .f32⟩ : BufTy).Contents (Elt F) → (⟨S65536x64, .f32⟩ : BufTy).Contents (Elt F)),
    unary main_v107 main_v108 (Host.sqrt : (⟨S65536x64, .f32⟩ : BufTy).Contents (Elt F) → (⟨S65536x64, .f32⟩ : BufTy).Contents (Elt F)),
    unary main_v108 main_v109 (Host.negf : (⟨S65536x64, .f32⟩ : BufTy).Contents (Elt F) → (⟨S65536x64, .f32⟩ : BufTy).Contents (Elt F)),
    unary main_v109 main_v110 (Host.exp : (⟨S65536x64, .f32⟩ : BufTy).Contents (Elt F) → (⟨S65536x64, .f32⟩ : BufTy).Contents (Elt F)) ]

/-- Operations 146 … 168. -/
abbrev ops5 : List (HloOp τ sig (Elt F)) :=
  [ binary main_arg3 main_arg3 main_v111 (mulf : (⟨S65536x512, .f32⟩ : BufTy).Contents (Elt F) → (⟨S65536x512, .f32⟩ : BufTy).Contents (Elt F) → (⟨S65536x512, .f32⟩ : BufTy).Contents (Elt F)),
    nullary main_cst_28 (constant S_ .f32 0x00000000#32),
    binary main_v111 main_cst_28 main_v112 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v112 main_v113 (broadcastInDim S65536x1 ![0] bcast_S65536_S65536x1_0 : (⟨S65536, .f32⟩ : BufTy).Contents (Elt F) → (⟨S65536x1, .f32⟩ : BufTy).Contents (Elt F)),
    unary main_arg1 main_v114 ((transpose S512x64 [1, 0] · transposes_S64x512_S512x64_1_0) : (⟨S64x512, .f32⟩ : BufTy).Contents (Elt F) → (⟨S512x64, .f32⟩ : BufTy).Contents (Elt F)),
    binary main_arg3 main_v114 main_v115 ((fun l r => Host.dotGeneral dot_S65536x512_S512x64_S65536x64_1_0_0_1_n_n none l r) : (⟨S65536x512, .f32⟩ : BufTy).Contents (Elt F) → (⟨S512x64, .f32⟩ : BufTy).Contents (Elt F) → (⟨S65536x64, .f32⟩ : BufTy).Contents (Elt F)),
    nullary main_cst_29 (constant S_ .f32 0x40000000#32),
    unary main_cst_29 main_v116 (broadcastInDim S65536x64 ![] bcast_S_S65536x64 : (⟨S_, .f32⟩ : BufTy).Contents (Elt F) → (⟨S65536x64, .f32⟩ : BufTy).Contents (Elt F)),
    binary main_v116 main_v115 main_v117 (mulf : (⟨S65536x64, .f32⟩ : BufTy).Contents (Elt F) → (⟨S65536x64, .f32⟩ : BufTy).Contents (Elt F) → (⟨S65536x64, .f32⟩ : BufTy).Contents (Elt F)),
    unary main_v113 main_v118 (broadcastInDim S65536x64 ![0, 1] bcast_S65536x1_S65536x64_0_1 : (⟨S65536x1, .f32⟩ : BufTy).Contents (Elt F) → (⟨S65536x64, .f32⟩ : BufTy).Contents (Elt F)),
    binary main_v118 main_v117 main_v119 (subf : (⟨S65536x64, .f32⟩ : BufTy).Contents (Elt F) → (⟨S65536x64, .f32⟩ : BufTy).Contents (Elt F) → (⟨S65536x64, .f32⟩ : BufTy).Contents (Elt F)),
    binary main_arg1 main_arg1 main_v120 (mulf : (⟨S64x512, .f32⟩ : BufTy).Contents (Elt F) → (⟨S64x512, .f32⟩ : BufTy).Contents (Elt F) → (⟨S64x512, .f32⟩ : BufTy).Contents (Elt F)),
    nullary main_cst_30 (constant S_ .f32 0x00000000#32),
    binary main_v120 main_cst_30 main_v121 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v121 main_v122 (broadcastInDim S1x64 ![1] bcast_S64_S1x64_1 : (⟨S64, .f32⟩ : BufTy).Contents (Elt F) → (⟨S1x64, .f32⟩ : BufTy).Contents (Elt F)),
    unary main_v122 main_v123 (broadcastInDim S65536x64 ![0, 1] bcast_S1x64_S65536x64_0_1 : (⟨S1x64, .f32⟩ : BufTy).Contents (Elt F) → (⟨S65536x64, .f32⟩ : BufTy).Contents (Elt F)),
    binary main_v119 main_v123 main_v124 (addf : (⟨S65536x64, .f32⟩ : BufTy).Contents (Elt F) → (⟨S65536x64, .f32⟩ : BufTy).Contents (Elt F) → (⟨S65536x64, .f32⟩ : BufTy).Contents (Elt F)),
    nullary main_cst_31 (constant S_ .f32 0x00000000#32),
    unary main_cst_31 main_v125 (broadcastInDim S65536x64 ![] bcast_S_S65536x64 : (⟨S_, .f32⟩ : BufTy).Contents (Elt F) → (⟨S65536x64, .f32⟩ : BufTy).Contents (Elt F)),
    binary main_v124 main_v125 main_v126 (maximumf : (⟨S65536x64, .f32⟩ : BufTy).Contents (Elt F) → (⟨S65536x64, .f32⟩ : BufTy).Contents (Elt F) → (⟨S65536x64, .f32⟩ : BufTy).Contents (Elt F)),
    unary main_v126 main_v127 (Host.sqrt : (⟨S65536x64, .f32⟩ : BufTy).Contents (Elt F) → (⟨S65536x64, .f32⟩ : BufTy).Contents (Elt F)),
    unary main_v127 main_v128 (Host.negf : (⟨S65536x64, .f32⟩ : BufTy).Contents (Elt F) → (⟨S65536x64, .f32⟩ : BufTy).Contents (Elt F)),
    unary main_v128 main_v129 (Host.exp : (⟨S65536x64, .f32⟩ : BufTy).Contents (Elt F) → (⟨S65536x64, .f32⟩ : BufTy).Contents (Elt F)) ]

/-- Operations 169 … 180. -/
abbrev ops6 : List (HloOp τ sig (Elt F)) :=
  [ unary main_v90 main_v130 (broadcastInDim S65536x1 ![0] bcast_S65536_S65536x1_0 : (⟨S65536, .f32⟩ : BufTy).Contents (Elt F) → (⟨S65536x1, .f32⟩ : BufTy).Contents (Elt F)),
    unary main_v130 main_v131 (broadcastInDim S65536x64 ![0, 1] bcast_S65536x1_S65536x64_0_1 : (⟨S65536x1, .f32⟩ : BufTy).Contents (Elt F) → (⟨S65536x64, .f32⟩ : BufTy).Contents (Elt F)),
    binary main_v131 main_v110 main_v132 (mulf : (⟨S65536x64, .f32⟩ : BufTy).Contents (Elt F) → (⟨S65536x64, .f32⟩ : BufTy).Contents (Elt F) → (⟨S65536x64, .f32⟩ : BufTy).Contents (Elt F)),
    unary main_v91 main_v133 (broadcastInDim S65536x1 ![0] bcast_S65536_S65536x1_0 : (⟨S65536, .f32⟩ : BufTy).Contents (Elt F) → (⟨S65536x1, .f32⟩ : BufTy).Contents (Elt F)),
    unary main_v133 main_v134 (broadcastInDim S65536x64 ![0, 1] bcast_S65536x1_S65536x64_0_1 : (⟨S65536x1, .f32⟩ : BufTy).Contents (Elt F) → (⟨S65536x64, .f32⟩ : BufTy).Contents (Elt F)),
    binary main_v134 main_v129 main_v135 (mulf : (⟨S65536x64, .f32⟩ : BufTy).Contents (Elt F) → (⟨S65536x64, .f32⟩ : BufTy).Contents (Elt F) → (⟨S65536x64, .f32⟩ : BufTy).Contents (Elt F)),
    binary main_v132 main_v135 main_v136 (addf : (⟨S65536x64, .f32⟩ : BufTy).Contents (Elt F) → (⟨S65536x64, .f32⟩ : BufTy).Contents (Elt F) → (⟨S65536x64, .f32⟩ : BufTy).Contents (Elt F)),
    nullary main_cst_32 (constant S_ .f32 0x00000000#32),
    binary main_v136 main_cst_32 main_v137 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v137 main_v138 (broadcastInDim S65536x1 ![0] bcast_S65536_S65536x1_0 : (⟨S65536, .f32⟩ : BufTy).Contents (Elt F) → (⟨S65536x1, .f32⟩ : BufTy).Contents (Elt F)),
    unary main_v138 main_v139 (broadcastInDim S65536x64 ![0, 1] bcast_S65536x1_S65536x64_0_1 : (⟨S65536x1, .f32⟩ : BufTy).Contents (Elt F) → (⟨S65536x64, .f32⟩ : BufTy).Contents (Elt F)),
    binary main_v136 main_v139 main_v140 (Host.divf : (⟨S65536x64, .f32⟩ : BufTy).Contents (Elt F) → (⟨S65536x64, .f32⟩ : BufTy).Contents (Elt F) → (⟨S65536x64, .f32⟩ : BufTy).Contents (Elt F)) ]

set_option maxRecDepth 8192 in
/-- The line is its stretches, in order. -/
theorem ops_cut : (ops : List (HloOp τ sig (Elt F))) = ops0 ++ (ops1 ++ (ops2 ++ (ops3 ++ (ops4 ++ (ops5 ++ (ops6)))))) := rfl

/-- The contents after two lines run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-! ## Typed references of an inlined function: contents carried along a reference's own type are the contents -/

/-- Contents carried into a typed reference's buffer and back are the contents. -/
theorem ofBuf_toBuf {T : BufTy} (x : TRef sig T) (v : T.Contents (Elt F)) : x.ofBuf (x.toBuf v) = v := by
  obtain ⟨r, h, h2, h3⟩ := x
  subst h
  rfl

theorem ofBuf_cst_18 (u : (⟨S_, .f32⟩ : BufTy).Contents (Elt F)) : (TRef.of (sig := sig) (T := ⟨S_, .f32⟩) main_cst_18).ofBuf u = u := rfl
theorem ofBuf_v76 (u : (⟨S65536, .i1⟩ : BufTy).Contents (Elt F)) : (TRef.of (sig := sig) (T := ⟨S65536, .i1⟩) main_v76).ofBuf u = u := rfl
theorem ofBuf_v77 (u : (⟨S65536, .f32⟩ : BufTy).Contents (Elt F)) : (TRef.of (sig := sig) (T := ⟨S65536, .f32⟩) main_v77).ofBuf u = u := rfl
theorem toBuf_v78 (v : (⟨S65536, .f32⟩ : BufTy).Contents (Elt F)) : (TRef.of (sig := sig) (T := ⟨S65536, .f32⟩) main_v78).toBuf v = v := rfl
theorem ofBuf_cst_21 (u : (⟨S_, .f32⟩ : BufTy).Contents (Elt F)) : (TRef.of (sig := sig) (T := ⟨S_, .f32⟩) main_cst_21).ofBuf u = u := rfl
theorem ofBuf_v83 (u : (⟨S65536, .i1⟩ : BufTy).Contents (Elt F)) : (TRef.of (sig := sig) (T := ⟨S65536, .i1⟩) main_v83).ofBuf u = u := rfl
theorem ofBuf_v84 (u : (⟨S65536, .f32⟩ : BufTy).Contents (Elt F)) : (TRef.of (sig := sig) (T := ⟨S65536, .f32⟩) main_v84).ofBuf u = u := rfl
theorem toBuf_v85 (v : (⟨S65536, .f32⟩ : BufTy).Contents (Elt F)) : (TRef.of (sig := sig) (T := ⟨S65536, .f32⟩) main_v85).toBuf v = v := rfl

/-! ## The contents after each stretch -/

/-- The contents after stretch 0. -/
def W0 (V : Valuation τ sig (Elt F)) : Valuation τ sig (Elt F) := after ops0 (V)
/-- The contents after stretch 1. -/
def W1 (V : Valuation τ sig (Elt F)) : Valuation τ sig (Elt F) := after ops1 (W0 V)
/-- The contents after stretch 2. -/
def W2 (V : Valuation τ sig (Elt F)) : Valuation τ sig (Elt F) := after ops2 (W1 V)
/-- The contents after stretch 3. -/
def W3 (V : Valuation τ sig (Elt F)) : Valuation τ sig (Elt F) := after ops3 (W2 V)
/-- The contents after stretch 4. -/
def W4 (V : Valuation τ sig (Elt F)) : Valuation τ sig (Elt F) := after ops4 (W3 V)
/-- The contents after stretch 5. -/
def W5 (V : Valuation τ sig (Elt F)) : Valuation τ sig (Elt F) := after ops5 (W4 V)
/-- The contents after stretch 6. -/
def W6 (V : Valuation τ sig (Elt F)) : Valuation τ sig (Elt F) := after ops6 (W5 V)

/-- The contents after the whole line. -/
theorem after_ops (V : Valuation τ sig (Elt F)) : after ops V = W6 V := by
  rw [ops_cut]
  simp only [after_app]
  rfl

/-! ## After stretch 0 (operations 1 … 35) -/

theorem W0_main_arg0 (V : Valuation τ sig (Elt F)) :
    W0 V (Proc.devRef .tc main_arg0) = V (Proc.devRef .tc main_arg0) := by
  unfold W0
  after_results_simp <;> rfl
theorem W0_main_arg1 (V : Valuation τ sig (Elt F)) :
    W0 V (Proc.devRef .tc main_arg1) = V (Proc.devRef .tc main_arg1) := by
  unfold W0
  after_results_simp <;> rfl
theorem W0_main_arg2 (V : Valuation τ sig (Elt F)) :
    W0 V (Proc.devRef .tc main_arg2) = V (Proc.devRef .tc main_arg2) := by
  unfold W0
  after_results_simp <;> rfl
theorem W0_main_arg3 (V : Valuation τ sig (Elt F)) :
    W0 V (Proc.devRef .tc main_arg3) = V (Proc.devRef .tc main_arg3) := by
  unfold W0
  after_results_simp <;> rfl
theorem W0_main_v22 (V : Valuation τ sig (Elt F)) :
    W0 V (Proc.devRef .tc main_v22) = Read.val_main_v22 (F := F) (V (Proc.devRef .tc main_arg0)) (V (Proc.devRef .tc main_arg2)) := by
  unfold W0
  after_results_simp <;> rfl
theorem W0_main_v23 (V : Valuation τ sig (Elt F)) :
    W0 V (Proc.devRef .tc main_v23) = Read.val_main_v23 (F := F) (V (Proc.devRef .tc main_arg0)) (V (Proc.devRef .tc main_arg2)) := by
  unfold W0
  after_results_simp <;> rfl
theorem W0_main_v27 (V : Valuation τ sig (Elt F)) :
    W0 V (Proc.devRef .tc main_v27) = Read.val_main_v27 (F := F) (V (Proc.devRef .tc main_arg0)) (V (Proc.devRef .tc main_arg2)) := by
  unfold W0
  after_results_simp <;> rfl

/-! ## After stretch 1 (operations 36 … 70) -/

theorem W1_main_arg0 (V : Valuation τ sig (Elt F)) :
    W1 V (Proc.devRef .tc main_arg0) = V (Proc.devRef .tc main_arg0) := by
  unfold W1
  after_results_simp <;> exact W0_main_arg0 V
theorem W1_main_arg1 (V : Valuation τ sig (Elt F)) :
    W1 V (Proc.devRef .tc main_arg1) = V (Proc.devRef .tc main_arg1) := by
  unfold W1
  after_results_simp <;> exact W0_main_arg1 V
theorem W1_main_arg2 (V : Valuation τ sig (Elt F)) :
    W1 V (Proc.devRef .tc main_arg2) = V (Proc.devRef .tc main_arg2) := by
  unfold W1
  after_results_simp <;> exact W0_main_arg2 V
theorem W1_main_arg3 (V : Valuation τ sig (Elt F)) :
    W1 V (Proc.devRef .tc main_arg3) = V (Proc.devRef .tc main_arg3) := by
  unfold W1
  after_results_simp <;> exact W0_main_arg3 V
theorem W1_main_v22 (V : Valuation τ sig (Elt F)) :
    W1 V (Proc.devRef .tc main_v22) = Read.val_main_v22 (F := F) (V (Proc.devRef .tc main_arg0)) (V (Proc.devRef .tc main_arg2)) := by
  unfold W1
  after_results_simp <;> exact W0_main_v22 V
theorem W1_main_v23 (V : Valuation τ sig (Elt F)) :
    W1 V (Proc.devRef .tc main_v23) = Read.val_main_v23 (F := F) (V (Proc.devRef .tc main_arg0)) (V (Proc.devRef .tc main_arg2)) := by
  unfold W1
  after_results_simp <;> exact W0_main_v23 V
theorem W1_main_v27 (V : Valuation τ sig (Elt F)) :
    W1 V (Proc.devRef .tc main_v27) = Read.val_main_v27 (F := F) (V (Proc.devRef .tc main_arg0)) (V (Proc.devRef .tc main_arg2)) := by
  unfold W1
  after_results_simp <;> exact W0_main_v27 V
theorem W1_main_v50 (V : Valuation τ sig (Elt F)) :
    W1 V (Proc.devRef .tc main_v50) = Read.val_main_v50 (F := F) (V (Proc.devRef .tc main_arg1)) (V (Proc.devRef .tc main_arg3)) := by
  unfold W1
  after_results_simp
  rw [W0_main_arg3 V, W0_main_arg1 V]
  rfl
theorem W1_main_v51 (V : Valuation τ sig (Elt F)) :
    W1 V (Proc.devRef .tc main_v51) = Read.val_main_v51 (F := F) (V (Proc.devRef .tc main_arg1)) (V (Proc.devRef .tc main_arg3)) := by
  unfold W1
  after_results_simp
  rw [W0_main_arg3 V, W0_main_arg1 V]
  rfl
theorem W1_main_v55 (V : Valuation τ sig (Elt F)) :
    W1 V (Proc.devRef .tc main_v55) = Read.val_main_v55 (F := F) (V (Proc.devRef .tc main_arg1)) (V (Proc.devRef .tc main_arg3)) := by
  unfold W1
  after_results_simp
  rw [W0_main_arg3 V, W0_main_arg1 V]
  rfl

/-! ## After stretch 2 (operations 71 … 95) -/

theorem W2_main_arg0 (V : Valuation τ sig (Elt F)) :
    W2 V (Proc.devRef .tc main_arg0) = V (Proc.devRef .tc main_arg0) := by
  unfold W2
  after_results_simp <;> exact W1_main_arg0 V
theorem W2_main_arg1 (V : Valuation τ sig (Elt F)) :
    W2 V (Proc.devRef .tc main_arg1) = V (Proc.devRef .tc main_arg1) := by
  unfold W2
  after_results_simp <;> exact W1_main_arg1 V
theorem W2_main_arg2 (V : Valuation τ sig (Elt F)) :
    W2 V (Proc.devRef .tc main_arg2) = V (Proc.devRef .tc main_arg2) := by
  unfold W2
  after_results_simp <;> exact W1_main_arg2 V
theorem W2_main_arg3 (V : Valuation τ sig (Elt F)) :
    W2 V (Proc.devRef .tc main_arg3) = V (Proc.devRef .tc main_arg3) := by
  unfold W2
  after_results_simp <;> exact W1_main_arg3 V
theorem W2_main_v22 (V : Valuation τ sig (Elt F)) :
    W2 V (Proc.devRef .tc main_v22) = Read.val_main_v22 (F := F) (V (Proc.devRef .tc main_arg0)) (V (Proc.devRef .tc main_arg2)) := by
  unfold W2
  after_results_simp <;> exact W1_main_v22 V
theorem W2_main_v23 (V : Valuation τ sig (Elt F)) :
    W2 V (Proc.devRef .tc main_v23) = Read.val_main_v23 (F := F) (V (Proc.devRef .tc main_arg0)) (V (Proc.devRef .tc main_arg2)) := by
  unfold W2
  after_results_simp <;> exact W1_main_v23 V
theorem W2_main_v50 (V : Valuation τ sig (Elt F)) :
    W2 V (Proc.devRef .tc main_v50) = Read.val_main_v50 (F := F) (V (Proc.devRef .tc main_arg1)) (V (Proc.devRef .tc main_arg3)) := by
  unfold W2
  after_results_simp <;> exact W1_main_v50 V
theorem W2_main_v51 (V : Valuation τ sig (Elt F)) :
    W2 V (Proc.devRef .tc main_v51) = Read.val_main_v51 (F := F) (V (Proc.devRef .tc main_arg1)) (V (Proc.devRef .tc main_arg3)) := by
  unfold W2
  after_results_simp <;> exact W1_main_v51 V
theorem W2_main_v60 (V : Valuation τ sig (Elt F)) :
    W2 V (Proc.devRef .tc main_v60) = Read.val_main_v60 (F := F) (V (Proc.devRef .tc main_arg0)) (V (Proc.devRef .tc main_arg1)) (V (Proc.devRef .tc main_arg2)) (V (Proc.devRef .tc main_arg3)) := by
  unfold W2
  after_results_simp
  rw [W1_main_v27 V, W1_main_v55 V, W1_main_v23 V, W1_main_v51 V]
  rfl
theorem W2_main_v61 (V : Valuation τ sig (Elt F)) :
    W2 V (Proc.devRef .tc main_v61) = Read.val_main_v61 (F := F) (V (Proc.devRef .tc main_arg0)) (V (Proc.devRef .tc main_arg1)) (V (Proc.devRef .tc main_arg2)) (V (Proc.devRef .tc main_arg3)) := by
  unfold W2
  after_results_simp
  rw [W1_main_v27 V, W1_main_v55 V, W1_main_v23 V, W1_main_v51 V]
  rfl
theorem W2_main_v62 (V : Valuation τ sig (Elt F)) :
    W2 V (Proc.devRef .tc main_v62) = Read.val_main_v62 (F := F) := by
  unfold W2
  after_results_simp <;> rfl
theorem W2_main_v68 (V : Valuation τ sig (Elt F)) :
    W2 V (Proc.devRef .tc main_v68) = Read.val_main_v68 (F := F) (V (Proc.devRef .tc main_arg0)) (V (Proc.devRef .tc main_arg1)) (V (Proc.devRef .tc main_arg2)) (V (Proc.devRef .tc main_arg3)) := by
  unfold W2
  after_results_simp
  rw [W1_main_v50 V, W1_main_v22 V]
  rfl
theorem W2_main_v74 (V : Valuation τ sig (Elt F)) :
    W2 V (Proc.devRef .tc main_v74) = Read.val_main_v74 (F := F) (V (Proc.devRef .tc main_arg0)) (V (Proc.devRef .tc main_arg1)) (V (Proc.devRef .tc main_arg2)) (V (Proc.devRef .tc main_arg3)) := by
  unfold W2
  after_results_simp
  rw [W1_main_v22 V, W1_main_v50 V]
  rfl

/-! ## After stretch 3 (operations 96 … 122) -/

theorem W3_main_arg0 (V : Valuation τ sig (Elt F)) :
    W3 V (Proc.devRef .tc main_arg0) = V (Proc.devRef .tc main_arg0) := by
  unfold W3
  after_results_simp <;> exact W2_main_arg0 V
theorem W3_main_arg1 (V : Valuation τ sig (Elt F)) :
    W3 V (Proc.devRef .tc main_arg1) = V (Proc.devRef .tc main_arg1) := by
  unfold W3
  after_results_simp <;> exact W2_main_arg1 V
theorem W3_main_arg2 (V : Valuation τ sig (Elt F)) :
    W3 V (Proc.devRef .tc main_arg2) = V (Proc.devRef .tc main_arg2) := by
  unfold W3
  after_results_simp <;> exact W2_main_arg2 V
theorem W3_main_arg3 (V : Valuation τ sig (Elt F)) :
    W3 V (Proc.devRef .tc main_arg3) = V (Proc.devRef .tc main_arg3) := by
  unfold W3
  after_results_simp <;> exact W2_main_arg3 V
theorem W3_main_v22 (V : Valuation τ sig (Elt F)) :
    W3 V (Proc.devRef .tc main_v22) = Read.val_main_v22 (F := F) (V (Proc.devRef .tc main_arg0)) (V (Proc.devRef .tc main_arg2)) := by
  unfold W3
  after_results_simp <;> exact W2_main_v22 V
theorem W3_main_v50 (V : Valuation τ sig (Elt F)) :
    W3 V (Proc.devRef .tc main_v50) = Read.val_main_v50 (F := F) (V (Proc.devRef .tc main_arg1)) (V (Proc.devRef .tc main_arg3)) := by
  unfold W3
  after_results_simp <;> exact W2_main_v50 V
theorem W3_main_v81 (V : Valuation τ sig (Elt F)) :
    W3 V (Proc.devRef .tc main_v81) = Read.val_main_v81 (F := F) (V (Proc.devRef .tc main_arg0)) (V (Proc.devRef .tc main_arg1)) (V (Proc.devRef .tc main_arg2)) (V (Proc.devRef .tc main_arg3)) := by
  unfold W3
  after_results_simp
  rw [W2_main_v62 V, W2_main_v61 V, W2_main_v51 V, W2_main_v68 V]
  rw [ofBuf_toBuf, ofBuf_toBuf, ofBuf_cst_18, ofBuf_v76, ofBuf_v77, toBuf_v78]
  rfl
theorem W3_main_v88 (V : Valuation τ sig (Elt F)) :
    W3 V (Proc.devRef .tc main_v88) = Read.val_main_v88 (F := F) (V (Proc.devRef .tc main_arg0)) (V (Proc.devRef .tc main_arg1)) (V (Proc.devRef .tc main_arg2)) (V (Proc.devRef .tc main_arg3)) := by
  unfold W3
  after_results_simp
  rw [W2_main_v62 V, W2_main_v60 V, W2_main_v23 V, W2_main_v74 V]
  rw [ofBuf_toBuf, ofBuf_toBuf, ofBuf_cst_21, ofBuf_v83, ofBuf_v84, toBuf_v85]
  rfl
theorem W3_main_v90 (V : Valuation τ sig (Elt F)) :
    W3 V (Proc.devRef .tc main_v90) = Read.val_main_v90 (F := F) (V (Proc.devRef .tc main_arg0)) (V (Proc.devRef .tc main_arg1)) (V (Proc.devRef .tc main_arg2)) (V (Proc.devRef .tc main_arg3)) := by
  unfold W3
  after_results_simp
  rw [W2_main_v23 V, W2_main_v51 V]
  rfl
theorem W3_main_v91 (V : Valuation τ sig (Elt F)) :
    W3 V (Proc.devRef .tc main_v91) = Read.val_main_v91 (F := F) (V (Proc.devRef .tc main_arg0)) (V (Proc.devRef .tc main_arg1)) (V (Proc.devRef .tc main_arg2)) (V (Proc.devRef .tc main_arg3)) := by
  unfold W3
  after_results_simp
  rw [W2_main_v51 V, W2_main_v23 V]
  rfl

/-! ## After stretch 4 (operations 123 … 145) -/

theorem W4_main_arg0 (V : Valuation τ sig (Elt F)) :
    W4 V (Proc.devRef .tc main_arg0) = V (Proc.devRef .tc main_arg0) := by
  unfold W4
  after_results_simp <;> exact W3_main_arg0 V
theorem W4_main_arg1 (V : Valuation τ sig (Elt F)) :
    W4 V (Proc.devRef .tc main_arg1) = V (Proc.devRef .tc main_arg1) := by
  unfold W4
  after_results_simp <;> exact W3_main_arg1 V
theorem W4_main_arg2 (V : Valuation τ sig (Elt F)) :
    W4 V (Proc.devRef .tc main_arg2) = V (Proc.devRef .tc main_arg2) := by
  unfold W4
  after_results_simp <;> exact W3_main_arg2 V
theorem W4_main_arg3 (V : Valuation τ sig (Elt F)) :
    W4 V (Proc.devRef .tc main_arg3) = V (Proc.devRef .tc main_arg3) := by
  unfold W4
  after_results_simp <;> exact W3_main_arg3 V
theorem W4_main_v22 (V : Valuation τ sig (Elt F)) :
    W4 V (Proc.devRef .tc main_v22) = Read.val_main_v22 (F := F) (V (Proc.devRef .tc main_arg0)) (V (Proc.devRef .tc main_arg2)) := by
  unfold W4
  after_results_simp <;> exact W3_main_v22 V
theorem W4_main_v50 (V : Valuation τ sig (Elt F)) :
    W4 V (Proc.devRef .tc main_v50) = Read.val_main_v50 (F := F) (V (Proc.devRef .tc main_arg1)) (V (Proc.devRef .tc main_arg3)) := by
  unfold W4
  after_results_simp <;> exact W3_main_v50 V
theorem W4_main_v81 (V : Valuation τ sig (Elt F)) :
    W4 V (Proc.devRef .tc main_v81) = Read.val_main_v81 (F := F) (V (Proc.devRef .tc main_arg0)) (V (Proc.devRef .tc main_arg1)) (V (Proc.devRef .tc main_arg2)) (V (Proc.devRef .tc main_arg3)) := by
  unfold W4
  after_results_simp <;> exact W3_main_v81 V
theorem W4_main_v88 (V : Valuation τ sig (Elt F)) :
    W4 V (Proc.devRef .tc main_v88) = Read.val_main_v88 (F := F) (V (Proc.devRef .tc main_arg0)) (V (Proc.devRef .tc main_arg1)) (V (Proc.devRef .tc main_arg2)) (V (Proc.devRef .tc main_arg3)) := by
  unfold W4
  after_results_simp <;> exact W3_main_v88 V
theorem W4_main_v90 (V : Valuation τ sig (Elt F)) :
    W4 V (Proc.devRef .tc main_v90) = Read.val_main_v90 (F := F) (V (Proc.devRef .tc main_arg0)) (V (Proc.devRef .tc main_arg1)) (V (Proc.devRef .tc main_arg2)) (V (Proc.devRef .tc main_arg3)) := by
  unfold W4
  after_results_simp <;> exact W3_main_v90 V
theorem W4_main_v91 (V : Valuation τ sig (Elt F)) :
    W4 V (Proc.devRef .tc main_v91) = Read.val_main_v91 (F := F) (V (Proc.devRef .tc main_arg0)) (V (Proc.devRef .tc main_arg1)) (V (Proc.devRef .tc main_arg2)) (V (Proc.devRef .tc main_arg3)) := by
  unfold W4
  after_results_simp <;> exact W3_main_v91 V
theorem W4_main_v110 (V : Valuation τ sig (Elt F)) :
    W4 V (Proc.devRef .tc main_v110) = Read.val_main_v110 (F := F) (V (Proc.devRef .tc main_arg0)) (V (Proc.devRef .tc main_arg2)) := by
  unfold W4
  after_results_simp
  rw [W3_main_arg2 V, W3_main_arg0 V]
  rfl

/-! ## After stretch 5 (operations 146 … 168) -/

theorem W5_main_arg0 (V : Valuation τ sig (Elt F)) :
    W5 V (Proc.devRef .tc main_arg0) = V (Proc.devRef .tc main_arg0) := by
  unfold W5
  after_results_simp <;> exact W4_main_arg0 V
theorem W5_main_arg1 (V : Valuation τ sig (Elt F)) :
    W5 V (Proc.devRef .tc main_arg1) = V (Proc.devRef .tc main_arg1) := by
  unfold W5
  after_results_simp <;> exact W4_main_arg1 V
theorem W5_main_arg2 (V : Valuation τ sig (Elt F)) :
    W5 V (Proc.devRef .tc main_arg2) = V (Proc.devRef .tc main_arg2) := by
  unfold W5
  after_results_simp <;> exact W4_main_arg2 V
theorem W5_main_arg3 (V : Valuation τ sig (Elt F)) :
    W5 V (Proc.devRef .tc main_arg3) = V (Proc.devRef .tc main_arg3) := by
  unfold W5
  after_results_simp <;> exact W4_main_arg3 V
theorem W5_main_v22 (V : Valuation τ sig (Elt F)) :
    W5 V (Proc.devRef .tc main_v22) = Read.val_main_v22 (F := F) (V (Proc.devRef .tc main_arg0)) (V (Proc.devRef .tc main_arg2)) := by
  unfold W5
  after_results_simp <;> exact W4_main_v22 V
theorem W5_main_v50 (V : Valuation τ sig (Elt F)) :
    W5 V (Proc.devRef .tc main_v50) = Read.val_main_v50 (F := F) (V (Proc.devRef .tc main_arg1)) (V (Proc.devRef .tc main_arg3)) := by
  unfold W5
  after_results_simp <;> exact W4_main_v50 V
theorem W5_main_v81 (V : Valuation τ sig (Elt F)) :
    W5 V (Proc.devRef .tc main_v81) = Read.val_main_v81 (F := F) (V (Proc.devRef .tc main_arg0)) (V (Proc.devRef .tc main_arg1)) (V (Proc.devRef .tc main_arg2)) (V (Proc.devRef .tc main_arg3)) := by
  unfold W5
  after_results_simp <;> exact W4_main_v81 V
theorem W5_main_v88 (V : Valuation τ sig (Elt F)) :
    W5 V (Proc.devRef .tc main_v88) = Read.val_main_v88 (F := F) (V (Proc.devRef .tc main_arg0)) (V (Proc.devRef .tc main_arg1)) (V (Proc.devRef .tc main_arg2)) (V (Proc.devRef .tc main_arg3)) := by
  unfold W5
  after_results_simp <;> exact W4_main_v88 V
theorem W5_main_v90 (V : Valuation τ sig (Elt F)) :
    W5 V (Proc.devRef .tc main_v90) = Read.val_main_v90 (F := F) (V (Proc.devRef .tc main_arg0)) (V (Proc.devRef .tc main_arg1)) (V (Proc.devRef .tc main_arg2)) (V (Proc.devRef .tc main_arg3)) := by
  unfold W5
  after_results_simp <;> exact W4_main_v90 V
theorem W5_main_v91 (V : Valuation τ sig (Elt F)) :
    W5 V (Proc.devRef .tc main_v91) = Read.val_main_v91 (F := F) (V (Proc.devRef .tc main_arg0)) (V (Proc.devRef .tc main_arg1)) (V (Proc.devRef .tc main_arg2)) (V (Proc.devRef .tc main_arg3)) := by
  unfold W5
  after_results_simp <;> exact W4_main_v91 V
theorem W5_main_v110 (V : Valuation τ sig (Elt F)) :
    W5 V (Proc.devRef .tc main_v110) = Read.val_main_v110 (F := F) (V (Proc.devRef .tc main_arg0)) (V (Proc.devRef .tc main_arg2)) := by
  unfold W5
  after_results_simp <;> exact W4_main_v110 V
theorem W5_main_v129 (V : Valuation τ sig (Elt F)) :
    W5 V (Proc.devRef .tc main_v129) = Read.val_main_v129 (F := F) (V (Proc.devRef .tc main_arg1)) (V (Proc.devRef .tc main_arg3)) := by
  unfold W5
  after_results_simp
  rw [W4_main_arg3 V, W4_main_arg1 V]
  rfl

/-! ## After stretch 6 (operations 169 … 180) -/

theorem W6_main_arg0 (V : Valuation τ sig (Elt F)) :
    W6 V (Proc.devRef .tc main_arg0) = V (Proc.devRef .tc main_arg0) := by
  unfold W6
  after_results_simp <;> exact W5_main_arg0 V
theorem W6_main_arg1 (V : Valuation τ sig (Elt F)) :
    W6 V (Proc.devRef .tc main_arg1) = V (Proc.devRef .tc main_arg1) := by
  unfold W6
  after_results_simp <;> exact W5_main_arg1 V
theorem W6_main_arg2 (V : Valuation τ sig (Elt F)) :
    W6 V (Proc.devRef .tc main_arg2) = V (Proc.devRef .tc main_arg2) := by
  unfold W6
  after_results_simp <;> exact W5_main_arg2 V
theorem W6_main_arg3 (V : Valuation τ sig (Elt F)) :
    W6 V (Proc.devRef .tc main_arg3) = V (Proc.devRef .tc main_arg3) := by
  unfold W6
  after_results_simp <;> exact W5_main_arg3 V
theorem W6_main_v22 (V : Valuation τ sig (Elt F)) :
    W6 V (Proc.devRef .tc main_v22) = Read.val_main_v22 (F := F) (V (Proc.devRef .tc main_arg0)) (V (Proc.devRef .tc main_arg2)) := by
  unfold W6
  after_results_simp <;> exact W5_main_v22 V
theorem W6_main_v50 (V : Valuation τ sig (Elt F)) :
    W6 V (Proc.devRef .tc main_v50) = Read.val_main_v50 (F := F) (V (Proc.devRef .tc main_arg1)) (V (Proc.devRef .tc main_arg3)) := by
  unfold W6
  after_results_simp <;> exact W5_main_v50 V
theorem W6_main_v81 (V : Valuation τ sig (Elt F)) :
    W6 V (Proc.devRef .tc main_v81) = Read.val_main_v81 (F := F) (V (Proc.devRef .tc main_arg0)) (V (Proc.devRef .tc main_arg1)) (V (Proc.devRef .tc main_arg2)) (V (Proc.devRef .tc main_arg3)) := by
  unfold W6
  after_results_simp <;> exact W5_main_v81 V
theorem W6_main_v88 (V : Valuation τ sig (Elt F)) :
    W6 V (Proc.devRef .tc main_v88) = Read.val_main_v88 (F := F) (V (Proc.devRef .tc main_arg0)) (V (Proc.devRef .tc main_arg1)) (V (Proc.devRef .tc main_arg2)) (V (Proc.devRef .tc main_arg3)) := by
  unfold W6
  after_results_simp <;> exact W5_main_v88 V
theorem W6_main_v140 (V : Valuation τ sig (Elt F)) :
    W6 V (Proc.devRef .tc main_v140) = Read.val_main_v140 (F := F) (V (Proc.devRef .tc main_arg0)) (V (Proc.devRef .tc main_arg1)) (V (Proc.devRef .tc main_arg2)) (V (Proc.devRef .tc main_arg3)) := by
  unfold W6
  after_results_simp
  rw [W5_main_v90 V, W5_main_v110 V, W5_main_v91 V, W5_main_v129 V]
  rfl

/-! ## The run -/

/-- On every device, for any float values, from any memory with zero counters: every weakly fair execution of @main
    terminates with each result at its stage of the arguments' launch contents and the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = Read.val_main_v81 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v88) = Read.val_main_v88 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v50) = Read.val_main_v50 (F := F) (m ((c.tc : Thread nD τ).loc main_arg1)) (m ((c.tc : Thread nD τ).loc main_arg3))
      ∧ r.2.mem ((c.tc : Thread nD τ).loc main_v22) = Read.val_main_v22 (F := F) (m ((c.tc : Thread nD τ).loc main_arg0)) (m ((c.tc : Thread nD τ).loc main_arg2))
      ∧ r.2.mem ((c.tc : Thread nD τ).loc main_v140) = Read.val_main_v140 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v81).trans ((congrFun (after_ops _) _).trans (W6_main_v81 _)),
      (h c main_v88).trans ((congrFun (after_ops _) _).trans (W6_main_v88 _)),
      (h c main_v50).trans ((congrFun (after_ops _) _).trans (W6_main_v50 _)),
      (h c main_v22).trans ((congrFun (after_ops _) _).trans (W6_main_v22 _)),
      (h c main_v140).trans ((congrFun (after_ops _) _).trans (W6_main_v140 _)),
      (h c main_arg0).trans ((congrFun (after_ops _) _).trans (W6_main_arg0 _)),
      (h c main_arg1).trans ((congrFun (after_ops _) _).trans (W6_main_arg1 _)),
      (h c main_arg2).trans ((congrFun (after_ops _) _).trans (W6_main_arg2 _)),
      (h c main_arg3).trans ((congrFun (after_ops _) _).trans (W6_main_arg3 _))⟩)
    (run_seq scopedRefs_eq scopedSems_eq defs main (fun _ => ops) main_eq (fun _ => ops_sub) m ρ)

end Cert.ReferenceIdeal.Stages

end
-- ==== Proof.RefPost.lean ====
/-
  The reference's posterior stages, read at an index as the row functions of `Cert.Spec`.

  The reference works on whole arrays: for each modality it forms `|x|²` of every query row, the product of the queries
  with the transposed prototypes, `|P j|²` of every prototype, and from them the squared distances, clipped at zero; then
  `e = exp (-√d²)`, the row sums of `e`, the posterior `p = e / Σ e`, the row maximum of `p` and `-Σ p·log p`.  Read at
  row `r` and class `j` each of these arrays is the corresponding function of query row `r` and the prototype table:
  a sum over an axis is the sum over that axis's coordinates (its initial value, the word for 0.0, is the real zero), a
  broadcast reads its operand at the index with the new axes dropped, and the transposed prototypes are read back at
  the swapped index, so the product's entry is the inner product of row `r` with prototype `j`.

  The same text is computed four times over different buffers (rgb, flow, and both once more for the fused
  posterior); the four readings are the same argument.
-/
import proofs.«137920_j38130719653975_1_alg».proof.Proof.RefStages
import proofs.«137920_j38130719653975_1_alg».proof.Proof.Results

noncomputable section

namespace Cert.RefSpec

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- Two indices of a two-axis array are equal when their two coordinates are; here each coordinate computes. -/
local macro "idx_coords" : tactic =>
  `(tactic| exact funext fun a => Fin.ext (by match a with | ⟨0, _⟩ => rfl | ⟨1, _⟩ => rfl))

/-! ### The rgb distances and exponentials (%0 … %18) -/

/-- The query row's `|x|²`, the same for every class. -/
theorem sqnT_r (x2 : (⟨S65536x512, .f32⟩ : BufTy).Contents (Elt Ideal)) (r : Fin 65536) (j : Fin 64) :
    val_main_v7 (F := Ideal) x2 (ix2 r j) = Cert.Spec.sqn (Cert.Results.rows x2 r) := by
  rw [val_main_v7_apply, val_main_v2_apply, val_main_v1_apply, val_main_cst_apply]
  simp only [Ideal.ofBits_def, Ideal.ofBits_zero_f32, zero_add]
  unfold Cert.Spec.sqn
  refine Finset.sum_congr rfl fun k _ => ?_
  have e : idx_main_v1 (idx_main_v2 (idx_main_v7 (ix2 r j))) k = ix2 r k := by idx_coords
  rw [val_main_v0_apply, e]
  rfl

/-- The product with the transposed prototypes is `⟨x, P j⟩`: the transpose is read back at the swapped index. -/
theorem dot_r (x0 : (⟨S64x512, .f32⟩ : BufTy).Contents (Elt Ideal)) (x2 : (⟨S65536x512, .f32⟩ : BufTy).Contents (Elt Ideal)) (r : Fin 65536) (j : Fin 64) :
    val_main_v4 (F := Ideal) x0 x2 (ix2 r j) = Cert.Spec.dotp (Cert.Results.rows x2 r) (Cert.Results.rows x0 j) := by
  rw [val_main_v4_apply]
  unfold Cert.Spec.dotp
  refine Finset.sum_congr rfl fun k _ => ?_
  have el : lidx_main_v4 (ix2 r j) k = ix2 r k := by idx_coords
  have er : idx_main_v3 (ridx_main_v4 (ix2 r j) k) = ix2 j k := by idx_coords
  rw [val_main_v3_apply, el, er]
  rfl

/-- The prototype's `|P j|²`, the same for every query row. -/
theorem sqnP_r (x0 : (⟨S64x512, .f32⟩ : BufTy).Contents (Elt Ideal)) (r : Fin 65536) (j : Fin 64) :
    val_main_v12 (F := Ideal) x0 (ix2 r j) = Cert.Spec.sqn (Cert.Results.rows x0 j) := by
  rw [val_main_v12_apply, val_main_v11_apply, val_main_v10_apply, val_main_cst_1_apply]
  simp only [Ideal.ofBits_def, Ideal.ofBits_zero_f32, zero_add]
  unfold Cert.Spec.sqn
  refine Finset.sum_congr rfl fun k _ => ?_
  have e : idx_main_v10 (idx_main_v11 (idx_main_v12 (ix2 r j))) k = ix2 j k := by idx_coords
  rw [val_main_v9_apply, e]
  rfl

/-- The splat of the word for 2.0, and of the word for 0.0 (which is the real zero). -/
theorem two_r (i : S65536x64.Idx) : val_main_v5 (F := Ideal) i = Cert.Spec.two := by
  rw [val_main_v5_apply, val_main_cst_0_apply]
  rfl
theorem zero_r (i : S65536x64.Idx) : val_main_v14 (F := Ideal) i = (0 : EReal) := by
  rw [val_main_v14_apply, val_main_cst_2_apply, Ideal.ofBits_def, Ideal.ofBits_zero_f32]

/-- The squared distance, added up in the order `(|x|² - 2·⟨x, P j⟩) + |P j|²`. -/
theorem d2_r (x0 : (⟨S64x512, .f32⟩ : BufTy).Contents (Elt Ideal)) (x2 : (⟨S65536x512, .f32⟩ : BufTy).Contents (Elt Ideal)) (r : Fin 65536) (j : Fin 64) :
    val_main_v13 (F := Ideal) x0 x2 (ix2 r j) = Cert.Spec.d2 (Cert.Results.rows x0) (Cert.Results.rows x2 r) j := by
  rw [val_main_v13_apply, val_main_v8_apply, val_main_v6_apply, sqnT_r, dot_r, sqnP_r, two_r]
  rfl

/-- `exp (-√(max d² 0))`. -/
theorem e_r_apply (x0 : (⟨S64x512, .f32⟩ : BufTy).Contents (Elt Ideal)) (x2 : (⟨S65536x512, .f32⟩ : BufTy).Contents (Elt Ideal)) (r : Fin 65536) (j : Fin 64) :
    val_main_v18 (F := Ideal) x0 x2 (ix2 r j) = Cert.Spec.ee (Cert.Results.rows x0) (Cert.Results.rows x2 r) j := by
  rw [val_main_v18_apply, val_main_v17_apply, val_main_v16_apply, val_main_v15_apply, d2_r, zero_r]
  rfl

/-! ### The rgb posterior, confidence and entropy (%19 … %27) -/

/-- The row's sum of exponentials, the same for every class. -/
theorem esum_r (x0 : (⟨S64x512, .f32⟩ : BufTy).Contents (Elt Ideal)) (x2 : (⟨S65536x512, .f32⟩ : BufTy).Contents (Elt Ideal)) (r : Fin 65536) (j : Fin 64) :
    val_main_v21 (F := Ideal) x0 x2 (ix2 r j) = ∑ j' : Fin 64, Cert.Spec.ee (Cert.Results.rows x0) (Cert.Results.rows x2 r) j' := by
  rw [val_main_v21_apply, val_main_v20_apply, val_main_v19_apply, val_main_cst_3_apply]
  simp only [Ideal.ofBits_def, Ideal.ofBits_zero_f32, zero_add]
  refine Finset.sum_congr rfl fun k _ => ?_
  have e : idx_main_v19 (idx_main_v20 (idx_main_v21 (ix2 r j))) k = ix2 r k := by idx_coords
  exact (congrArg (val_main_v18 (F := Ideal) x0 x2) e).trans (e_r_apply x0 x2 r k)

/-- The posterior `e / Σ e`. -/
theorem p_r_apply (x0 : (⟨S64x512, .f32⟩ : BufTy).Contents (Elt Ideal)) (x2 : (⟨S65536x512, .f32⟩ : BufTy).Contents (Elt Ideal)) (r : Fin 65536) (j : Fin 64) :
    val_main_v22 (F := Ideal) x0 x2 (ix2 r j) = Cert.Spec.pp (Cert.Results.rows x0) (Cert.Results.rows x2 r) j := by
  rw [val_main_v22_apply, e_r_apply, esum_r]
  rfl

/-- The confidence: the reduction with `max` over the classes is the fold of `max` over the row's posterior, from the
    word for `-∞`. -/
theorem c_r_apply (x0 : (⟨S64x512, .f32⟩ : BufTy).Contents (Elt Ideal)) (x2 : (⟨S65536x512, .f32⟩ : BufTy).Contents (Elt Ideal)) (r : Fin 65536) :
    val_main_v23 (F := Ideal) x0 x2 (ix1 r) = Cert.Spec.cc (Cert.Results.rows x0) (Cert.Results.rows x2 r) := by
  have h : S65536x64.Reduces [1] S65536 := by decide
  unfold val_main_v23
  refine (Host.reduce_eq_fold_single FloatOps.maximumf _ _ reducesTo_S65536x64_S65536_d1 h h_S_ (ix1 r)).trans ?_
  unfold Cert.Spec.cc Cert.Spec.rowMax
  refine Finset.fold_congr fun k _ => ?_
  have e : h.lift (ix1 r) k = ix2 r k := by idx_coords
  exact (congrArg (val_main_v22 (F := Ideal) x0 x2) e).trans (p_r_apply x0 x2 r k)

/-- The entropy `-Σ p·log p`. -/
theorem h_r_apply (x0 : (⟨S64x512, .f32⟩ : BufTy).Contents (Elt Ideal)) (x2 : (⟨S65536x512, .f32⟩ : BufTy).Contents (Elt Ideal)) (r : Fin 65536) :
    val_main_v27 (F := Ideal) x0 x2 (ix1 r) = Cert.Spec.hh (Cert.Results.rows x0) (Cert.Results.rows x2 r) := by
  rw [val_main_v27_apply, val_main_v26_apply, val_main_cst_5_apply]
  simp only [Ideal.ofBits_def, Ideal.ofBits_zero_f32, zero_add, Ideal.hostNegf_def, Ideal.negf_def]
  unfold Cert.Spec.hh
  refine congrArg Neg.neg (Finset.sum_congr rfl fun k _ => ?_)
  have e : idx_main_v26 (ix1 r) k = ix2 r k := by idx_coords
  rw [e, val_main_v25_apply, val_main_v24_apply, p_r_apply]
  rfl

/-! ### The flow distances and exponentials (%28 … %46) -/

/-- The query row's `|x|²`, the same for every class. -/
theorem sqnT_f (x3 : (⟨S65536x512, .f32⟩ : BufTy).Contents (Elt Ideal)) (r : Fin 65536) (j : Fin 64) :
    val_main_v35 (F := Ideal) x3 (ix2 r j) = Cert.Spec.sqn (Cert.Results.rows x3 r) := by
  rw [val_main_v35_apply, val_main_v30_apply, val_main_v29_apply, val_main_cst_6_apply]
  simp only [Ideal.ofBits_def, Ideal.ofBits_zero_f32, zero_add]
  unfold Cert.Spec.sqn
  refine Finset.sum_congr rfl fun k _ => ?_
  have e : idx_main_v29 (idx_main_v30 (idx_main_v35 (ix2 r j))) k = ix2 r k := by idx_coords
  rw [val_main_v28_apply, e]
  rfl

/-- The product with the transposed prototypes is `⟨x, P j⟩`: the transpose is read back at the swapped index. -/
theorem dot_f (x1 : (⟨S64x512, .f32⟩ : BufTy).Contents (Elt Ideal)) (x3 : (⟨S65536x512, .f32⟩ : BufTy).Contents (Elt Ideal)) (r : Fin 65536) (j : Fin 64) :
    val_main_v32 (F := Ideal) x1 x3 (ix2 r j) = Cert.Spec.dotp (Cert.Results.rows x3 r) (Cert.Results.rows x1 j) := by
  rw [val_main_v32_apply]
  unfold Cert.Spec.dotp
  refine Finset.sum_congr rfl fun k _ => ?_
  have el : lidx_main_v32 (ix2 r j) k = ix2 r k := by idx_coords
  have er : idx_main_v31 (ridx_main_v32 (ix2 r j) k) = ix2 j k := by idx_coords
  rw [val_main_v31_apply, el, er]
  rfl

/-- The prototype's `|P j|²`, the same for every query row. -/
theorem sqnP_f (x1 : (⟨S64x512, .f32⟩ : BufTy).Contents (Elt Ideal)) (r : Fin 65536) (j : Fin 64) :
    val_main_v40 (F := Ideal) x1 (ix2 r j) = Cert.Spec.sqn (Cert.Results.rows x1 j) := by
  rw [val_main_v40_apply, val_main_v39_apply, val_main_v38_apply, val_main_cst_8_apply]
  simp only [Ideal.ofBits_def, Ideal.ofBits_zero_f32, zero_add]
  unfold Cert.Spec.sqn
  refine Finset.sum_congr rfl fun k _ => ?_
  have e : idx_main_v38 (idx_main_v39 (idx_main_v40 (ix2 r j))) k = ix2 j k := by idx_coords
  rw [val_main_v37_apply, e]
  rfl

/-- The splat of the word for 2.0, and of the word for 0.0 (which is the real zero). -/
theorem two_f (i : S65536x64.Idx) : val_main_v33 (F := Ideal) i = Cert.Spec.two := by
  rw [val_main_v33_apply, val_main_cst_7_apply]
  rfl
theorem zero_f (i : S65536x64.Idx) : val_main_v42 (F := Ideal) i = (0 : EReal) := by
  rw [val_main_v42_apply, val_main_cst_9_apply, Ideal.ofBits_def, Ideal.ofBits_zero_f32]

/-- The squared distance, added up in the order `(|x|² - 2·⟨x, P j⟩) + |P j|²`. -/
theorem d2_f (x1 : (⟨S64x512, .f32⟩ : BufTy).Contents (Elt Ideal)) (x3 : (⟨S65536x512, .f32⟩ : BufTy).Contents (Elt Ideal)) (r : Fin 65536) (j : Fin 64) :
    val_main_v41 (F := Ideal) x1 x3 (ix2 r j) = Cert.Spec.d2 (Cert.Results.rows x1) (Cert.Results.rows x3 r) j := by
  rw [val_main_v41_apply, val_main_v36_apply, val_main_v34_apply, sqnT_f, dot_f, sqnP_f, two_f]
  rfl

/-- `exp (-√(max d² 0))`. -/
theorem e_f_apply (x1 : (⟨S64x512, .f32⟩ : BufTy).Contents (Elt Ideal)) (x3 : (⟨S65536x512, .f32⟩ : BufTy).Contents (Elt Ideal)) (r : Fin 65536) (j : Fin 64) :
    val_main_v46 (F := Ideal) x1 x3 (ix2 r j) = Cert.Spec.ee (Cert.Results.rows x1) (Cert.Results.rows x3 r) j := by
  rw [val_main_v46_apply, val_main_v45_apply, val_main_v44_apply, val_main_v43_apply, d2_f, zero_f]
  rfl

/-! ### The flow posterior, confidence and entropy (%47 … %55) -/

/-- The row's sum of exponentials, the same for every class. -/
theorem esum_f (x1 : (⟨S64x512, .f32⟩ : BufTy).Contents (Elt Ideal)) (x3 : (⟨S65536x512, .f32⟩ : BufTy).Contents (Elt Ideal)) (r : Fin 65536) (j : Fin 64) :
    val_main_v49 (F := Ideal) x1 x3 (ix2 r j) = ∑ j' : Fin 64, Cert.Spec.ee (Cert.Results.rows x1) (Cert.Results.rows x3 r) j' := by
  rw [val_main_v49_apply, val_main_v48_apply, val_main_v47_apply, val_main_cst_10_apply]
  simp only [Ideal.ofBits_def, Ideal.ofBits_zero_f32, zero_add]
  refine Finset.sum_congr rfl fun k _ => ?_
  have e : idx_main_v47 (idx_main_v48 (idx_main_v49 (ix2 r j))) k = ix2 r k := by idx_coords
  exact (congrArg (val_main_v46 (F := Ideal) x1 x3) e).trans (e_f_apply x1 x3 r k)

/-- The posterior `e / Σ e`. -/
theorem p_f_apply (x1 : (⟨S64x512, .f32⟩ : BufTy).Contents (Elt Ideal)) (x3 : (⟨S65536x512, .f32⟩ : BufTy).Contents (Elt Ideal)) (r : Fin 65536) (j : Fin 64) :
    val_main_v50 (F := Ideal) x1 x3 (ix2 r j) = Cert.Spec.pp (Cert.Results.rows x1) (Cert.Results.rows x3 r) j := by
  rw [val_main_v50_apply, e_f_apply, esum_f]
  rfl

/-- The confidence: the reduction with `max` over the classes is the fold of `max` over the row's posterior, from the
    word for `-∞`. -/
theorem c_f_apply (x1 : (⟨S64x512, .f32⟩ : BufTy).Contents (Elt Ideal)) (x3 : (⟨S65536x512, .f32⟩ : BufTy).Contents (Elt Ideal)) (r : Fin 65536) :
    val_main_v51 (F := Ideal) x1 x3 (ix1 r) = Cert.Spec.cc (Cert.Results.rows x1) (Cert.Results.rows x3 r) := by
  have h : S65536x64.Reduces [1] S65536 := by decide
  unfold val_main_v51
  refine (Host.reduce_eq_fold_single FloatOps.maximumf _ _ reducesTo_S65536x64_S65536_d1 h h_S_ (ix1 r)).trans ?_
  unfold Cert.Spec.cc Cert.Spec.rowMax
  refine Finset.fold_congr fun k _ => ?_
  have e : h.lift (ix1 r) k = ix2 r k := by idx_coords
  exact (congrArg (val_main_v50 (F := Ideal) x1 x3) e).trans (p_f_apply x1 x3 r k)

/-- The entropy `-Σ p·log p`. -/
theorem h_f_apply (x1 : (⟨S64x512, .f32⟩ : BufTy).Contents (Elt Ideal)) (x3 : (⟨S65536x512, .f32⟩ : BufTy).Contents (Elt Ideal)) (r : Fin 65536) :
    val_main_v55 (F := Ideal) x1 x3 (ix1 r) = Cert.Spec.hh (Cert.Results.rows x1) (Cert.Results.rows x3 r) := by
  rw [val_main_v55_apply, val_main_v54_apply, val_main_cst_12_apply]
  simp only [Ideal.ofBits_def, Ideal.ofBits_zero_f32, zero_add, Ideal.hostNegf_def, Ideal.negf_def]
  unfold Cert.Spec.hh
  refine congrArg Neg.neg (Finset.sum_congr rfl fun k _ => ?_)
  have e : idx_main_v54 (ix1 r) k = ix2 r k := by idx_coords
  rw [e, val_main_v53_apply, val_main_v52_apply, p_f_apply]
  rfl

/-! ### The rgb exponentials, computed a second time for the fused posterior (%92 … %110) -/

/-- The query row's `|x|²`, the same for every class. -/
theorem sqnT_r2 (x2 : (⟨S65536x512, .f32⟩ : BufTy).Contents (Elt Ideal)) (r : Fin 65536) (j : Fin 64) :
    val_main_v99 (F := Ideal) x2 (ix2 r j) = Cert.Spec.sqn (Cert.Results.rows x2 r) := by
  rw [val_main_v99_apply, val_main_v94_apply, val_main_v93_apply, val_main_cst_24_apply]
  simp only [Ideal.ofBits_def, Ideal.ofBits_zero_f32, zero_add]
  unfold Cert.Spec.sqn
  refine Finset.sum_congr rfl fun k _ => ?_
  have e : idx_main_v93 (idx_main_v94 (idx_main_v99 (ix2 r j))) k = ix2 r k := by idx_coords
  rw [val_main_v92_apply, e]
  rfl

/-- The product with the transposed prototypes is `⟨x, P j⟩`: the transpose is read back at the swapped index. -/
theorem dot_r2 (x0 : (⟨S64x512, .f32⟩ : BufTy).Contents (Elt Ideal)) (x2 : (⟨S65536x512, .f32⟩ : BufTy).Contents (Elt Ideal)) (r : Fin 65536) (j : Fin 64) :
    val_main_v96 (F := Ideal) x0 x2 (ix2 r j) = Cert.Spec.dotp (Cert.Results.rows x2 r) (Cert.Results.rows x0 j) := by
  rw [val_main_v96_apply]
  unfold Cert.Spec.dotp
  refine Finset.sum_congr rfl fun k _ => ?_
  have el : lidx_main_v96 (ix2 r j) k = ix2 r k := by idx_coords
  have er : idx_main_v95 (ridx_main_v96 (ix2 r j) k) = ix2 j k := by idx_coords
  rw [val_main_v95_apply, el, er]
  rfl

/-- The prototype's `|P j|²`, the same for every query row. -/
theorem sqnP_r2 (x0 : (⟨S64x512, .f32⟩ : BufTy).Contents (Elt Ideal)) (r : Fin 65536) (j : Fin 64) :
    val_main_v104 (F := Ideal) x0 (ix2 r j) = Cert.Spec.sqn (Cert.Results.rows x0 j) := by
  rw [val_main_v104_apply, val_main_v103_apply, val_main_v102_apply, val_main_cst_26_apply]
  simp only [Ideal.ofBits_def, Ideal.ofBits_zero_f32, zero_add]
  unfold Cert.Spec.sqn
  refine Finset.sum_congr rfl fun k _ => ?_
  have e : idx_main_v102 (idx_main_v103 (idx_main_v104 (ix2 r j))) k = ix2 j k := by idx_coords
  rw [val_main_v101_apply, e]
  rfl

/-- The splat of the word for 2.0, and of the word for 0.0 (which is the real zero). -/
theorem two_r2 (i : S65536x64.Idx) : val_main_v97 (F := Ideal) i = Cert.Spec.two := by
  rw [val_main_v97_apply, val_main_cst_25_apply]
  rfl
theorem zero_r2 (i : S65536x64.Idx) : val_main_v106 (F := Ideal) i = (0 : EReal) := by
  rw [val_main_v106_apply, val_main_cst_27_apply, Ideal.ofBits_def, Ideal.ofBits_zero_f32]

/-- The squared distance, added up in the order `(|x|² - 2·⟨x, P j⟩) + |P j|²`. -/
theorem d2_r2 (x0 : (⟨S64x512, .f32⟩ : BufTy).Contents (Elt Ideal)) (x2 : (⟨S65536x512, .f32⟩ : BufTy).Contents (Elt Ideal)) (r : Fin 65536) (j : Fin 64) :
    val_main_v105 (F := Ideal) x0 x2 (ix2 r j) = Cert.Spec.d2 (Cert.Results.rows x0) (Cert.Results.rows x2 r) j := by
  rw [val_main_v105_apply, val_main_v100_apply, val_main_v98_apply, sqnT_r2, dot_r2, sqnP_r2, two_r2]
  rfl

/-- `exp (-√(max d² 0))`. -/
theorem e_r2_apply (x0 : (⟨S64x512, .f32⟩ : BufTy).Contents (Elt Ideal)) (x2 : (⟨S65536x512, .f32⟩ : BufTy).Contents (Elt Ideal)) (r : Fin 65536) (j : Fin 64) :
    val_main_v110 (F := Ideal) x0 x2 (ix2 r j) = Cert.Spec.ee (Cert.Results.rows x0) (Cert.Results.rows x2 r) j := by
  rw [val_main_v110_apply, val_main_v109_apply, val_main_v108_apply, val_main_v107_apply, d2_r2, zero_r2]
  rfl

/-! ### The flow exponentials, computed a second time (%111 … %129) -/

/-- The query row's `|x|²`, the same for every class. -/
theorem sqnT_f2 (x3 : (⟨S65536x512, .f32⟩ : BufTy).Contents (Elt Ideal)) (r : Fin 65536) (j : Fin 64) :
    val_main_v118 (F := Ideal) x3 (ix2 r j) = Cert.Spec.sqn (Cert.Results.rows x3 r) := by
  rw [val_main_v118_apply, val_main_v113_apply, val_main_v112_apply, val_main_cst_28_apply]
  simp only [Ideal.ofBits_def, Ideal.ofBits_zero_f32, zero_add]
  unfold Cert.Spec.sqn
  refine Finset.sum_congr rfl fun k _ => ?_
  have e : idx_main_v112 (idx_main_v113 (idx_main_v118 (ix2 r j))) k = ix2 r k := by idx_coords
  rw [val_main_v111_apply, e]
  rfl

/-- The product with the transposed prototypes is `⟨x, P j⟩`: the transpose is read back at the swapped index. -/
theorem dot_f2 (x1 : (⟨S64x512, .f32⟩ : BufTy).Contents (Elt Ideal)) (x3 : (⟨S65536x512, .f32⟩ : BufTy).Contents (Elt Ideal)) (r : Fin 65536) (j : Fin 64) :
    val_main_v115 (F := Ideal) x1 x3 (ix2 r j) = Cert.Spec.dotp (Cert.Results.rows x3 r) (Cert.Results.rows x1 j) := by
  rw [val_main_v115_apply]
  unfold Cert.Spec.dotp
  refine Finset.sum_congr rfl fun k _ => ?_
  have el : lidx_main_v115 (ix2 r j) k = ix2 r k := by idx_coords
  have er : idx_main_v114 (ridx_main_v115 (ix2 r j) k) = ix2 j k := by idx_coords
  rw [val_main_v114_apply, el, er]
  rfl

/-- The prototype's `|P j|²`, the same for every query row. -/
theorem sqnP_f2 (x1 : (⟨S64x512, .f32⟩ : BufTy).Contents (Elt Ideal)) (r : Fin 65536) (j : Fin 64) :
    val_main_v123 (F := Ideal) x1 (ix2 r j) = Cert.Spec.sqn (Cert.Results.rows x1 j) := by
  rw [val_main_v123_apply, val_main_v122_apply, val_main_v121_apply, val_main_cst_30_apply]
  simp only [Ideal.ofBits_def, Ideal.ofBits_zero_f32, zero_add]
  unfold Cert.Spec.sqn
  refine Finset.sum_congr rfl fun k _ => ?_
  have e : idx_main_v121 (idx_main_v122 (idx_main_v123 (ix2 r j))) k = ix2 j k := by idx_coords
  rw [val_main_v120_apply, e]
  rfl

/-- The splat of the word for 2.0, and of the word for 0.0 (which is the real zero). -/
theorem two_f2 (i : S65536x64.Idx) : val_main_v116 (F := Ideal) i = Cert.Spec.two := by
  rw [val_main_v116_apply, val_main_cst_29_apply]
  rfl
theorem zero_f2 (i : S65536x64.Idx) : val_main_v125 (F := Ideal) i = (0 : EReal) := by
  rw [val_main_v125_apply, val_main_cst_31_apply, Ideal.ofBits_def, Ideal.ofBits_zero_f32]

/-- The squared distance, added up in the order `(|x|² - 2·⟨x, P j⟩) + |P j|²`. -/
theorem d2_f2 (x1 : (⟨S64x512, .f32⟩ : BufTy).Contents (Elt Ideal)) (x3 : (⟨S65536x512, .f32⟩ : BufTy).Contents (Elt Ideal)) (r : Fin 65536) (j : Fin 64) :
    val_main_v124 (F := Ideal) x1 x3 (ix2 r j) = Cert.Spec.d2 (Cert.Results.rows x1) (Cert.Results.rows x3 r) j := by
  rw [val_main_v124_apply, val_main_v119_apply, val_main_v117_apply, sqnT_f2, dot_f2, sqnP_f2, two_f2]
  rfl

/-- `exp (-√(max d² 0))`. -/
theorem e_f2_apply (x1 : (⟨S64x512, .f32⟩ : BufTy).Contents (Elt Ideal)) (x3 : (⟨S65536x512, .f32⟩ : BufTy).Contents (Elt Ideal)) (r : Fin 65536) (j : Fin 64) :
    val_main_v129 (F := Ideal) x1 x3 (ix2 r j) = Cert.Spec.ee (Cert.Results.rows x1) (Cert.Results.rows x3 r) j := by
  rw [val_main_v129_apply, val_main_v128_apply, val_main_v127_apply, val_main_v126_apply, d2_f2, zero_f2]
  rfl

/-! ### The two posteriors as whole arrays -/

/-- The reference's rgb posterior is `Cert.Results.postR`. -/
theorem postR_eq (x0 : (⟨S64x512, .f32⟩ : BufTy).Contents (Elt Ideal)) (x2 : (⟨S65536x512, .f32⟩ : BufTy).Contents (Elt Ideal)) : val_main_v22 (F := Ideal) x0 x2 = Cert.Results.postR x0 x2 := by
  funext i
  exact (congrArg (val_main_v22 (F := Ideal) x0 x2) (eq_ix2 i)).trans (p_r_apply x0 x2 (i 0) (i 1))

/-- The reference's flow posterior is `Cert.Results.postF`. -/
theorem postF_eq (x1 : (⟨S64x512, .f32⟩ : BufTy).Contents (Elt Ideal)) (x3 : (⟨S65536x512, .f32⟩ : BufTy).Contents (Elt Ideal)) : val_main_v50 (F := Ideal) x1 x3 = Cert.Results.postF x1 x3 := by
  funext i
  exact (congrArg (val_main_v50 (F := Ideal) x1 x3) (eq_ix2 i)).trans (p_f_apply x1 x3 (i 0) (i 1))

end Cert.RefSpec

end
-- ==== Proof.RefLoss.lean ====
/-
  The reference's remaining stages as `Cert.Spec`'s mathematics of the four argument arrays, each read at an index from
  the posterior stages (`RefPost`): the mask word of a row and the count of the rgb rows (an integer sum over all rows,
  in any order, from zero), the two row terms `klRow`, the two selected summands (a row is kept when its number, as a
  32-bit word read signed, is below the count) and the two losses (sum over the rows, divided by the total confidence),
  the two weights and the fused posterior (weighted unnormalised posteriors, renormalised over the classes).

  Every float sum of the reference starts from the word for `0.0`, which is the extended real `0`; every quotient is
  `Ideal.div`; a scalar broadcast along an axis is read at its one index.
-/
import proofs.«137920_j38130719653975_1_alg».proof.Proof.Results
import proofs.«137920_j38130719653975_1_alg».proof.Proof.RefStages
import proofs.«137920_j38130719653975_1_alg».proof.Proof.RefPost
import Idealize.ShloMosaic.PureOps.Reduce
import Idealize.ShloMosaic.PureOps.Ideal.Laws
import Idealize.ShloMosaic.Lib.ValueIdx

noncomputable section

namespace Cert.RefSpec

open Cert.ReferenceIdeal Cert.ReferenceIdeal.Gen Idealize.ShloMosaic Idealize.ShloMosaic.TcCoe Idealize.SL.Sem Idealize.ShloMosaic.StableHlo
open Idealize.ShloMosaic.ValueIdx

/-! ## Words and index sets -/

/-- A signed "less than" word selects like the proposition it decides. -/
theorem select_slt {α : Type} (a b : BitVec 32) (x y : α) (inst : Decidable (a.slt b = true)) :
    Scalar.select (IntOp.cmpi .slt a b) x y = @ite α (a.slt b = true) inst x y := by
  by_cases h : a.slt b = true
  · rw [if_pos h]; simp [Scalar.select, IntOp.cmpi, h]
  · rw [if_neg h]; simp [Scalar.select, IntOp.cmpi, h]

/-- A one-axis index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- … and a fold over it the fold over the coordinate. -/
theorem fold_idx1 {β : Type*} (op : β → β → β) [Std.Commutative op] [Std.Associative op] (b : β) {n : Nat}
    (f : (⟨1, ![n]⟩ : Shape).Idx → β) :
    (Finset.univ : Finset (⟨1, ![n]⟩ : Shape).Idx).fold op b f = (Finset.univ : Finset (Fin n)).fold op b (fun a => f (ix1 a)) := by
  rw [← Finset.map_univ_equiv (idxEquiv1 (n := n)).symm, Finset.fold_map]
  rfl

/-- A reduction of a one-axis array to a scalar, by a commutative and associative operation, folds over every row. -/
theorem reduce_all_fold {β : Type} (op : β → β → β) [Std.Commutative op] [Std.Associative op] {n : Nat}
    (x : (⟨1, ![n]⟩ : Shape).Idx → β) (init : (⟨0, ![]⟩ : Shape).Idx → β)
    (h : (⟨1, ![n]⟩ : Shape).ReducesTo [0] ⟨0, ![]⟩) (hu : 0 < (⟨0, ![]⟩ : Shape).numel) (i : (⟨0, ![]⟩ : Shape).Idx) :
    Host.reduce op x init h hu i = (Finset.univ : Finset (Fin n)).fold op (init (Shape.Idx.first hu)) (fun a => x (ix1 a)) := by
  rw [Host.reduce_eq_fold, Finset.filter_true_of_mem (fun i' _ => funext fun b => b.elim0), fold_idx1]

/-- Row `r`, column `k` of a 64-column array, as the three sums over the classes index it. -/
theorem idx66_ix (r : Fin 65536) (k : Fin 64) : Read.idx_main_v66 (ix1 r) k = ix2 r k := by
  funext a; match a with | ⟨0, _⟩ => rfl | ⟨1, _⟩ => rfl
theorem idx72_ix (r : Fin 65536) (k : Fin 64) : Read.idx_main_v72 (ix1 r) k = ix2 r k := by
  funext a; match a with | ⟨0, _⟩ => rfl | ⟨1, _⟩ => rfl
theorem idx137_ix (r : Fin 65536) (k : Fin 64) : Read.idx_main_v137 (ix1 r) k = ix2 r k := by
  funext a; match a with | ⟨0, _⟩ => rfl | ⟨1, _⟩ => rfl
/-- A per-row value broadcast along the classes is read at its row. -/
theorem idx130_ix (r : Fin 65536) (j : Fin 64) : Read.idx_main_v130 (Read.idx_main_v131 (ix2 r j)) = ix1 r := by
  funext a; match a with | ⟨0, _⟩ => rfl
theorem idx133_ix (r : Fin 65536) (j : Fin 64) : Read.idx_main_v133 (Read.idx_main_v134 (ix2 r j)) = ix1 r := by
  funext a; match a with | ⟨0, _⟩ => rfl
theorem idx138_ix (r : Fin 65536) (j : Fin 64) : Read.idx_main_v138 (Read.idx_main_v139 (ix2 r j)) = ix1 r := by
  funext a; match a with | ⟨0, _⟩ => rfl

section
variable (x0 x1 : (⟨S64x512, .f32⟩ : BufTy).Contents (Elt Ideal)) (x2 x3 : (⟨S65536x512, .f32⟩ : BufTy).Contents (Elt Ideal))

/-! ## The count of the rgb rows -/

/-- Row `r`'s mask word. -/
theorem mask_apply (r : Fin 65536) :
    Read.val_main_v58 (F := Ideal) x0 x1 x2 x3 (ix1 r)
      = Cert.Spec.maskR (Cert.Results.rows x0) (Cert.Results.rows x1) (Cert.Results.rows x2) (Cert.Results.rows x3) r := by
  rw [Read.val_main_v58_apply, Read.val_main_v56_apply, Read.val_main_v57_apply, h_r_apply, h_f_apply, c_r_apply, c_f_apply]
  rfl

/-- The count: the words' sum over the rows, from zero. -/
theorem nR_eq : Read.val_main_v60 (F := Ideal) x0 x1 x2 x3
    = fun _ => Cert.Spec.nR (Cert.Results.rows x0) (Cert.Results.rows x1) (Cert.Results.rows x2) (Cert.Results.rows x3) := by
  funext i
  unfold Read.val_main_v60
  rw [reduce_all_fold IntOp.addi _ _ reducesTo_S65536_S_d0 h_S_ i]
  unfold Cert.Spec.nR
  refine Finset.fold_congr (fun k _ => ?_)
  rw [Read.val_main_v59_apply, mask_apply]

/-! ## The two losses -/

/-- The flow-to-rgb row term: the mean over the classes of `p_f (log p_f - p_r)`. -/
theorem klFR_apply (r : Fin 65536) :
    Read.val_main_v68 (F := Ideal) x0 x1 x2 x3 (ix1 r)
      = Cert.Spec.klRow (Cert.Spec.pp (Cert.Results.rows x1) (Cert.Results.rows x3 r)) (Cert.Spec.pp (Cert.Results.rows x0) (Cert.Results.rows x2 r)) := by
  have hsum : ∀ k : Fin 64, Read.val_main_v65 (F := Ideal) x0 x1 x2 x3 (Read.idx_main_v66 (ix1 r) k)
      = Cert.Spec.pp (Cert.Results.rows x1) (Cert.Results.rows x3 r) k
          * (Ideal.log (Cert.Spec.pp (Cert.Results.rows x1) (Cert.Results.rows x3 r) k) - Cert.Spec.pp (Cert.Results.rows x0) (Cert.Results.rows x2 r) k) := by
    intro k
    rw [idx66_ix,
      Read.val_main_v65_apply, Read.val_main_v64_apply, Read.val_main_v63_apply, p_f_apply, p_r_apply]
    rfl
  have hz : (Read.val_main_cst_14 (F := Ideal)) (Shape.Idx.first h_S_) = (0 : EReal) := Ideal.ofBits_zero_f32
  rw [Read.val_main_v68_apply, Read.val_main_v66_apply, Finset.sum_congr rfl (fun k _ => hsum k), hz, zero_add,
    Read.val_main_v67_apply, Read.val_main_cst_15_apply]
  rfl

/-- The rgb-to-flow row term. -/
theorem klRF_apply (r : Fin 65536) :
    Read.val_main_v74 (F := Ideal) x0 x1 x2 x3 (ix1 r)
      = Cert.Spec.klRow (Cert.Spec.pp (Cert.Results.rows x0) (Cert.Results.rows x2 r)) (Cert.Spec.pp (Cert.Results.rows x1) (Cert.Results.rows x3 r)) := by
  have hsum : ∀ k : Fin 64, Read.val_main_v71 (F := Ideal) x0 x1 x2 x3 (Read.idx_main_v72 (ix1 r) k)
      = Cert.Spec.pp (Cert.Results.rows x0) (Cert.Results.rows x2 r) k
          * (Ideal.log (Cert.Spec.pp (Cert.Results.rows x0) (Cert.Results.rows x2 r) k) - Cert.Spec.pp (Cert.Results.rows x1) (Cert.Results.rows x3 r) k) := by
    intro k
    rw [idx72_ix,
      Read.val_main_v71_apply, Read.val_main_v70_apply, Read.val_main_v69_apply, p_f_apply, p_r_apply]
    rfl
  have hz : (Read.val_main_cst_16 (F := Ideal)) (Shape.Idx.first h_S_) = (0 : EReal) := Ideal.ofBits_zero_f32
  rw [Read.val_main_v74_apply, Read.val_main_v72_apply, Finset.sum_congr rfl (fun k _ => hsum k), hz, zero_add,
    Read.val_main_v73_apply, Read.val_main_cst_17_apply]
  rfl

/-- Row `r`'s flow-to-rgb summand: kept when the row's number is below the flow count. -/
theorem whereFR_apply (r : Fin 65536) :
    Read.val_main_v78 (F := Ideal) x0 x1 x2 x3 (ix1 r)
      = if Cert.Spec.below (Cert.Spec.nF (Cert.Results.rows x0) (Cert.Results.rows x1) (Cert.Results.rows x2) (Cert.Results.rows x3)) r
        then Cert.Spec.cc (Cert.Results.rows x1) (Cert.Results.rows x3 r)
          * Cert.Spec.klRow (Cert.Spec.pp (Cert.Results.rows x1) (Cert.Results.rows x3 r)) (Cert.Spec.pp (Cert.Results.rows x0) (Cert.Results.rows x2 r))
        else 0 := by
  have h76 : Read.val_main_v76 (F := Ideal) x0 x1 x2 x3 (ix1 r)
      = IntOp.cmpi .slt (Cert.Spec.rowWord r) (Cert.Spec.nF (Cert.Results.rows x0) (Cert.Results.rows x1) (Cert.Results.rows x2) (Cert.Results.rows x3)) := by
    rw [Read.val_main_v76_apply, Read.val_main_v62_apply, Read.val_main_v75_apply, Read.val_main_v61_apply,
      Read.val_main_c_13_apply, nR_eq]
    rfl
  have h77 : Read.val_main_v77 (F := Ideal) x0 x1 x2 x3 (ix1 r)
      = Cert.Spec.cc (Cert.Results.rows x1) (Cert.Results.rows x3 r)
        * Cert.Spec.klRow (Cert.Spec.pp (Cert.Results.rows x1) (Cert.Results.rows x3 r)) (Cert.Spec.pp (Cert.Results.rows x0) (Cert.Results.rows x2 r)) := by
    rw [Read.val_main_v77_apply, c_f_apply, klFR_apply]
    rfl
  have hz : Read.val_main_call0_v1 (F := Ideal) (ix1 r) = (0 : EReal) := by
    rw [Read.val_main_call0_v1_apply, Read.val_main_call0_v0_apply, Read.val_main_cst_18_apply]
    exact Ideal.ofBits_zero_f32
  rw [Read.val_main_v78_apply, h76, h77, hz]
  exact select_slt _ _ _ _ _

/-- Row `r`'s rgb-to-flow summand: kept when the row's number is below the rgb count. -/
theorem whereRF_apply (r : Fin 65536) :
    Read.val_main_v85 (F := Ideal) x0 x1 x2 x3 (ix1 r)
      = if Cert.Spec.below (Cert.Spec.nR (Cert.Results.rows x0) (Cert.Results.rows x1) (Cert.Results.rows x2) (Cert.Results.rows x3)) r
        then Cert.Spec.cc (Cert.Results.rows x0) (Cert.Results.rows x2 r)
          * Cert.Spec.klRow (Cert.Spec.pp (Cert.Results.rows x0) (Cert.Results.rows x2 r)) (Cert.Spec.pp (Cert.Results.rows x1) (Cert.Results.rows x3 r))
        else 0 := by
  have h83 : Read.val_main_v83 (F := Ideal) x0 x1 x2 x3 (ix1 r)
      = IntOp.cmpi .slt (Cert.Spec.rowWord r) (Cert.Spec.nR (Cert.Results.rows x0) (Cert.Results.rows x1) (Cert.Results.rows x2) (Cert.Results.rows x3)) := by
    rw [Read.val_main_v83_apply, Read.val_main_v62_apply, Read.val_main_v82_apply, nR_eq]
    rfl
  have h84 : Read.val_main_v84 (F := Ideal) x0 x1 x2 x3 (ix1 r)
      = Cert.Spec.cc (Cert.Results.rows x0) (Cert.Results.rows x2 r)
        * Cert.Spec.klRow (Cert.Spec.pp (Cert.Results.rows x0) (Cert.Results.rows x2 r)) (Cert.Spec.pp (Cert.Results.rows x1) (Cert.Results.rows x3 r)) := by
    rw [Read.val_main_v84_apply, c_r_apply, klRF_apply]
    rfl
  have hz : Read.val_main_call1_v1 (F := Ideal) (ix1 r) = (0 : EReal) := by
    rw [Read.val_main_call1_v1_apply, Read.val_main_call1_v0_apply, Read.val_main_cst_21_apply]
    exact Ideal.ofBits_zero_f32
  rw [Read.val_main_v85_apply, h83, h84, hz]
  exact select_slt _ _ _ _ _

/-- The flow-to-rgb loss. -/
theorem lossFR_eq : Read.val_main_v81 (F := Ideal) x0 x1 x2 x3 = Cert.Results.lossFR x0 x1 x2 x3 := by
  funext i
  have hz19 : (Read.val_main_cst_19 (F := Ideal)) (Shape.Idx.first h_S_) = (0 : EReal) := Ideal.ofBits_zero_f32
  have hz20 : (Read.val_main_cst_20 (F := Ideal)) (Shape.Idx.first h_S_) = (0 : EReal) := Ideal.ofBits_zero_f32
  rw [Read.val_main_v81_apply, Read.val_main_v79_apply, Read.val_main_v80_apply, hz19, hz20, zero_add, zero_add,
    sum_idx1, sum_idx1, Finset.sum_congr rfl (fun r _ => whereFR_apply x0 x1 x2 x3 r),
    Finset.sum_congr rfl (fun r _ => c_f_apply x1 x3 r)]
  rfl

/-- The rgb-to-flow loss. -/
theorem lossRF_eq : Read.val_main_v88 (F := Ideal) x0 x1 x2 x3 = Cert.Results.lossRF x0 x1 x2 x3 := by
  funext i
  have hz22 : (Read.val_main_cst_22 (F := Ideal)) (Shape.Idx.first h_S_) = (0 : EReal) := Ideal.ofBits_zero_f32
  have hz23 : (Read.val_main_cst_23 (F := Ideal)) (Shape.Idx.first h_S_) = (0 : EReal) := Ideal.ofBits_zero_f32
  rw [Read.val_main_v88_apply, Read.val_main_v86_apply, Read.val_main_v87_apply, hz22, hz23, zero_add, zero_add,
    sum_idx1, sum_idx1, Finset.sum_congr rfl (fun r _ => whereRF_apply x0 x1 x2 x3 r),
    Finset.sum_congr rfl (fun r _ => c_r_apply x0 x2 r)]
  rfl

/-! ## The fused posterior -/

/-- Row `r`'s rgb weight: its rgb confidence's share of the two confidences. -/
theorem wR_apply (r : Fin 65536) :
    Read.val_main_v90 (F := Ideal) x0 x1 x2 x3 (ix1 r)
      = Ideal.div (Cert.Spec.cc (Cert.Results.rows x0) (Cert.Results.rows x2 r))
          (Cert.Spec.cc (Cert.Results.rows x0) (Cert.Results.rows x2 r) + Cert.Spec.cc (Cert.Results.rows x1) (Cert.Results.rows x3 r)) := by
  rw [Read.val_main_v90_apply, Read.val_main_v89_apply, c_r_apply, c_f_apply]
  rfl

/-- Row `r`'s flow weight. -/
theorem wF_apply (r : Fin 65536) :
    Read.val_main_v91 (F := Ideal) x0 x1 x2 x3 (ix1 r)
      = Ideal.div (Cert.Spec.cc (Cert.Results.rows x1) (Cert.Results.rows x3 r))
          (Cert.Spec.cc (Cert.Results.rows x0) (Cert.Results.rows x2 r) + Cert.Spec.cc (Cert.Results.rows x1) (Cert.Results.rows x3 r)) := by
  rw [Read.val_main_v91_apply, Read.val_main_v89_apply, c_r_apply, c_f_apply]
  rfl

/-- The fused posterior before normalisation. -/
theorem fusedNum_apply (r : Fin 65536) (j : Fin 64) :
    Read.val_main_v136 (F := Ideal) x0 x1 x2 x3 (ix2 r j)
      = Cert.Spec.fusedNum (Cert.Results.rows x0) (Cert.Results.rows x1) (Cert.Results.rows x2 r) (Cert.Results.rows x3 r) j := by
  have h131 : Read.val_main_v131 (F := Ideal) x0 x1 x2 x3 (ix2 r j) = Read.val_main_v90 (F := Ideal) x0 x1 x2 x3 (ix1 r) := by
    rw [Read.val_main_v131_apply, Read.val_main_v130_apply, idx130_ix]
  have h134 : Read.val_main_v134 (F := Ideal) x0 x1 x2 x3 (ix2 r j) = Read.val_main_v91 (F := Ideal) x0 x1 x2 x3 (ix1 r) := by
    rw [Read.val_main_v134_apply, Read.val_main_v133_apply, idx133_ix]
  rw [Read.val_main_v136_apply, Read.val_main_v132_apply, Read.val_main_v135_apply, h131, h134, wR_apply, wF_apply,
    e_r2_apply, e_f2_apply]
  rfl

/-- The fused posterior. -/
theorem fused_eq : Read.val_main_v140 (F := Ideal) x0 x1 x2 x3 = Cert.Results.fused x0 x1 x2 x3 := by
  funext i
  obtain ⟨r, j, rfl⟩ : ∃ r j, i = ix2 r j := ⟨i 0, i 1, eq_ix2 i⟩
  have hz : (Read.val_main_cst_32 (F := Ideal)) (Shape.Idx.first h_S_) = (0 : EReal) := Ideal.ofBits_zero_f32
  have h139 : Read.val_main_v139 (F := Ideal) x0 x1 x2 x3 (ix2 r j) = Read.val_main_v137 (F := Ideal) x0 x1 x2 x3 (ix1 r) := by
    rw [Read.val_main_v139_apply, Read.val_main_v138_apply, idx138_ix]
  have hsum : ∀ k : Fin 64, Read.val_main_v136 (F := Ideal) x0 x1 x2 x3 (Read.idx_main_v137 (ix1 r) k)
      = Cert.Spec.fusedNum (Cert.Results.rows x0) (Cert.Results.rows x1) (Cert.Results.rows x2 r) (Cert.Results.rows x3 r) k := by
    intro k
    rw [idx137_ix, fusedNum_apply]
  rw [Read.val_main_v140_apply, h139, Read.val_main_v137_apply, hz, zero_add, Finset.sum_congr rfl (fun k _ => hsum k),
    fusedNum_apply]
  rfl

end

end Cert.RefSpec

end
-- ==== Proof.RefRunSpec.lean ====
/-
  The reference's run, stated over the mathematics: every weakly fair execution of the reference terminates with its
  five results at `Cert.Results`' arrays of the four argument arrays (the two losses, the two posteriors, the fused
  posterior) and the arguments unchanged; and, dropping the results, its frame.  Both are the reference's run read stage by
  stage (`RefRunStages`), each result's stage replaced by its reading (`RefPost`, `RefLoss`).
-/
import proofs.«137920_j38130719653975_1_alg».proof.Proof.Results
import proofs.«137920_j38130719653975_1_alg».proof.Proof.RefStages
import proofs.«137920_j38130719653975_1_alg».proof.Proof.RefRunStages
import proofs.«137920_j38130719653975_1_alg».proof.Proof.RefPost
import proofs.«137920_j38130719653975_1_alg».proof.Proof.RefLoss

noncomputable section

namespace Cert.RefSpec

open Cert.ReferenceIdeal Cert.ReferenceIdeal.Gen Idealize.ShloMosaic Idealize.ShloMosaic.TcCoe Idealize.SL.Sem Idealize.ShloMosaic.StableHlo
open Idealize.ShloMosaic.ValueIdx

/-- The reference's run, with each result named as the mathematics of the four argument arrays. -/
theorem ref_run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread nD τ).loc main_v81) = Cert.Results.lossFR (m' ((c.tc : Thread nD τ).loc main_arg0)) (m' ((c.tc : Thread nD τ).loc main_arg1)) (m' ((c.tc : Thread nD τ).loc main_arg2)) (m' ((c.tc : Thread nD τ).loc main_arg3))
      ∧ r.2.mem ((c.tc : Thread nD τ).loc main_v88) = Cert.Results.lossRF (m' ((c.tc : Thread nD τ).loc main_arg0)) (m' ((c.tc : Thread nD τ).loc main_arg1)) (m' ((c.tc : Thread nD τ).loc main_arg2)) (m' ((c.tc : Thread nD τ).loc main_arg3))
      ∧ r.2.mem ((c.tc : Thread nD τ).loc main_v50) = Cert.Results.postF (m' ((c.tc : Thread nD τ).loc main_arg1)) (m' ((c.tc : Thread nD τ).loc main_arg3))
      ∧ r.2.mem ((c.tc : Thread nD τ).loc main_v22) = Cert.Results.postR (m' ((c.tc : Thread nD τ).loc main_arg0)) (m' ((c.tc : Thread nD τ).loc main_arg2))
      ∧ r.2.mem ((c.tc : Thread nD τ).loc main_v140) = Cert.Results.fused (m' ((c.tc : Thread nD τ).loc main_arg0)) (m' ((c.tc : Thread nD τ).loc main_arg1)) (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run _ _ _).mono (fun _ h c => by
    obtain ⟨h81, h88, h50, h22, h140, ha0, ha1, ha2, ha3⟩ := h c
    exact ⟨h81.trans (lossFR_eq _ _ _ _), h88.trans (lossRF_eq _ _ _ _), h50.trans (postF_eq _ _), h22.trans (postR_eq _ _),
      h140.trans (fused_eq _ _ _ _), ha0, ha1, ha2, ha3⟩)
    (Cert.ReferenceIdeal.Stages.run_stages (F := Ideal) m' ρ')

/-- The reference runs and leaves its four arguments as they were: its run with the results dropped. -/
theorem ref_frame (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => (h c).2.2.2.2.2) (Cert.ReferenceIdeal.Stages.run_stages (F := Ideal) m ρ)

end Cert.RefSpec

end
-- ==== Proof.lean ====
/-
  The certificate of `Cert.Claim`: the kernel's program (two pallas_calls around eighteen host operations) against its
  jnp reference, over the extended reals.

  Both programs compute, per modality, the posterior `p = e / Σ e` of every target row against 64 prototype rows with
  `e = exp (-√(max (|x|² - 2⟨x, p⟩ + |p|², 0)))`, its confidence (the row maximum) and entropy; the fused posterior; and
  two losses: over the first `n_f` (resp. `n_r`) rows the confidence times the class-mean of `p (log p - q)`, summed
  and divided by the total confidence, where `n_r` counts the rows whose rgb entropy and confidence both exceed the
  flow ones.  The kernel works on blocks of 1024 rows and accumulates the loss sums block by block; the reference
  works on whole arrays.  At the ideal values both end with the same five arrays (`Cert.Results`): sums may be taken
  in any order, a bf16 rounding is the identity, `0 - x` is `-x`.

  * the three frames: the kernel programs' by the launch over their four segments (two regions, two host
    stretches), the reference's by its run with the results dropped;
  * `preserves`: the ideal pass rewrote nothing;
  * `algebraic`: the kernel program's run and the reference's run, both stated over `Cert.Results` of their own
    arguments, which agree.
-/
import proofs.«137920_j38130719653975_1_alg».proof.Defs
import proofs.«137920_j38130719653975_1_alg».proof.Proof.Gen.Kernel
import proofs.«137920_j38130719653975_1_alg».proof.Proof.Gen.KernelIdeal
import proofs.«137920_j38130719653975_1_alg».proof.Proof.Gen.ReferenceIdeal
import proofs.«137920_j38130719653975_1_alg».proof.Proof.Gen.Pre_finite_inputs
import proofs.«137920_j38130719653975_1_alg».proof.Proof.KRun
import proofs.«137920_j38130719653975_1_alg».proof.Proof.KernelVal
import proofs.«137920_j38130719653975_1_alg».proof.Proof.RefRunSpec
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ => Cert.Kernel.Hand.frame_args (F := Bits) m ρ

/-- So does the idealized program. -/
theorem frame_ki : Cert.frame_KernelIdeal := fun m ρ _ => Cert.KernelIdeal.Hand.frame_args (F := Ideal) m ρ

/-- The reference's frame is its run with the results dropped. -/
theorem frame_ri : Cert.frame_ReferenceIdeal := fun m ρ _ => Cert.RefSpec.ref_frame m ρ

/-- The ideal pass rewrote no operation. -/
theorem preserves : Cert.preserves_Kernel_KernelIdeal := trivial

/-- Both programs end with `Cert.Results`' five arrays of their own arguments; the arguments agree. -/
theorem algebraic : Cert.algebraic_KernelIdeal_ReferenceIdeal := by
  intro m ρ m' ρ' _ hagree
  refine ⟨_, _, _, _, _, Cert.KernelIdeal.KVal.kernel_run m ρ, ?_⟩
  refine (θ_run Cert.ReferenceIdeal.defs _ _).mono (fun _ h c => ?_) (Cert.RefSpec.ref_run m' ρ')
  obtain ⟨h0, h1, h2, h3, h4, h5, h6, h7, h8⟩ := h c
  obtain ⟨e0, e1, e2, e3⟩ := hagree c
  refine ⟨h0.trans ?_, h1.trans ?_, h2.trans ?_, h3.trans ?_, h4.trans ?_, h5, h6, h7, h8⟩
  · rw [e0, e1, e2, e3]
  · rw [e0, e1, e2, e3]
  · rw [e1, e3]
  · rw [e0, e2]
  · rw [e0, e1, e2, e3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
